-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v23_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S500000x3 : Shape := ⟨2, ![500000, 3]⟩
abbrev S2500x3x3 : Shape := ⟨3, ![2500, 3, 3]⟩
abbrev S2500x3 : Shape := ⟨2, ![2500, 3]⟩
abbrev S3x64 : Shape := ⟨2, ![3, 64]⟩
abbrev S4x64x83 : Shape := ⟨3, ![4, 64, 83]⟩
abbrev S4x83 : Shape := ⟨2, ![4, 83]⟩
abbrev S4x83x1 : Shape := ⟨3, ![4, 83, 1]⟩
abbrev S4x1 : Shape := ⟨2, ![4, 1]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S2500x3x3 : S_.BroadcastsInDim S2500x3x3 (![] : Fin 0 → Fin S2500x3x3.rank)
  reducesTo_S2500x3x3_S_d0_1_2 : S2500x3x3.ReducesTo [0, 1, 2] S_
  bcast_S_S3x64 : S_.BroadcastsInDim S3x64 (![] : Fin 0 → Fin S3x64.rank)
  reducesTo_S3x64_S_d0_1 : S3x64.ReducesTo [0, 1] S_
  bcast_S_S4x64x83 : S_.BroadcastsInDim S4x64x83 (![] : Fin 0 → Fin S4x64x83.rank)
  reducesTo_S4x64x83_S_d0_1_2 : S4x64x83.ReducesTo [0, 1, 2] S_
  bcast_S_S4x83 : S_.BroadcastsInDim S4x83 (![] : Fin 0 → Fin S4x83.rank)
  reducesTo_S4x83_S_d0_1 : S4x83.ReducesTo [0, 1] S_
  bcast_S_S4x83x1 : S_.BroadcastsInDim S4x83x1 (![] : Fin 0 → Fin S4x83x1.rank)
  reducesTo_S4x83x1_S_d0_1_2 : S4x83x1.ReducesTo [0, 1, 2] S_
  bcast_S_S4x1 : S_.BroadcastsInDim S4x1 (![] : Fin 0 → Fin S4x1.rank)
  reducesTo_S4x1_S_d0_1 : S4x1.ReducesTo [0, 1] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg3 : IVec S500000 32) (main_v33 : IVec S_ 1) : IVec S_ 1 :=
  let main_c_12 : IVec S_ 32 := constantI S_ 32 0#32
  let main_v34 : IVec S500000 32 := broadcastInDim S500000 ![] bcast_S_S500000 main_c_12
  let main_v35 : IVec S500000 1 := cmpi .sge main_arg3 main_v34
  let main_c_13 : IVec S_ 1 := constantI S_ 1 1#1
  let main_v36 : IVec S_ 1 := (fun x v => Host.reduce IntOp.andi x v reducesTo_S500000_S_d0 h_S_) main_v35 main_c_13
  let main_v37 : IVec S_ 1 := andi main_v33 main_v36
  let main_c_14 : IVec S_ 32 := constantI S_ 32 2500#32
  let main_v38 : IVec S500000 32 := broadcastInDim S500000 ![] bcast_S_S500000 main_c_14
  let main_v39 : IVec S500000 1 := cmpi .slt main_arg3 main_v38
  let main_c_15 : IVec S_ 1 := constantI S_ 1 1#1
  let main_v40 : IVec S_ 1 := (fun x v => Host.reduce IntOp.andi x v reducesTo_S500000_S_d0 h_S_) main_v39 main_c_15
  let main_v41 : IVec S_ 1 := andi main_v37 main_v40
  main_v41

def fn_part1 {F : FTy → Type} [FloatOps F] (main_arg3 : IVec S500000 32) (main_arg7 : FVec F S4x83 .f32) (main_arg8 : FVec F S4x83x1 .f32) (main_arg9 : FVec F S4x1 .f32) (main_v13 : IVec S_ 1) (main_v16 : IVec S4x64x83 1) : IVec S_ 1 :=
  let main_c_5 : IVec S_ 1 := constantI S_ 1 1#1
  let main_v17 : IVec S_ 1 := (fun x v => Host.reduce IntOp.andi x v reducesTo_S4x64x83_S_d0_1_2 h_S_) main_v16 main_c_5
  let main_v18 : IVec S_ 1 := andi main_v13 main_v17
  let main_v19 : FVec F S4x83 .f32 := Host.absf main_arg7
  let main_cst_6 : FVec F S_ .f32 := constant S_ .f32 0x7F800000#32
  let main_v20 : FVec F S4x83 .f32 := broadcastInDim S4x83 ![] bcast_S_S4x83 main_cst_6
  let main_v21 : IVec S4x83 1 := cmpf .olt main_v19 main_v20
  let main_c_7 : IVec S_ 1 := constantI S_ 1 1#1
  let main_v22 : IVec S_ 1 := (fun x v => Host.reduce IntOp.andi x v reducesTo_S4x83_S_d0_1 h_S_) main_v21 main_c_7
  let main_v23 : IVec S_ 1 := andi main_v18 main_v22
  let main_v24 : FVec F S4x83x1 .f32 := Host.absf main_arg8
  let main_cst_8 : FVec F S_ .f32 := constant S_ .f32 0x7F800000#32
  let main_v25 : FVec F S4x83x1 .f32 := broadcastInDim S4x83x1 ![] bcast_S_S4x83x1 main_cst_8
  let main_v26 : IVec S4x83x1 1 := cmpf .olt main_v24 main_v25
  let main_c_9 : IVec S_ 1 := constantI S_ 1 1#1
  let main_v27 : IVec S_ 1 := (fun x v => Host.reduce IntOp.andi x v reducesTo_S4x83x1_S_d0_1_2 h_S_) main_v26 main_c_9
  let main_v28 : IVec S_ 1 := andi main_v23 main_v27
  let main_v29 : FVec F S4x1 .f32 := Host.absf main_arg9
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  fn_part2 (F := F) main_arg3 main_v33

def fn {F : FTy → Type} [FloatOps F] (main_arg0 : IVec S500000 32) (main_arg1 : FVec F S500000x3 .f32) (main_arg2 : FVec F S2500x3x3 .f32) (main_arg3 : IVec S500000 32) (main_arg4 : IVec S2500x3 1) (main_arg5 : FVec F S3x64 .f32) (main_arg6 : FVec F S4x64x83 .f32) (main_arg7 : FVec F S4x83 .f32) (main_arg8 : FVec F S4x83x1 .f32) (main_arg9 : FVec F S4x1 .f32) : IVec S_ 1 :=
  let main_v0 : FVec F S500000x3 .f32 := Host.absf main_arg1
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S2500x3x3 .f32 := Host.absf main_arg2
  let main_cst_0 : FVec F S_ .f32 := constant S_ .f32 0x7F800000#32
  let main_v5 : FVec F S2500x3x3 .f32 := broadcastInDim S2500x3x3 ![] bcast_S_S2500x3x3 main_cst_0
  let main_v6 : IVec S2500x3x3 1 := cmpf .olt main_v4 main_v5
  let main_c_1 : IVec S_ 1 := constantI S_ 1 1#1
  let main_v7 : IVec S_ 1 := (fun x v => Host.reduce IntOp.andi x v reducesTo_S2500x3x3_S_d0_1_2 h_S_) main_v6 main_c_1
  let main_v8 : IVec S_ 1 := andi main_v3 main_v7
  let main_v9 : FVec F S3x64 .f32 := Host.absf main_arg5
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S4x64x83 .f32 := Host.absf main_arg6
  let main_cst_4 : FVec F S_ .f32 := constant S_ .f32 0x7F800000#32
  let main_v15 : FVec F S4x64x83 .f32 := broadcastInDim S4x64x83 ![] bcast_S_S4x64x83 main_cst_4
  let main_v16 : IVec S4x64x83 1 := cmpf .olt main_v14 main_v15
  fn_part1 (F := F) main_arg3 main_arg7 main_arg8 main_arg9 main_v13 main_v16
-- ==== Kernel.lean ====
abbrev S500000 : Shape := ⟨1, ![500000]⟩
abbrev S500000x3 : Shape := ⟨2, ![500000, 3]⟩
abbrev S2500x3x3 : Shape := ⟨3, ![2500, 3, 3]⟩
abbrev S2500x3 : Shape := ⟨2, ![2500, 3]⟩
abbrev S3x64 : Shape := ⟨2, ![3, 64]⟩
abbrev S4x64x83 : Shape := ⟨3, ![4, 64, 83]⟩
abbrev S4x83 : Shape := ⟨2, ![4, 83]⟩
abbrev S4x83x1 : Shape := ⟨3, ![4, 83, 1]⟩
abbrev S4x1 : Shape := ⟨2, ![4, 1]⟩
abbrev S500000x1 : Shape := ⟨2, ![500000, 1]⟩
abbrev S_ : Shape := ⟨0, ![]⟩
abbrev S4x64x96 : Shape := ⟨3, ![4, 64, 96]⟩
abbrev S1 : Shape := ⟨1, ![1]⟩
abbrev S64x4x96 : Shape := ⟨3, ![64, 4, 96]⟩
abbrev S64x384 : Shape := ⟨2, ![64, 384]⟩
abbrev S4x96x64 : Shape := ⟨3, ![4, 96, 64]⟩
abbrev S384x64 : Shape := ⟨2, ![384, 64]⟩
abbrev S4x96 : Shape := ⟨2, ![4, 96]⟩
abbrev S1x384 : Shape := ⟨2, ![1, 384]⟩
abbrev S4 : Shape := ⟨1, ![4]⟩
abbrev S384 : Shape := ⟨1, ![384]⟩
abbrev S1000x3 : Shape := ⟨2, ![1000, 3]⟩
abbrev S1000x1 : Shape := ⟨2, ![1000, 1]⟩
abbrev S1x64 : Shape := ⟨2, ![1, 64]⟩
abbrev S1000x64 : Shape := ⟨2, ![1000, 64]⟩
abbrev S1000x384 : Shape := ⟨2, ![1000, 384]⟩
abbrev S1000x96 : Shape := ⟨2, ![1000, 96]⟩
abbrev S1x96 : Shape := ⟨2, ![1, 96]⟩
abbrev S1000 : Shape := ⟨1, ![1000]⟩
abbrev S1x1 : Shape := ⟨2, ![1, 1]⟩
abbrev S2500 : Shape := ⟨1, ![2500]⟩

abbrev nBuf : Space → Nat
  | .hbm => 46
  | .vmem => 16
  | .smem => 0
  | _ => 0

abbrev bufTy : (tb : Table) → Fin (tcTables nBuf tb) → BufTy
  | .hbm, ⟨0, _⟩ => ⟨S500000, .i32⟩
  | .hbm, ⟨1, _⟩ => ⟨S500000x3, .f32⟩
  | .hbm, ⟨2, _⟩ => ⟨S2500x3x3, .f32⟩
  | .hbm, ⟨3, _⟩ => ⟨S500000, .i32⟩
  | .hbm, ⟨4, _⟩ => ⟨S2500x3, .i1⟩
  | .hbm, ⟨5, _⟩ => ⟨S3x64, .f32⟩
  | .hbm, ⟨6, _⟩ => ⟨S4x64x83, .f32⟩
  | .hbm, ⟨7, _⟩ => ⟨S4x83, .f32⟩
  | .hbm, ⟨8, _⟩ => ⟨S4x83x1, .f32⟩
  | .hbm, ⟨9, _⟩ => ⟨S4x1, .f32⟩
  | .hbm, ⟨10, _⟩ => ⟨S500000x1, .i32⟩
  | .hbm, ⟨11, _⟩ => ⟨S_, .f32⟩
  | .hbm, ⟨12, _⟩ => ⟨S4x64x96, .f32⟩
  | .hbm, ⟨13, _⟩ => ⟨S_, .i32⟩
  | .hbm, ⟨14, _⟩ => ⟨S1, .i32⟩
  | .hbm, ⟨15, _⟩ => ⟨S4x64x96, .f32⟩
  | .hbm, ⟨16, _⟩ => ⟨S64x4x96, .f32⟩
  | .hbm, ⟨17, _⟩ => ⟨S64x384, .f32⟩
  | .hbm, ⟨18, _⟩ => ⟨S64x384, .bf16⟩
  | .hbm, ⟨19, _⟩ => ⟨S4x96x64, .f32⟩
  | .hbm, ⟨20, _⟩ => ⟨S384x64, .f32⟩
  | .hbm, ⟨21, _⟩ => ⟨S384x64, .bf16⟩
  | .hbm, ⟨22, _⟩ => ⟨S_, .f32⟩
  | .hbm, ⟨23, _⟩ => ⟨S4x96, .f32⟩
  | .hbm, ⟨24, _⟩ => ⟨S_, .i32⟩
  | .hbm, ⟨25, _⟩ => ⟨S1, .i32⟩
  | .hbm, ⟨26, _⟩ => ⟨S4x96, .f32⟩
  | .hbm, ⟨27, _⟩ => ⟨S1x384, .f32⟩
  | .hbm, ⟨28, _⟩ => ⟨S_, .f32⟩
  | .hbm, ⟨29, _⟩ => ⟨S4x96, .f32⟩
  | .hbm, ⟨30, _⟩ => ⟨S4x83, .f32⟩
  | .hbm, ⟨31, _⟩ => ⟨S_, .i32⟩
  | .hbm, ⟨32, _⟩ => ⟨S1, .i32⟩
  | .hbm, ⟨33, _⟩ => ⟨S4x96, .f32⟩
  | .hbm, ⟨34, _⟩ => ⟨S1x384, .f32⟩
  | .hbm, ⟨35, _⟩ => ⟨S4, .i32⟩
  | .hbm, ⟨36, _⟩ => ⟨S4x96, .i32⟩
  | .hbm, ⟨37, _⟩ => ⟨S384, .i32⟩
  | .hbm, ⟨38, _⟩ => ⟨S1x384, .i32⟩
  | .hbm, ⟨39, _⟩ => ⟨S500000x1, .f32⟩
  | .hbm, ⟨40, _⟩ => ⟨S500000x3, .f32⟩
  | .hbm, ⟨41, _⟩ => ⟨S500000, .f32⟩
  | .hbm, ⟨42, _⟩ => ⟨S_, .f32⟩
  | .hbm, ⟨43, _⟩ => ⟨S2500, .f32⟩
  | .hbm, ⟨44, _⟩ => ⟨S500000x1, .i32⟩
  | .hbm, ⟨45, _⟩ => ⟨S2500, .f32⟩
  | .local _ .vmem, ⟨0, _⟩ => ⟨S1000x3, .f32⟩
  | .local _ .vmem, ⟨1, _⟩ => ⟨S1000x3, .f32⟩
  | .local _ .vmem, ⟨2, _⟩ => ⟨S1000x1, .i32⟩
  | .local _ .vmem, ⟨3, _⟩ => ⟨S1000x1, .i32⟩
  | .local _ .vmem, ⟨4, _⟩ => ⟨S3x64, .f32⟩
  | .local _ .vmem, ⟨5, _⟩ => ⟨S64x384, .bf16⟩
  | .local _ .vmem, ⟨6, _⟩ => ⟨S384x64, .bf16⟩
  | .local _ .vmem, ⟨7, _⟩ => ⟨S1x384, .f32⟩
  | .local _ .vmem, ⟨8, _⟩ => ⟨S4x96, .f32⟩
  | .local _ .vmem, ⟨9, _⟩ => ⟨S1x384, .f32⟩
  | .local _ .vmem, ⟨10, _⟩ => ⟨S4x1, .f32⟩
  | .local _ .vmem, ⟨11, _⟩ => ⟨S1x384, .i32⟩
  | .local _ .vmem, ⟨12, _⟩ => ⟨S1000x1, .f32⟩
  | .local _ .vmem, ⟨13, _⟩ => ⟨S1000x1, .f32⟩
  | .local _ .vmem, ⟨14, _⟩ => ⟨S1000x3, .f32⟩
  | .local _ .vmem, ⟨15, _⟩ => ⟨S1000x3, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S500000_S500000x1 : S500000.ShapeCasts S500000x1
  bcast_S_S4x64x96 : S_.BroadcastsInDim S4x64x96 (![] : Fin 0 → Fin S4x64x96.rank)
  bcast_S_S1 : S_.BroadcastsInDim S1 (![] : Fin 0 → Fin S1.rank)
  transposes_S4x64x96_S64x4x96_1_0_2 : S4x64x96.Transposes [1, 0, 2] S64x4x96
  shapeCasts_S64x4x96_S64x384 : S64x4x96.ShapeCasts S64x384
  bitsLt_bf16_f32 : FTy.bits .bf16 < FTy.bits .f32
  transposes_S4x64x96_S4x96x64_0_2_1 : S4x64x96.Transposes [0, 2, 1] S4x96x64
  shapeCasts_S4x96x64_S384x64 : S4x96x64.ShapeCasts S384x64
  bcast_S_S4x96 : S_.BroadcastsInDim S4x96 (![] : Fin 0 → Fin S4x96.rank)
  shapeCasts_S4x96_S1x384 : S4x96.ShapeCasts S1x384
  shapeCasts_S4x83x1_S4x83 : S4x83x1.ShapeCasts S4x83
  bcast_S4_S4x96_0 : S4.BroadcastsInDim S4x96 (![0] : Fin 1 → Fin S4x96.rank)
  shapeCasts_S4x96_S384 : S4x96.ShapeCasts S384
  shapeCasts_S384_S1x384 : S384.ShapeCasts S1x384
  inb_S1000x3_S1000x3_0_0 : ∀ a, (![0, 0] : Fin 2 → Nat) a + S1000x3.size a ≤ S1000x3.size a
  h_S1000x3 : 0 < S1000x3.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S3x64_S3x64_0_0 : ∀ a, (![0, 0] : Fin 2 → Nat) a + S3x64.size a ≤ S3x64.size a
  h_S3x64 : 0 < S3x64.numel
  slices_S3x64_o0_0_S1x64 : S3x64.Slices ![0, 0] S1x64
  slices_S3x64_o1_0_S1x64 : S3x64.Slices ![1, 0] S1x64
  slices_S3x64_o2_0_S1x64 : S3x64.Slices ![2, 0] S1x64
  slices_S1000x3_o0_0_S1000x1 : S1000x3.Slices ![0, 0] S1000x1
  slices_S1000x3_o0_1_S1000x1 : S1000x3.Slices ![0, 1] S1000x1
  slices_S1000x3_o0_2_S1000x1 : S1000x3.Slices ![0, 2] S1000x1
  broadcasts_S1000x1_S1000x64 : S1000x1.Broadcasts S1000x64
  broadcasts_S1x64_S1000x64 : S1x64.Broadcasts S1000x64
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  inb_S4x96_S4x96_0_0 : ∀ a, (![0, 0] : Fin 2 → Nat) a + S4x96.size a ≤ S4x96.size a
  h_S4x96 : 0 < S4x96.numel
  shapeCasts_S4x96_S4x96 : S4x96.ShapeCasts S4x96
  inb_S4x1_S4x1_0_0 : ∀ a, (![0, 0] : Fin 2 → Nat) a + S4x1.size a ≤ S4x1.size a
  h_S4x1 : 0 < S4x1.numel
  slices_S1000x384_o0_0_S1000x96 : S1000x384.Slices ![0, 0] S1000x96
  slices_S4x96_o0_0_S1x96 : S4x96.Slices ![0, 0] S1x96
  broadcasts_S1x96_S1000x96 : S1x96.Broadcasts S1000x96
  reduces_S1000x96_S1000 : S1000x96.Reduces [1] S1000
  shapeCasts_S1000_S1000x1 : S1000.ShapeCasts S1000x1
  slices_S4x1_o0_0_S1x1 : S4x1.Slices ![0, 0] S1x1
  broadcasts_S1x1_S1000x1 : S1x1.Broadcasts S1000x1
  slices_S1000x384_o0_96_S1000x96 : S1000x384.Slices ![0, 96] S1000x96
  slices_S4x96_o1_0_S1x96 : S4x96.Slices ![1, 0] S1x96
  slices_S4x1_o1_0_S1x1 : S4x1.Slices ![1, 0] S1x1
  slices_S1000x384_o0_192_S1000x96 : S1000x384.Slices ![0, 192] S1000x96
  slices_S4x96_o2_0_S1x96 : S4x96.Slices ![2, 0] S1x96
  slices_S4x1_o2_0_S1x1 : S4x1.Slices ![2, 0] S1x1
  slices_S1000x384_o0_288_S1000x96 : S1000x384.Slices ![0, 288] S1000x96
  slices_S4x96_o3_0_S1x96 : S4x96.Slices ![3, 0] S1x96
  slices_S4x1_o3_0_S1x1 : S4x1.Slices ![3, 0] S1x1
  broadcasts_S1000x1_S1000x384 : S1000x1.Broadcasts S1000x384
  inb_S384x64_S384x64_0_0 : ∀ a, (![0, 0] : Fin 2 → Nat) a + S384x64.size a ≤ S384x64.size a
  h_S384x64 : 0 < S384x64.numel
  shapeCasts_S384x64_S384x64 : S384x64.ShapeCasts S384x64
  reduces_S1000x64_S1000 : S1000x64.Reduces [1] S1000
  inb_S1000x3_S1000x1_0_0 : ∀ a, (![0, 0] : Fin 2 → Nat) a + S1000x1.size a ≤ S1000x3.size a
  inb_S1000x3_S1000x1_0_1 : ∀ a, (![0, 1] : Fin 2 → Nat) a + S1000x1.size a ≤ S1000x3.size a
  inb_S1000x3_S1000x1_0_2 : ∀ a, (![0, 2] : Fin 2 → Nat) a + S1000x1.size a ≤ S1000x3.size a
  shapeCasts_S500000x1_S500000 : S500000x1.ShapeCasts S500000
  bcast_S_S2500 : S_.BroadcastsInDim S2500 (![] : Fin 0 → Fin S2500.rank)
  bcast_S500000_S500000x1_0 : S500000.BroadcastsInDim S500000x1 (![0] : Fin 1 → Fin S500000x1.rank)
  scatter_S4x64x96_S1_S4x64x83_012_n_2_0_wf : ScatterDims.WF S4x64x96 S1 S4x64x83 [0, 1, 2] [] [2] 0
  scatter_S4x96_S1_S4x83_01_n_1_0_wf : ScatterDims.WF S4x96 S1 S4x83 [0, 1] [] [1] 0
  dot_S1000x64_S64x384_S1000x384_1_0_0_1_n_n_wf : DotDims.WF S1000x64 S64x384 S1000x384 [1] [0] [0] [1] [] []
  dot_S1000x384_S384x64_S1000x64_1_0_0_1_n_n_wf : DotDims.WF S1000x384 S384x64 S1000x64 [1] [0] [0] [1] [] []
  scatter_S2500_S500000x1_S500000_n_0_0_1_wf : ScatterDims.WF S2500 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S500000x3.size a
  hwx0_0 : ∀ i : grid0.Coords, EltTy.bits .f32 = 32 ∨ (Rect.block (s := S500000x3) S1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S500000x1.size a
  hwx0_1 : ∀ i : grid0.Coords, EltTy.bits .i32 = 32 ∨ (Rect.block (s := S500000x1) S1000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x384.size a ≤ S64x384.size a
  hwx0_3 : ∀ i : grid0.Coords, EltTy.bits .bf16 = 32 ∨ (Rect.block (s := S64x384) S64x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x64.size a ≤ S384x64.size a
  hwx0_4 : ∀ i : grid0.Coords, EltTy.bits .bf16 = 32 ∨ (Rect.block (s := S384x64) S384x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x96.size a ≤ S4x96.size a
  hwx0_6 : ∀ i : grid0.Coords, EltTy.bits .f32 = 32 ∨ (Rect.block (s := S4x96) S4x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1.size a ≤ S4x1.size a
  hwx0_8 : ∀ i : grid0.Coords, EltTy.bits .f32 = 32 ∨ (Rect.block (s := S4x1) S4x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .i32 = 32 ∨ (Rect.block (s := S1x384) S1x384.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x1.size a ≤ S500000x1.size a
  hwx0_10 : ∀ i : grid0.Coords, EltTy.bits .f32 = 32 ∨ (Rect.block (s := S500000x1) S1000x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x3.size a ≤ S500000x3.size a
  hwx0_11 : ∀ i : grid0.Coords, EltTy.bits .f32 = 32 ∨ (Rect.block (s := S500000x3) S1000x3.size (cc0_transform_11 i) (hinb0_11 i)).WholeWords (EltTy.packing .f32)

variable [Facts₀]

def scatter_S4x64x96_S1_S4x64x83_012_n_2_0 : ScatterDims S4x64x96 S1 S4x64x83 where
  updateWindowDims := [0, 1, 2]
  insertedWindowDims := []
  scatterDimsToOperandDims := [2]
  indexVectorDim := 0
  wf := scatter_S4x64x96_S1_S4x64x83_012_n_2_0_wf
def scatter_S4x96_S1_S4x83_01_n_1_0 : ScatterDims S4x96 S1 S4x83 where
  updateWindowDims := [0, 1]
  insertedWindowDims := []
  scatterDimsToOperandDims := [1]
  indexVectorDim := 0
  wf := scatter_S4x96_S1_S4x83_01_n_1_0_wf
def dot_S1000x64_S64x384_S1000x384_1_0_0_1_n_n : DotDims S1000x64 S64x384 S1000x384 where
  lhsContracting := [1]
  rhsContracting := [0]
  lhsNonContracting := [0]
  rhsNonContracting := [1]
  lhsBatch := []
  rhsBatch := []
  wf := dot_S1000x64_S64x384_S1000x384_1_0_0_1_n_n_wf
def dot_S1000x384_S384x64_S1000x64_1_0_0_1_n_n : DotDims S1000x384 S384x64 S1000x64 where
  lhsContracting := [1]
  rhsContracting := [0]
  lhsNonContracting := [0]
  rhsNonContracting := [1]
  lhsBatch := []
  rhsBatch := []
  wf := dot_S1000x384_S384x64_S1000x64_1_0_0_1_n_n_wf
def scatter_S2500_S500000x1_S500000_n_0_0_1 : ScatterDims S2500 S500000x1 S500000 where
  updateWindowDims := []
  insertedWindowDims := [0]
  scatterDimsToOperandDims := [0]
  indexVectorDim := 1
  wf := scatter_S2500_S500000x1_S500000_n_0_0_1_wf

abbrev win0_0 : Pipeline.Window sig grid0 :=
  Pipeline.Window.ofSpec (Memref.whole main_arg1) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S384x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S4x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S4x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23_0) S1000x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v23_1) S1000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S500000 : Shape := ⟨1, ![500000]⟩
abbrev S500000x3 : Shape := ⟨2, ![500000, 3]⟩
abbrev S2500x3x3 : Shape := ⟨3, ![2500, 3, 3]⟩
abbrev S2500x3 : Shape := ⟨2, ![2500, 3]⟩
abbrev S3x64 : Shape := ⟨2, ![3, 64]⟩
abbrev S4x64x83 : Shape := ⟨3, ![4, 64, 83]⟩
abbrev S4x83 : Shape := ⟨2, ![4, 83]⟩
abbrev S4x83x1 : Shape := ⟨3, ![4, 83, 1]⟩
abbrev S4x1 : Shape := ⟨2, ![4, 1]⟩
abbrev S500000x64 : Shape := ⟨2, ![500000, 64]⟩
abbrev S_ : Shape := ⟨0, ![]⟩
abbrev S1x64x83 : Shape := ⟨3, ![1, 64, 83]⟩
abbrev S64x83 : Shape := ⟨2, ![64, 83]⟩
abbrev S500000x83 : Shape := ⟨2, ![500000, 83]⟩
abbrev S1x83 : Shape := ⟨2, ![1, 83]⟩
abbrev S83 : Shape := ⟨1, ![83]⟩
abbrev S1x83x1 : Shape := ⟨3, ![1, 83, 1]⟩
abbrev S83x1 : Shape := ⟨2, ![83, 1]⟩
abbrev S500000x1 : Shape := ⟨2, ![500000, 1]⟩
abbrev S1x1 : Shape := ⟨2, ![1, 1]⟩
abbrev S1 : Shape := ⟨1, ![1]⟩
abbrev S2500 : Shape := ⟨1, ![2500]⟩

abbrev nBuf : Space → Nat
  | .hbm => 225
  | .vmem => 0
  | .smem => 0
  | _ => 0

abbrev hbmTy0_0 (i : Nat) : BufTy := match i % 128 with
  | 0 => ⟨S500000, .i32⟩
  | 1 => ⟨S500000x3, .f32⟩
  | 2 => ⟨S2500x3x3, .f32⟩
  | 3 => ⟨S500000, .i32⟩
  | 4 => ⟨S2500x3, .i1⟩
  | 5 => ⟨S3x64, .f32⟩
  | 6 => ⟨S4x64x83, .f32⟩
  | 7 => ⟨S4x83, .f32⟩
  | 8 => ⟨S4x83x1, .f32⟩
  | 9 => ⟨S4x1, .f32⟩
  | 10 => ⟨S500000x64, .f32⟩
  | 11 => ⟨S500000x64, .f32⟩
  | 12 => ⟨S500000x64, .f32⟩
  | 13 => ⟨S_, .f32⟩
  | 14 => ⟨S500000, .f32⟩
  | 15 => ⟨S1x64x83, .f32⟩
  | 16 => ⟨S64x83, .f32⟩
  | 17 => ⟨S500000x83, .f32⟩
  | 18 => ⟨S1x83, .f32⟩
  | 19 => ⟨S83, .f32⟩
  | 20 => ⟨S1x83, .f32⟩
  | 21 => ⟨S500000x83, .f32⟩
  | 22 => ⟨S500000x83, .f32⟩
  | 23 => ⟨S500000x83, .f32⟩
  | 24 => ⟨S500000x83, .f32⟩
  | 25 => ⟨S_, .f32⟩
  | 26 => ⟨S500000x83, .f32⟩
  | 27 => ⟨S500000x83, .f32⟩
  | 28 => ⟨S_, .f32⟩
  | 29 => ⟨S500000x83, .f32⟩
  | 30 => ⟨S500000x83, .f32⟩
  | 31 => ⟨S_, .f32⟩
  | 32 => ⟨S500000x83, .f32⟩
  | 33 => ⟨S500000x83, .f32⟩
  | 34 => ⟨S500000x83, .f32⟩
  | 35 => ⟨S500000x83, .f32⟩
  | 36 => ⟨S1x83x1, .f32⟩
  | 37 => ⟨S83x1, .f32⟩
  | 38 => ⟨S500000x1, .f32⟩
  | 39 => ⟨S1x1, .f32⟩
  | 40 => ⟨S1, .f32⟩
  | 41 => ⟨S1x1, .f32⟩
  | 42 => ⟨S500000x1, .f32⟩
  | 43 => ⟨S500000x1, .f32⟩
  | 44 => ⟨S500000, .f32⟩
  | 45 => ⟨S_, .i32⟩
  | 46 => ⟨S500000, .i32⟩
  | 47 => ⟨S500000, .i1⟩
  | 48 => ⟨S500000, .f32⟩
  | 49 => ⟨S_, .f32⟩
  | 50 => ⟨S500000, .f32⟩
  | 51 => ⟨S1x64x83, .f32⟩
  | 52 => ⟨S64x83, .f32⟩
  | 53 => ⟨S500000x83, .f32⟩
  | 54 => ⟨S1x83, .f32⟩
  | 55 => ⟨S83, .f32⟩
  | 56 => ⟨S1x83, .f32⟩
  | 57 => ⟨S500000x83, .f32⟩
  | 58 => ⟨S500000x83, .f32⟩
  | 59 => ⟨S500000x83, .f32⟩
  | 60 => ⟨S500000x83, .f32⟩
  | 61 => ⟨S_, .f32⟩
  | 62 => ⟨S500000x83, .f32⟩
  | 63 => ⟨S500000x83, .f32⟩
  | 64 => ⟨S_, .f32⟩
  | 65 => ⟨S500000x83, .f32⟩
  | 66 => ⟨S500000x83, .f32⟩
  | 67 => ⟨S_, .f32⟩
  | 68 => ⟨S500000x83, .f32⟩
  | 69 => ⟨S500000x83, .f32⟩
  | 70 => ⟨S500000x83, .f32⟩
  | 71 => ⟨S500000x83, .f32⟩
  | 72 => ⟨S1x83x1, .f32⟩
  | 73 => ⟨S83x1, .f32⟩
  | 74 => ⟨S500000x1, .f32⟩
  | 75 => ⟨S1x1, .f32⟩
  | 76 => ⟨S1, .f32⟩
  | 77 => ⟨S1x1, .f32⟩
  | 78 => ⟨S500000x1, .f32⟩
  | 79 => ⟨S500000x1, .f32⟩
  | 80 => ⟨S500000, .f32⟩
  | 81 => ⟨S_, .i32⟩
  | 82 => ⟨S500000, .i32⟩
  | 83 => ⟨S500000, .i1⟩
  | 84 => ⟨S500000, .f32⟩
  | 85 => ⟨S1x64x83, .f32⟩
  | 86 => ⟨S64x83, .f32⟩
  | 87 => ⟨S500000x83, .f32⟩
  | 88 => ⟨S1x83, .f32⟩
  | 89 => ⟨S83, .f32⟩
  | 90 => ⟨S1x83, .f32⟩
  | 91 => ⟨S500000x83, .f32⟩
  | 92 => ⟨S500000x83, .f32⟩
  | 93 => ⟨S500000x83, .f32⟩
  | 94 => ⟨S500000x83, .f32⟩
  | 95 => ⟨S_, .f32⟩
  | 96 => ⟨S500000x83, .f32⟩
  | 97 => ⟨S500000x83, .f32⟩
  | 98 => ⟨S_, .f32⟩
  | 99 => ⟨S500000x83, .f32⟩
  | 100 => ⟨S500000x83, .f32⟩
  | 101 => ⟨S_, .f32⟩
  | 102 => ⟨S500000x83, .f32⟩
  | 103 => ⟨S500000x83, .f32⟩
  | 104 => ⟨S500000x83, .f32⟩
  | 105 => ⟨S500000x83, .f32⟩
  | 106 => ⟨S1x83x1, .f32⟩
  | 107 => ⟨S83x1, .f32⟩
  | 108 => ⟨S500000x1, .f32⟩
  | 109 => ⟨S1x1, .f32⟩
  | 110 => ⟨S1, .f32⟩
  | 111 => ⟨S1x1, .f32⟩
  | 112 => ⟨S500000x1, .f32⟩
  | 113 => ⟨S500000x1, .f32⟩
  | 114 => ⟨S500000, .f32⟩
  | 115 => ⟨S_, .i32⟩
  | 116 => ⟨S500000, .i32⟩
  | 117 => ⟨S500000, .i1⟩
  | 118 => ⟨S500000, .f32⟩
  | 119 => ⟨S1x64x83, .f32⟩
  | 120 => ⟨S64x83, .f32⟩
  | 121 => ⟨S500000x83, .f32⟩
  | 122 => ⟨S1x83, .f32⟩
  | 123 => ⟨S83, .f32⟩
  | 124 => ⟨S1x83, .f32⟩
  | 125 => ⟨S500000x83, .f32⟩
  | 126 => ⟨S500000x83, .f32⟩
  | 127 => ⟨S500000x83, .f32⟩
  | _ => ⟨S500000, .i32⟩

abbrev hbmTy0_1 (i : Nat) : BufTy := match i % 128 with
  | 0 => ⟨S500000x83, .f32⟩
  | 1 => ⟨S_, .f32⟩
  | 2 => ⟨S500000x83, .f32⟩
  | 3 => ⟨S500000x83, .f32⟩
  | 4 => ⟨S_, .f32⟩
  | 5 => ⟨S500000x83, .f32⟩
  | 6 => ⟨S500000x83, .f32⟩
  | 7 => ⟨S_, .f32⟩
  | 8 => ⟨S500000x83, .f32⟩
  | 9 => ⟨S500000x83, .f32⟩
  | 10 => ⟨S500000x83, .f32⟩
  | 11 => ⟨S500000x83, .f32⟩
  | 12 => ⟨S1x83x1, .f32⟩
  | 13 => ⟨S83x1, .f32⟩
  | 14 => ⟨S500000x1, .f32⟩
  | 15 => ⟨S1x1, .f32⟩
  | 16 => ⟨S1, .f32⟩
  | 17 => ⟨S1x1, .f32⟩
  | 18 => ⟨S500000x1, .f32⟩
  | 19 => ⟨S500000x1, .f32⟩
  | 20 => ⟨S500000, .f32⟩
  | 21 => ⟨S_, .i32⟩
  | 22 => ⟨S500000, .i32⟩
  | 23 => ⟨S500000, .i1⟩
  | 24 => ⟨S500000, .f32⟩
  | 25 => ⟨S_, .f32⟩
  | 26 => ⟨S2500, .f32⟩
  | 27 => ⟨S500000x1, .i32⟩
  | 28 => ⟨S2500, .f32⟩
  | 29 => ⟨S_, .f32⟩
  | 30 => ⟨S2500, .f32⟩
  | 31 => ⟨S_, .f32⟩
  | 32 => ⟨S_, .f32⟩
  | 33 => ⟨S_, .f32⟩
  | 34 => ⟨S2500, .f32⟩
  | 35 => ⟨S1, .i32⟩
  | 36 => ⟨S_, .i32⟩
  | 37 => ⟨S500000x1, .i32⟩
  | 38 => ⟨S500000x1, .i1⟩
  | 39 => ⟨S1x1, .i32⟩
  | 40 => ⟨S500000x1, .i32⟩
  | 41 => ⟨S500000x1, .i1⟩
  | 42 => ⟨S500000x1, .i1⟩
  | 43 => ⟨S_, .i1⟩
  | 44 => ⟨S500000, .i1⟩
  | 45 => ⟨S500000, .f32⟩
  | 46 => ⟨S_, .f32⟩
  | 47 => ⟨S500000, .f32⟩
  | 48 => ⟨S500000, .f32⟩
  | 49 => ⟨S_, .f32⟩
  | 50 => ⟨S500000, .f32⟩
  | 51 => ⟨S500000, .f32⟩
  | 52 => ⟨S500000, .f32⟩
  | 53 => ⟨S500000x1, .f32⟩
  | 54 => ⟨S500000x83, .f32⟩
  | 55 => ⟨S500000x83, .f32⟩
  | 56 => ⟨S500000x83, .f32⟩
  | 57 => ⟨S500000x83, .f32⟩
  | 58 => ⟨S500000x83, .f32⟩
  | 59 => ⟨S500000x64, .f32⟩
  | 60 => ⟨S_, .f32⟩
  | 61 => ⟨S500000, .f32⟩
  | 62 => ⟨S500000, .f32⟩
  | 63 => ⟨S500000, .f32⟩
  | 64 => ⟨S500000x1, .f32⟩
  | 65 => ⟨S500000x83, .f32⟩
  | 66 => ⟨S500000x83, .f32⟩
  | 67 => ⟨S500000x83, .f32⟩
  | 68 => ⟨S500000x83, .f32⟩
  | 69 => ⟨S500000x83, .f32⟩
  | 70 => ⟨S500000x64, .f32⟩
  | 71 => ⟨S500000x64, .f32⟩
  | 72 => ⟨S_, .f32⟩
  | 73 => ⟨S500000, .f32⟩
  | 74 => ⟨S500000, .f32⟩
  | 75 => ⟨S500000, .f32⟩
  | 76 => ⟨S500000x1, .f32⟩
  | 77 => ⟨S500000x83, .f32⟩
  | 78 => ⟨S500000x83, .f32⟩
  | 79 => ⟨S500000x83, .f32⟩
  | 80 => ⟨S500000x83, .f32⟩
  | 81 => ⟨S500000x83, .f32⟩
  | 82 => ⟨S500000x64, .f32⟩
  | 83 => ⟨S500000x64, .f32⟩
  | 84 => ⟨S_, .f32⟩
  | 85 => ⟨S500000, .f32⟩
  | 86 => ⟨S500000, .f32⟩
  | 87 => ⟨S500000x1, .f32⟩
  | 88 => ⟨S500000x83, .f32⟩
  | 89 => ⟨S500000x83, .f32⟩
  | 90 => ⟨S500000x83, .f32⟩
  | 91 => ⟨S500000x83, .f32⟩
  | 92 => ⟨S500000x83, .f32⟩
  | 93 => ⟨S500000x64, .f32⟩
  | 94 => ⟨S500000x64, .f32⟩
  | 95 => ⟨S500000x64, .f32⟩
  | 96 => ⟨S500000x3, .f32⟩
  | _ => ⟨S500000, .i32⟩

abbrev hbmTy (i : Nat) : BufTy := match i / 128 with
  | 0 => hbmTy0_0 i
  | 1 => hbmTy0_1 i
  | _ => ⟨S500000, .i32⟩

abbrev bufTy : (tb : Table) → Fin (tcTables nBuf tb) → BufTy
  | .hbm, ⟨i, _⟩ => hbmTy i
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v12_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v12_1 : Ref sig .tc := ⟨.hbm, 34, rfl⟩
abbrev main_v12_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_call1_cst : Ref sig .tc := ⟨.hbm, 49, rfl⟩
abbrev main_v24_1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_v33_2 : Ref sig .tc := ⟨.hbm, 66, rfl⟩
abbrev main_call2_cst_1 : Ref sig .tc := ⟨.hbm, 67, rfl⟩
abbrev main_call2_v6 : Ref sig .tc := ⟨.hbm, 68, rfl⟩
abbrev main_call2_v7 : Ref sig .tc := ⟨.hbm, 69, rfl⟩
abbrev main_v33_1 : Ref sig .tc := ⟨.hbm, 70, rfl⟩
abbrev main_v33_0 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_0 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_call4_v0 : Ref sig .tc := ⟨.hbm, 93, rfl⟩
abbrev main_call4_v1 : Ref sig .tc := ⟨.hbm, 94, rfl⟩
abbrev main_call4_cst : Ref sig .tc := ⟨.hbm, 95, rfl⟩
abbrev main_call4_v2 : Ref sig .tc := ⟨.hbm, 96, rfl⟩
abbrev main_call4_v3 : Ref sig .tc := ⟨.hbm, 97, rfl⟩
abbrev main_call4_cst_0 : Ref sig .tc := ⟨.hbm, 98, rfl⟩
abbrev main_call4_v4 : Ref sig .tc := ⟨.hbm, 99, rfl⟩
abbrev main_v54_2 : Ref sig .tc := ⟨.hbm, 100, rfl⟩
abbrev main_call4_cst_1 : Ref sig .tc := ⟨.hbm, 101, rfl⟩
abbrev main_call4_v6 : Ref sig .tc := ⟨.hbm, 102, rfl⟩
abbrev main_call4_v7 : Ref sig .tc := ⟨.hbm, 103, rfl⟩
abbrev main_v54_1 : Ref sig .tc := ⟨.hbm, 104, rfl⟩
abbrev main_v54_0 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_1 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_call6_v0 : Ref sig .tc := ⟨.hbm, 127, rfl⟩
abbrev main_call6_v1 : Ref sig .tc := ⟨.hbm, 128, rfl⟩
abbrev main_call6_cst : Ref sig .tc := ⟨.hbm, 129, rfl⟩
abbrev main_call6_v2 : Ref sig .tc := ⟨.hbm, 130, rfl⟩
abbrev main_call6_v3 : Ref sig .tc := ⟨.hbm, 131, rfl⟩
abbrev main_call6_cst_0 : Ref sig .tc := ⟨.hbm, 132, rfl⟩
abbrev main_call6_v4 : Ref sig .tc := ⟨.hbm, 133, rfl⟩
abbrev main_v75_2 : Ref sig .tc := ⟨.hbm, 134, rfl⟩
abbrev main_call6_cst_1 : Ref sig .tc := ⟨.hbm, 135, rfl⟩
abbrev main_call6_v6 : Ref sig .tc := ⟨.hbm, 136, rfl⟩
abbrev main_call6_v7 : Ref sig .tc := ⟨.hbm, 137, rfl⟩
abbrev main_v75_1 : Ref sig .tc := ⟨.hbm, 138, rfl⟩
abbrev main_v75_0 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_c_2 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_3 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_4 : Ref sig .tc := ⟨.hbm, 157, rfl⟩
abbrev main_v91 : Ref sig .tc := ⟨.hbm, 158, rfl⟩
abbrev main_cst_5 : Ref sig .tc := ⟨.hbm, 159, rfl⟩
abbrev main_v92 : Ref sig .tc := ⟨.hbm, 160, rfl⟩
abbrev main_cst_6 : Ref sig .tc := ⟨.hbm, 161, rfl⟩
abbrev main_v93 : Ref sig .tc := ⟨.hbm, 162, rfl⟩
abbrev main_c_7 : Ref sig .tc := ⟨.hbm, 163, rfl⟩
abbrev main_c_8 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_c_9 : Ref sig .tc := ⟨.hbm, 171, rfl⟩
abbrev main_v100 : Ref sig .tc := ⟨.hbm, 172, rfl⟩
abbrev main_v101 : Ref sig .tc := ⟨.hbm, 173, rfl⟩
abbrev main_cst_10 : Ref sig .tc := ⟨.hbm, 174, rfl⟩
abbrev main_v102 : Ref sig .tc := ⟨.hbm, 175, rfl⟩
abbrev main_v103 : Ref sig .tc := ⟨.hbm, 176, rfl⟩
abbrev main_call8_cst : Ref sig .tc := ⟨.hbm, 177, rfl⟩
abbrev main_call8_v0 : Ref sig .tc := ⟨.hbm, 178, rfl⟩
abbrev main_v104_1 : Ref sig .tc := ⟨.hbm, 179, rfl⟩
abbrev main_v104_0 : Ref sig .tc := ⟨.hbm, 180, rfl⟩
abbrev main_v105 : Ref sig .tc := ⟨.hbm, 181, rfl⟩
abbrev main_v106 : Ref sig .tc := ⟨.hbm, 182, rfl⟩
abbrev main_call9_v0 : Ref sig .tc := ⟨.hbm, 183, rfl⟩
abbrev main_call9_v1 : Ref sig .tc := ⟨.hbm, 184, rfl⟩
abbrev main_call9_v2 : Ref sig .tc := ⟨.hbm, 185, rfl⟩
abbrev main_v107 : Ref sig .tc := ⟨.hbm, 186, rfl⟩
abbrev main_v108 : Ref sig .tc := ⟨.hbm, 187, rfl⟩
abbrev main_call10_cst : Ref sig .tc := ⟨.hbm, 188, rfl⟩
abbrev main_call10_v0 : Ref sig .tc := ⟨.hbm, 189, rfl⟩
abbrev main_v109_1 : Ref sig .tc := ⟨.hbm, 190, rfl⟩
abbrev main_v109_0 : Ref sig .tc := ⟨.hbm, 191, rfl⟩
abbrev main_v110 : Ref sig .tc := ⟨.hbm, 192, rfl⟩
abbrev main_v111 : Ref sig .tc := ⟨.hbm, 193, rfl⟩
abbrev main_call11_v0 : Ref sig .tc := ⟨.hbm, 194, rfl⟩
abbrev main_call11_v1 : Ref sig .tc := ⟨.hbm, 195, rfl⟩
abbrev main_call11_v2 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_call12_cst : Ref sig .tc := ⟨.hbm, 200, rfl⟩
abbrev main_call12_v0 : Ref sig .tc := ⟨.hbm, 201, rfl⟩
abbrev main_v115_1 : Ref sig .tc := ⟨.hbm, 202, rfl⟩
abbrev main_v115_0 : Ref sig .tc := ⟨.hbm, 203, rfl⟩
abbrev main_v116 : Ref sig .tc := ⟨.hbm, 204, rfl⟩
abbrev main_v117 : Ref sig .tc := ⟨.hbm, 205, rfl⟩
abbrev main_call13_v0 : Ref sig .tc := ⟨.hbm, 206, rfl⟩
abbrev main_call13_v1 : Ref sig .tc := ⟨.hbm, 207, rfl⟩
abbrev main_call13_v2 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_call14_cst : Ref sig .tc := ⟨.hbm, 212, rfl⟩
abbrev main_call14_v0 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_call15_v0 : Ref sig .tc := ⟨.hbm, 217, rfl⟩
abbrev main_call15_v1 : Ref sig .tc := ⟨.hbm, 218, rfl⟩
abbrev main_call15_v2 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  slices_S4x64x83_S1x64x83_0_0_0 : S4x64x83.Slices ![0, 0, 0] S1x64x83
  shapeCasts_S1x64x83_S64x83 : S1x64x83.ShapeCasts S64x83
  slices_S4x83_S1x83_0_0 : S4x83.Slices ![0, 0] S1x83
  shapeCasts_S1x83_S83 : S1x83.ShapeCasts S83
  bcast_S83_S1x83_1 : S83.BroadcastsInDim S1x83 (![1] : Fin 1 → Fin S1x83.rank)
  bcast_S1x83_S500000x83_0_1 : S1x83.BroadcastsInDim S500000x83 (![0, 1] : Fin 2 → Fin S500000x83.rank)
  bcast_S_S500000x83 : S_.BroadcastsInDim S500000x83 (![] : Fin 0 → Fin S500000x83.rank)
  slices_S4x83x1_S1x83x1_0_0_0 : S4x83x1.Slices ![0, 0, 0] S1x83x1
  shapeCasts_S1x83x1_S83x1 : S1x83x1.ShapeCasts S83x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  slices_S4x64x83_S1x64x83_1_0_0 : S4x64x83.Slices ![1, 0, 0] S1x64x83
  slices_S4x83_S1x83_1_0 : S4x83.Slices ![1, 0] S1x83
  slices_S4x83x1_S1x83x1_1_0_0 : S4x83x1.Slices ![1, 0, 0] S1x83x1
  slices_S4x1_S1x1_1_0 : S4x1.Slices ![1, 0] S1x1
  slices_S4x64x83_S1x64x83_2_0_0 : S4x64x83.Slices ![2, 0, 0] S1x64x83
  slices_S4x83_S1x83_2_0 : S4x83.Slices ![2, 0] S1x83
  slices_S4x83x1_S1x83x1_2_0_0 : S4x83x1.Slices ![2, 0, 0] S1x83x1
  slices_S4x1_S1x1_2_0 : S4x1.Slices ![2, 0] S1x1
  slices_S4x64x83_S1x64x83_3_0_0 : S4x64x83.Slices ![3, 0, 0] S1x64x83
  slices_S4x83_S1x83_3_0 : S4x83.Slices ![3, 0] S1x83
  slices_S4x83x1_S1x83x1_3_0_0 : S4x83x1.Slices ![3, 0, 0] S1x83x1
  slices_S4x1_S1x1_3_0 : S4x1.Slices ![3, 0] S1x1
  bcast_S_S2500 : S_.BroadcastsInDim S2500 (![] : Fin 0 → Fin S2500.rank)
  bcast_S500000_S500000x1_0 : S500000.BroadcastsInDim S500000x1 (![0] : Fin 1 → Fin S500000x1.rank)
  reducesTo_S2500_S_d0 : S2500.ReducesTo [0] S_
  h_S_ : 0 < S_.numel
  bcast_S_S500000x1 : S_.BroadcastsInDim S500000x1 (![] : Fin 0 → Fin S500000x1.rank)
  reducesTo_S500000x1_S500000_d1 : S500000x1.ReducesTo [1] S500000
  dot_S500000x3_S3x64_S500000x64_1_0_0_1_n_n_wf : DotDims.WF S500000x3 S3x64 S500000x64 [1] [0] [0] [1] [] []
  dot_S500000x64_S64x83_S500000x83_1_0_0_1_n_n_wf : DotDims.WF S500000x64 S64x83 S500000x83 [1] [0] [0] [1] [] []
  dot_S500000x83_S83x1_S500000x1_1_0_0_1_n_n_wf : DotDims.WF S500000x83 S83x1 S500000x1 [1] [0] [0] [1] [] []
  scatter_S2500_S500000x1_S500000_n_0_0_1_wf : ScatterDims.WF S2500 S500000x1 S500000 [] [0] [0] 1
  gather_S2500_S500000x1_S500000_n_0_n_n_0_1_1_wf : GatherDims.WF S2500 S500000x1 S500000 [] [0] [] [0] [] 1 ![1]
  dot_S500000x1_S83x1_S500000x83_1_1_0_0_n_n_wf : DotDims.WF S500000x1 S83x1 S500000x83 [1] [1] [0] [0] [] []
  dot_S500000x83_S64x83_S500000x64_1_1_0_0_n_n_wf : DotDims.WF S500000x83 S64x83 S500000x64 [1] [1] [0] [0] [] []
  dot_S500000x64_S3x64_S500000x3_1_1_0_0_n_n_wf : DotDims.WF S500000x64 S3x64 S500000x3 [1] [1] [0] [0] [] []

variable [Facts₀]

def dot_S500000x3_S3x64_S500000x64_1_0_0_1_n_n : DotDims S500000x3 S3x64 S500000x64 where
  lhsContracting := [1]
  rhsContracting := [0]
  lhsNonContracting := [0]
  rhsNonContracting := [1]
  lhsBatch := []
  rhsBatch := []
  wf := dot_S500000x3_S3x64_S500000x64_1_0_0_1_n_n_wf
def dot_S500000x64_S64x83_S500000x83_1_0_0_1_n_n : DotDims S500000x64 S64x83 S500000x83 where
  lhsContracting := [1]
  rhsContracting := [0]
  lhsNonContracting := [0]
  rhsNonContracting := [1]
  lhsBatch := []
  rhsBatch := []
  wf := dot_S500000x64_S64x83_S500000x83_1_0_0_1_n_n_wf
def dot_S500000x83_S83x1_S500000x1_1_0_0_1_n_n : DotDims S500000x83 S83x1 S500000x1 where
  lhsContracting := [1]
  rhsContracting := [0]
  lhsNonContracting := [0]
  rhsNonContracting := [1]
  lhsBatch := []
  rhsBatch := []
  wf := dot_S500000x83_S83x1_S500000x1_1_0_0_1_n_n_wf
def scatter_S2500_S500000x1_S500000_n_0_0_1 : ScatterDims S2500 S500000x1 S500000 where
  updateWindowDims := []
  insertedWindowDims := [0]
  scatterDimsToOperandDims := [0]
  indexVectorDim := 1
  wf := scatter_S2500_S500000x1_S500000_n_0_0_1_wf
def gather_S2500_S500000x1_S500000_n_0_n_n_0_1_1 : GatherDims S2500 S500000x1 S500000 where
  offsetDims := []
  collapsedSliceDims := [0]
  operandBatchingDims := []
  startIndicesBatchingDims := []
  startIndexMap := [0]
  indexVectorDim := 1
  sliceSizes := ![1]
  wf := gather_S2500_S500000x1_S500000_n_0_n_n_0_1_1_wf
def dot_S500000x1_S83x1_S500000x83_1_1_0_0_n_n : DotDims S500000x1 S83x1 S500000x83 where
  lhsContracting := [1]
  rhsContracting := [1]
  lhsNonContracting := [0]
  rhsNonContracting := [0]
  lhsBatch := []
  rhsBatch := []
  wf := dot_S500000x1_S83x1_S500000x83_1_1_0_0_n_n_wf
def dot_S500000x83_S64x83_S500000x64_1_1_0_0_n_n : DotDims S500000x83 S64x83 S500000x64 where
  lhsContracting := [1]
  rhsContracting := [1]
  lhsNonContracting := [0]
  rhsNonContracting := [0]
  lhsBatch := []
  rhsBatch := []
  wf := dot_S500000x83_S64x83_S500000x64_1_1_0_0_n_n_wf
def dot_S500000x64_S3x64_S500000x3_1_1_0_0_n_n : DotDims S500000x64 S3x64 S500000x3 where
  lhsContracting := [1]
  rhsContracting := [1]
  lhsNonContracting := [0]
  rhsNonContracting := [0]
  lhsBatch := []
  rhsBatch := []
  wf := dot_S500000x64_S3x64_S500000x3_1_1_0_0_n_n_wf

class Facts : Prop extends Facts₀ where

variable [Facts]
-- ==== Proof.AtomSpec.lean ====
/-
  The mathematics both programs compute, one atom (one row) at a time, on the extended reals.

  An atom has a species word `sy` and a position `p : Fin 3 → EReal`.  Its descriptor is `sin (p · Wd)` (64 entries);
  species head `s` is the two-layer perceptron `z = desc · W1[s] + b1[s]` (83 entries), `silu z = z · gate z` with
  `gate z = 1 / (1 + exp (-z))`, energy `silu z · W2[s] + b2[s]`; the atom's energy is the head its species selects
  (zero for a species word outside 0..3).  The force is the derivative of that energy in the position: with
  `dgate z = gate z · (1 + z · (1 - gate z))` the derivative of `silu`, the chain rule gives
  `∑ j, (∑ h, dgate z[s,h] · W2[s,h] · W1[s,j,h]) · cos (p · Wd)[j] · Wd[k,j]` for the selected head `s`.

  The padded forms: the kernel stacks the four heads along one axis of 4 · 96 = 384 lanes, each head's 83 hidden
  units followed by 13 lanes of zero weights; `padW1`, `padB1`, `padW2` say what those stacked arrays hold, and
  `headCol` which head a lane belongs to.
-/
import Idealize.ShloMosaic.PureOps.Ideal
import Idealize.ShloMosaic.Lib.ValueIdx

noncomputable section

open scoped BigOperators

namespace Cert.AtomSpec

open Idealize.ShloMosaic Idealize.ShloMosaic.ValueIdx

/-- The shapes of the arguments and results, as literals. -/
abbrev Atoms : Shape := ⟨1, ![500000]⟩
abbrev Pos : Shape := ⟨2, ![500000, 3]⟩
abbrev Proj : Shape := ⟨2, ![3, 64]⟩
abbrev Hid : Shape := ⟨3, ![4, 64, 83]⟩
abbrev Bias : Shape := ⟨2, ![4, 83]⟩
abbrev Out : Shape := ⟨3, ![4, 83, 1]⟩
abbrev OutB : Shape := ⟨2, ![4, 1]⟩

section row

variable (sy : BitVec 32) (p : Fin 3 → EReal) (wd : Proj.Idx → EReal) (w1 : Hid.Idx → EReal) (b1 : Bias.Idx → EReal)
  (w2 : Out.Idx → EReal) (b2 : OutB.Idx → EReal)

/-- Entry `j` of the position's projection `p · Wd`. -/
def proj (j : Fin 64) : EReal :=
  p 0 * wd (ix2 0 j) + p 1 * wd (ix2 1 j) + p 2 * wd (ix2 2 j)

/-- The descriptor `sin (p · Wd)` and its derivative's factor `cos (p · Wd)`. -/
def desc (j : Fin 64) : EReal := Ideal.sin (proj p wd j)
def dcos (j : Fin 64) : EReal := Ideal.cos (proj p wd j)

/-- Head `s`'s hidden pre-activation, unit `h`. -/
def hid (s : Fin 4) (h : Fin 83) : EReal :=
  (∑ j : Fin 64, desc p wd j * w1 (ix3 s j h)) + b1 (ix2 s h)

/-- The logistic function, as both programs spell it. -/
def gate (z : EReal) : EReal := Ideal.div 1 (1 + Ideal.exp (-z))

/-- The derivative of `z · gate z`. -/
def dgate (z : EReal) : EReal := gate z * (1 + z * (1 - gate z))

/-- Head `s`'s energy. -/
def headE (s : Fin 4) : EReal :=
  (∑ h : Fin 83, (hid p wd w1 b1 s h * gate (hid p wd w1 b1 s h)) * w2 (ix3 s h 0)) + b2 (ix2 s 0)

/-- The atom's energy: the head its species word selects, the later head winning, zero for no head. -/
def atomE : EReal :=
  if sy = 3#32 then headE p wd w1 b1 w2 b2 3
  else if sy = 2#32 then headE p wd w1 b1 w2 b2 2
  else if sy = 1#32 then headE p wd w1 b1 w2 b2 1
  else if sy = 0#32 then headE p wd w1 b1 w2 b2 0
  else 0

/-- The energy's derivative in descriptor entry `j`: the selected head's, zero for no head. -/
def back (j : Fin 64) : EReal :=
  ∑ s : Fin 4, if sy = BitVec.ofNat 32 s.val then
      ∑ h : Fin 83, (dgate (hid p wd w1 b1 s h) * w2 (ix3 s h 0)) * w1 (ix3 s j h)
    else 0

/-- The atom's force component `k`: the energy's derivative in position coordinate `k`. -/
def atomF (k : Fin 3) : EReal :=
  ∑ j : Fin 64, (back sy p wd w1 b1 w2 j * dcos p wd j) * wd (ix2 k j)

end row

/-! ## The whole arrays -/

/-- Every atom's energy. -/
def energies (sym : Atoms.Idx → BitVec 32) (pos : Pos.Idx → EReal) (wd : Proj.Idx → EReal) (w1 : Hid.Idx → EReal)
    (b1 : Bias.Idx → EReal) (w2 : Out.Idx → EReal) (b2 : OutB.Idx → EReal) : Atoms.Idx → EReal :=
  fun i => atomE (sym i) (fun k => pos (ix2 (i 0) k)) wd w1 b1 w2 b2

/-- Every atom's force. -/
def forces (sym : Atoms.Idx → BitVec 32) (pos : Pos.Idx → EReal) (wd : Proj.Idx → EReal) (w1 : Hid.Idx → EReal)
    (b1 : Bias.Idx → EReal) (w2 : Out.Idx → EReal) : Pos.Idx → EReal :=
  fun i => atomF (sym (ix1 (i 0))) (fun k => pos (ix2 (i 0) k)) wd w1 b1 w2 (i 1)

/-! ## The stacked, zero-padded weights -/

theorem lane_head (q : Fin 384) : q.val / 96 < 4 := by omega
theorem lane_unit (q : Fin 384) : q.val % 96 < 96 := by omega

/-- Which head lane `q` of the 384 belongs to, and which of that head's 96 lanes it is. -/
def laneHead (q : Fin 384) : Fin 4 := ⟨q.val / 96, lane_head q⟩
def laneUnit (q : Fin 384) : Fin 96 := ⟨q.val % 96, lane_unit q⟩

/-- The first-layer weights stacked: row `j`, lane `q`. -/
def padW1 (w1 : Hid.Idx → EReal) (j : Fin 64) (q : Fin 384) : EReal :=
  if h : q.val % 96 < 83 then w1 (ix3 (laneHead q) j ⟨q.val % 96, h⟩) else 0

/-- The first-layer bias stacked. -/
def padB1 (b1 : Bias.Idx → EReal) (q : Fin 384) : EReal :=
  if h : q.val % 96 < 83 then b1 (ix2 (laneHead q) ⟨q.val % 96, h⟩) else 0

/-- The second-layer weights padded, head `s`, lane `u` of 96. -/
def padW2 (w2 : Out.Idx → EReal) (s : Fin 4) (u : Fin 96) : EReal :=
  if h : u.val < 83 then w2 (ix3 s ⟨u.val, h⟩ 0) else 0

/-- The head number of a lane, as the word the kernel compares species with. -/
def headCol (q : Fin 384) : BitVec 32 := BitVec.ofNat 32 (q.val / 96)

/-- The stacked hidden pre-activation at lane `q`: head `q / 96`'s unit `q % 96`, zero on the 13 padding lanes. -/
def laneHid (p : Fin 3 → EReal) (wd : Proj.Idx → EReal) (w1 : Hid.Idx → EReal) (b1 : Bias.Idx → EReal) (q : Fin 384) : EReal :=
  if h : q.val % 96 < 83 then hid p wd w1 b1 (laneHead q) ⟨q.val % 96, h⟩ else 0

/-! ## What the precondition gives -/

/-- Every entry is a real number (no infinity). -/
def AllReal {ι : Type} (f : ι → EReal) : Prop := ∀ i, ∃ x : ℝ, f i = (x : EReal)

/-- Every crystal index names one of the 2500 crystals. -/
def InRange (cidx : Atoms.Idx → BitVec 32) : Prop := ∀ i, 0 ≤ (cidx i).toInt ∧ (cidx i).toInt < 2500

end Cert.AtomSpec

end
-- ==== Proof.PreFacts.lean ====
/-
  What the precondition says, entry by entry: every position, projection weight, layer weight and bias is a real
  number, and every crystal index lies in 0 ≤ · < 2500.
-/
import proofs.«431511_j4320737100384_3_alg».proof.Pre_finite_inputs
import proofs.«431511_j4320737100384_3_alg».proof.Proof.AtomSpec
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx Cert.Pre_finite_inputs Cert.AtomSpec

instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- |x| < +∞ says x is a real number: the two infinities have magnitude +∞. -/
theorem real_of_abs_lt_inf (x : EReal)
    (h : Ideal.cmp .olt (max x (-x)) (Ideal.ofBits .f32 0x7F800000#32) = 1#1) : ∃ r : ℝ, x = (r : EReal) := by
  rw [ofBits_inf] at h
  simp only [Ideal.cmp, StableHlo.Predicate.ofBool_eq_one_iff, decide_eq_true_eq] at h
  induction x using EReal.rec with
  | bot => simp at h
  | top => simp at h
  | coe r => exact ⟨r, rfl⟩

/-- An "every entry has finite magnitude" test that came out true says every entry is a real number. -/
theorem allReal_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi
        (cmpf .olt (Host.absf x) (broadcastInDim s ![] hb (constant (F := Ideal) S_ .f32 0x7F800000#32))) init hr hu ix0 = 1#1) :
    AllReal x := by
  intro i
  have hi := Host.reduce_andi_all _ init hr hu ix0 e i
  rw [cmpf_apply, StableHlo.Predicate.bcast_scalar hb hu] at hi
  exact real_of_abs_lt_inf (x i) hi

/-- An entrywise word compare, a constant array and an entrywise "and", each read at one index. -/
theorem cmpi_at {s : Shape} {w : Nat} (p : CmpIPredicate) (x y : IVec s w) (i : s.Idx) :
    cmpi p x y i = IntOp.cmpi p (x i) (y i) := rfl
theorem constI_at {s : Shape} {w : Nat} (b : BitVec w) (i : s.Idx) : constantI s w b i = b := rfl
theorem andi_at {s : Shape} {w : Nat} (x y : IVec s w) (i : s.Idx) : andi x y i = IntOp.andi (x i) (y i) := rfl

/-- Signed compares of every entry against the constants 0 and 2500 that all came out true say every entry lies in
    0 ≤ · < 2500. -/
theorem inRange_of_all (a3 : IVec S500000 32) (hb : S_.BroadcastsInDim S500000 (![] : Fin 0 → Fin S500000.rank))
    {axes : List (Fin S500000.rank)} (hr : S500000.ReducesTo axes S_) (hu : 0 < S_.numel) (i0 i1 : IVec S_ 1)
    (e0 : Host.reduce IntOp.andi (cmpi .sge a3 (broadcastInDim S500000 ![] hb (constantI S_ 32 0#32))) i0 hr hu ix0 = 1#1)
    (e1 : Host.reduce IntOp.andi (cmpi .slt a3 (broadcastInDim S500000 ![] hb (constantI S_ 32 2500#32))) i1 hr hu ix0 = 1#1) :
    InRange a3 := by
  intro i
  have h0 := Host.reduce_andi_all _ i0 hr hu ix0 e0 i
  have h1 := Host.reduce_andi_all _ i1 hr hu ix0 e1 i
  rw [cmpi_at, StableHlo.Predicate.bcast_scalar hb hu, constI_at, IntOp.cmpi_sge] at h0
  rw [cmpi_at, StableHlo.Predicate.bcast_scalar hb hu, constI_at, IntOp.cmpi_slt] at h1
  exact ⟨by simpa using h0, by simpa using h1⟩

variable [Cert.Pre_finite_inputs.Facts]

/-- The precondition, read entry by entry. -/
theorem of_pre (a0 : IVec S500000 32) (a1 : FVec Ideal S500000x3 .f32) (a2 : FVec Ideal S2500x3x3 .f32) (a3 : IVec S500000 32)
    (a4 : IVec S2500x3 1) (a5 : FVec Ideal S3x64 .f32) (a6 : FVec Ideal S4x64x83 .f32) (a7 : FVec Ideal S4x83 .f32)
    (a8 : FVec Ideal S4x83x1 .f32) (a9 : FVec Ideal S4x1 .f32)
    (h : Cert.Pre_finite_inputs.fn (F := Ideal) a0 a1 a2 a3 a4 a5 a6 a7 a8 a9 = fun _ => 1#1) :
    AllReal a1 ∧ AllReal a5 ∧ AllReal a6 ∧ AllReal a7 ∧ AllReal a8 ∧ InRange a3 := by
  -- the printed function is a chain of "and"s of nine all-entries tests; read it at its one index and split it
  have e := congrFun h ix0
  unfold Cert.Pre_finite_inputs.fn Cert.Pre_finite_inputs.fn_part1 Cert.Pre_finite_inputs.fn_part2 at e
  dsimp only at e
  simp only [andi_at, IntOp.andi_eq_one] at e
  obtain ⟨⟨⟨⟨⟨⟨⟨⟨h1, -⟩, h5⟩, h6⟩, h7⟩, h8⟩, -⟩, h30⟩, h31⟩ := e
  exact ⟨allReal_of_all a1 _ _ _ _ h1, allReal_of_all a5 _ _ _ _ h5, allReal_of_all a6 _ _ _ _ h6, allReal_of_all a7 _ _ _ _ h7,
    allReal_of_all a8 _ _ _ _ h8, inRange_of_all a3 _ _ _ _ _ h30 h31⟩

end Cert.PreFacts

end
-- ==== Proof.KernelHid.lean ====
/-
  The kernel body's shared intermediate values read at one entry: the projection of a row's position, its sine and
  cosine, the stacked hidden pre-activation (one matrix product against the stacked first-layer weights plus the stacked
  bias), the logistic gate of it, and their product.
-/
import proofs.«431511_j4320737100384_3_alg».proof.Proof.Gen.KernelIdeal.Frame
import proofs.«431511_j4320737100384_3_alg».proof.Proof.AtomSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Body

open Idealize.ShloMosaic Idealize.ShloMosaic.ValueIdx Cert.KernelIdeal Cert.KernelIdeal.Gen Cert.AtomSpec

variable (v0 : Vec Ideal S1000x3 .f32) (v3 : Vec Ideal S3x64 .f32) (v24 : Vec Ideal S64x384 .bf16) (v27 : Vec Ideal S1x384 .f32)
  (w1 : Hid.Idx → EReal) (b1 : Bias.Idx → EReal)

/-- A column `[a, 1]` broadcast to `[a, b]` reads, at `(p, c)`, row `p`'s one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The projection of row `p`'s position, entry `j`. -/
theorem pay5_apply (p : Fin 1000) (j : Fin 64) :
    k0_pay5 (F := Ideal) v0 v3 (ix2 p j) = proj (fun k => v0 (ix2 p k)) v3 j := by
  unfold k0_pay5 k0_pay2 k0_pay3 k0_pay4 proj
  simp only [addf_apply, mulf_apply]
  rw [broadcastTo_a1_ab_apply, broadcastTo_a1_ab_apply, broadcastTo_a1_ab_apply,
    broadcastTo_1b_ab_apply, broadcastTo_1b_ab_apply, broadcastTo_1b_ab_apply]
  rw [slice2_axis1_apply 0 v0 _ p 0 0 rfl, slice2_axis1_apply 1 v0 _ p 0 1 rfl, slice2_axis1_apply 2 v0 _ p 0 2 rfl,
    slice2_axis0_apply 0 v3 _ 0 j 0 rfl, slice2_axis0_apply 1 v3 _ 0 j 1 rfl, slice2_axis0_apply 2 v3 _ 0 j 2 rfl]

/-- Its cosine. -/
theorem pay6_apply (p : Fin 1000) (j : Fin 64) :
    k0_pay6 (F := Ideal) v0 v3 (ix2 p j) = dcos (fun k => v0 (ix2 p k)) v3 j := by
  unfold k0_pay6 dcos
  rw [← pay5_apply]
  rfl

/-- The stacked product's operand indices, axis by axis. -/
theorem lhs_hid_0 (i : S1000x384.Idx) (q : dot_S1000x64_S64x384_S1000x384_1_0_0_1_n_n.contr.Idx) :
    (dot_S1000x64_S64x384_S1000x384_1_0_0_1_n_n.lhsIdx i q 0).val = (i 0).val := by
  unfold DotDims.lhsIdx
  rw [dif_neg (show ¬(0 : Fin S1000x64.rank) ∈ dot_S1000x64_S64x384_S1000x384_1_0_0_1_n_n.lhsBatch by decide), dif_pos (show (0 : Fin S1000x64.rank) ∈ dot_S1000x64_S64x384_S1000x384_1_0_0_1_n_n.lhsNonContracting by decide)]
  rfl
theorem lhs_hid_1 (i : S1000x384.Idx) (q : dot_S1000x64_S64x384_S1000x384_1_0_0_1_n_n.contr.Idx) :
    (dot_S1000x64_S64x384_S1000x384_1_0_0_1_n_n.lhsIdx i q 1).val = (q ⟨0, by decide⟩).val :=
  dot_S1000x64_S64x384_S1000x384_1_0_0_1_n_n.lhsIdx_val_of_single rfl i q
theorem rhs_hid_0 (i : S1000x384.Idx) (q : dot_S1000x64_S64x384_S1000x384_1_0_0_1_n_n.contr.Idx) :
    (dot_S1000x64_S64x384_S1000x384_1_0_0_1_n_n.rhsIdx i q 0).val = (q ⟨0, by decide⟩).val :=
  dot_S1000x64_S64x384_S1000x384_1_0_0_1_n_n.rhsIdx_val_of_single rfl i q
theorem rhs_hid_1 (i : S1000x384.Idx) (q : dot_S1000x64_S64x384_S1000x384_1_0_0_1_n_n.contr.Idx) :
    (dot_S1000x64_S64x384_S1000x384_1_0_0_1_n_n.rhsIdx i q 1).val = (i 1).val := by
  unfold DotDims.rhsIdx
  rw [dif_neg (show ¬(1 : Fin S64x384.rank) ∈ dot_S1000x64_S64x384_S1000x384_1_0_0_1_n_n.rhsBatch by decide), dif_pos (show (1 : Fin S64x384.rank) ∈ dot_S1000x64_S64x384_S1000x384_1_0_0_1_n_n.rhsNonContracting by decide)]
  rfl

/-- A product of a `[1000, 64]` by a `[64, 384]` array into the zero accumulator, read at `(p, q)`. -/
theorem matmul_hid_apply (x : FVec Ideal S1000x64 .bf16) (w : FVec Ideal S64x384 .bf16) (p : Fin 1000) (q : Fin 384) :
    matmul dot_S1000x64_S64x384_S1000x384_1_0_0_1_n_n none x w (constant (F := Ideal) S1000x384 .f32 0x00000000#32) (ix2 p q)
      = ∑ k : Fin 64, x (ix2 p k) * w (ix2 k q) := by
  simp only [matmul]
  rw [Ideal.matmul_constant_zero_apply, ← Equiv.sum_comp (ValueIdx.contrEquiv1 dot_S1000x64_S64x384_S1000x384_1_0_0_1_n_n 64 rfl rfl).symm]
  refine Finset.sum_congr rfl fun k _ => ?_
  have hk := ValueIdx.contrEquiv1_symm_val dot_S1000x64_S64x384_S1000x384_1_0_0_1_n_n 64 rfl rfl k
  have el : dot_S1000x64_S64x384_S1000x384_1_0_0_1_n_n.lhsIdx (ix2 p q) ((ValueIdx.contrEquiv1 dot_S1000x64_S64x384_S1000x384_1_0_0_1_n_n 64 rfl rfl).symm k) = ix2 p k := funext fun a => Fin.ext (by
    match a with
    | ⟨0, _⟩ => exact lhs_hid_0 _ _
    | ⟨1, _⟩ => exact (lhs_hid_1 _ _).trans hk)
  have er : dot_S1000x64_S64x384_S1000x384_1_0_0_1_n_n.rhsIdx (ix2 p q) ((ValueIdx.contrEquiv1 dot_S1000x64_S64x384_S1000x384_1_0_0_1_n_n 64 rfl rfl).symm k) = ix2 k q := funext fun a => Fin.ext (by
    match a with
    | ⟨0, _⟩ => exact (rhs_hid_0 _ _).trans hk
    | ⟨1, _⟩ => exact rhs_hid_1 _ _)
  rw [el, er]

/-- The stacked hidden pre-activation over the raw blocks: the descriptor against column `q` of the stacked weights, plus the stacked bias. -/
theorem pay7_apply (p : Fin 1000) (q : Fin 384) :
    k0_pay7 (F := Ideal) v0 v3 v24 v27 (ix2 p q)
      = (∑ j : Fin 64, desc (fun k => v0 (ix2 p k)) v3 j * v24 (ix2 j q)) + v27 (ix2 0 q) := by
  unfold k0_pay7
  simp only [addf_apply]
  rw [matmul_hid_apply, broadcastTo_1b_ab_apply, shapeCast_self, shapeCast_self]
  refine congrArg (· + v27 (ix2 0 q)) (Finset.sum_congr rfl fun k _ => ?_)
  refine congrArg (· * v24 (ix2 k q)) ?_
  unfold desc
  rw [← pay5_apply]
  rfl

/-- With the stacked blocks holding the zero-padded weights it is the lane's hidden pre-activation: a live lane's column is its
    head's unit, a padding lane's column and bias are zero, so its sum of products with zero plus zero is zero. -/
theorem pay7_lane
    (h3 : ∀ (j : Fin 64) (q : Fin 384), v24 (ix2 j q) = padW1 w1 j q)
    (h5 : ∀ q : Fin 384, v27 (ix2 0 q) = padB1 b1 q)
    (p : Fin 1000) (q : Fin 384) :
    k0_pay7 (F := Ideal) v0 v3 v24 v27 (ix2 p q) = laneHid (fun k => v0 (ix2 p k)) v3 w1 b1 q := by
  rw [pay7_apply, h5]
  simp only [h3]
  unfold laneHid padW1 padB1
  by_cases h : q.val % 96 < 83
  · simp only [dif_pos h]
    rfl
  · simp only [dif_neg h, mul_zero, Finset.sum_const_zero, add_zero]

/-- The logistic gate of the pre-activation: the body's `0 - z` is `-z`, and its two constants are the reals zero and one. -/
theorem pay8_apply (p : Fin 1000) (q : Fin 384) :
    k0_pay8 (F := Ideal) v0 v3 v24 v27 (ix2 p q) = gate (k0_pay7 (F := Ideal) v0 v3 v24 v27 (ix2 p q)) := by
  unfold k0_pay8 gate
  simp only [divf_apply, addf_apply, broadcast_apply]
  generalize k0_pay7 (F := Ideal) v0 v3 v24 v27 = z
  show Ideal.div (Ideal.ofBits .f32 0x3F800000#32)
    (Ideal.ofBits .f32 0x3F800000#32 + Ideal.exp (Ideal.ofBits .f32 0x00000000#32 - z (ix2 p q))) = _
  rw [Ideal.ofBits_zero_f32, Ideal.ofBits_one_f32, zero_sub]

/-- The activation `z · gate z`. -/
theorem pay9_apply (p : Fin 1000) (q : Fin 384) :
    k0_pay9 (F := Ideal) v0 v3 v24 v27 (ix2 p q)
      = k0_pay7 (F := Ideal) v0 v3 v24 v27 (ix2 p q) * gate (k0_pay7 (F := Ideal) v0 v3 v24 v27 (ix2 p q)) := by
  unfold k0_pay9
  simp only [mulf_apply]
  rw [pay8_apply]

end Cert.KernelIdeal.Body
end
-- ==== Proof.KernelBody.lean ====
/-
  What the kernel body leaves in its energy block: row `p` is the atom's energy, as a function of the row's species
  word and position and of the weights — given that the stacked weight blocks hold the zero-padded weights.
-/
import proofs.«431511_j4320737100384_3_alg».proof.Proof.Gen.KernelIdeal.Frame
import proofs.«431511_j4320737100384_3_alg».proof.Proof.AtomSpec
import proofs.«431511_j4320737100384_3_alg».proof.Proof.KernelHid
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Body

open Idealize.ShloMosaic Idealize.ShloMosaic.ValueIdx Cert.KernelIdeal Cert.KernelIdeal.Gen Cert.AtomSpec

variable (x0 : Vec Ideal S1000x3 .f32) (x1 : Vec Ideal S1000x1 .i32) (x2 : Vec Ideal S3x64 .f32)
  (x3 : Vec Ideal S64x384 .bf16) (x4 : Vec Ideal S384x64 .bf16) (x5 : Vec Ideal S1x384 .f32) (x6 : Vec Ideal S4x96 .f32)
  (x7 : Vec Ideal S1x384 .f32) (x8 : Vec Ideal S4x1 .f32) (x9 : Vec Ideal S1x384 .i32)
  (w1 : Hid.Idx → EReal) (b1 : Bias.Idx → EReal) (w2 : Out.Idx → EReal)

namespace Energy

/-- A choice on the equality bit of two words is the choice on their equality. -/
theorem select_cmpi_eq {α : Type} (x y : BitVec 32) (a b : α) :
    Scalar.select (IntOp.cmpi .eq x y) a b = if x = y then a else b := by
  unfold Scalar.select
  by_cases h : x = y
  · rw [if_pos h, if_pos (show IntOp.cmpi .eq x y = 1 from IntOp.cmpi_eq.mpr h)]
  · rw [if_neg h, if_neg (fun hh : IntOp.cmpi .eq x y = 1 => h (IntOp.cmpi_eq.mp hh))]

/-- A vector comparison read at an index. -/
theorem cmpi_at {s : Shape} {w : ℕ} (pr : CmpIPredicate) (x y : IVec s w) (i : s.Idx) :
    cmpi pr x y i = IntOp.cmpi pr (x i) (y i) := rfl

/-- Head `s`'s energy off the stacked activation: its 96 lanes against the head's padded second-layer row, plus its bias. -/
def laneE (v38 : S1000x384.Idx → EReal) (v41 : S4x96.Idx → EReal) (v42 : S4x1.Idx → EReal) (p : Fin 1000) (s : Fin 4) : EReal :=
  (∑ u : Fin 96, v38 (ix2 p ⟨s.val * 96 + u.val, by have := s.isLt; have := u.isLt; omega⟩) * v41 (ix2 s u)) + v42 (ix2 s 0)

/-- One head's energy term of the body at row `p`: the 96-lane slice of the activation at offset `o = 96 s` times row `s` of
    the padded second-layer weights, summed over the lanes, plus the head's bias. -/
theorem head_apply (v38 : FVec Ideal S1000x384 .f32) (v41 : FVec Ideal S4x96 .f32) (v42 : FVec Ideal S4x1 .f32)
    (o sn : ℕ) (s : Fin 4) (hs : s.val = sn) (ho : o = sn * 96)
    (h1 : S1000x384.Slices ![0, o] S1000x96) (h2 : S4x96.Slices ![sn, 0] S1x96) (h3 : S4x1.Slices ![sn, 0] S1x1) (p : Fin 1000) :
    addf (shapeCast S1000x1 (multiReduction (F := Ideal) .add [1] S1000
          (mulf (extractStridedSlice S1000x96 ![0, o] v38 h1)
            (broadcastTo S1000x96 (extractStridedSlice S1x96 ![sn, 0] v41 h2) broadcasts_S1x96_S1000x96))
          0x00000000#32 reduces_S1000x96_S1000 (.inl rfl) rfl) shapeCasts_S1000_S1000x1)
        (broadcastTo S1000x1 (extractStridedSlice S1x1 ![sn, 0] v42 h3) broadcasts_S1x1_S1000x1) (ix2 p 0)
      = laneE v38 v41 v42 p s := by
  subst hs ho
  rw [addf_apply]
  rw [shapeCast_apply _ shapeCasts_S1000_S1000x1 (ix2 p 0) (ix1 p) (by
    rw [Shape.rowMajor_val_one, Shape.rowMajor_val_two]; show p.val = p.val * 1 + 0; omega)]
  rw [broadcastTo_1b_ab_apply, slice2_axis0_apply s.val v42 h3 0 0 s (by simp)]
  unfold laneE
  refine congrArg (· + v42 (ix2 s 0)) ?_
  refine (Ideal.multiReduction_add_single _ 0x00000000#32 reduces_S1000x96_S1000 (.inl rfl) rfl (ix1 p)).trans ?_
  show ∑ u : Fin 96, _ = _
  refine Finset.sum_congr rfl fun u _ => ?_
  have e : reduces_S1000x96_S1000.lift (ix1 p) u = ix2 p u :=
    funext fun a => Fin.ext (by match a with | ⟨0, _⟩ => rfl | ⟨1, _⟩ => rfl)
  rw [e, mulf_apply, broadcastTo_1b_ab_apply,
    slice2_axis1_apply (s.val * 96) v38 h1 p u ⟨s.val * 96 + u.val, by have := s.isLt; have := u.isLt; omega⟩ rfl,
    slice2_axis0_apply s.val v41 h2 0 u s (by simp)]

/-- The energy payload at row `p`: the select chain on the species word, the later head winning. -/
theorem pay12_apply (v2 : IVec S1000x1 32) (v38 : FVec Ideal S1000x384 .f32) (v39 : FVec Ideal S1000x1 .f32)
    (v41 : FVec Ideal S4x96 .f32) (v42 : Vec Ideal S4x1 .f32) (p : Fin 1000) :
    k0_pay12 (F := Ideal) v2 v38 v39 v41 v42 (ix2 p 0)
      = if v2 (ix2 p 0) = 3#32 then laneE v38 v41 v42 p 3
        else if v2 (ix2 p 0) = 2#32 then laneE v38 v41 v42 p 2
        else if v2 (ix2 p 0) = 1#32 then laneE v38 v41 v42 p 1
        else if v2 (ix2 p 0) = 0#32 then laneE v38 v41 v42 p 0
        else v39 (ix2 p 0) := by
  unfold k0_pay12
  simp only [select_apply, cmpi_at, broadcast_apply, select_cmpi_eq]
  rw [head_apply v38 v41 v42 0 0 0 rfl rfl, head_apply v38 v41 v42 96 1 1 rfl rfl,
    head_apply v38 v41 v42 192 2 2 rfl rfl, head_apply v38 v41 v42 288 3 3 rfl rfl]

/-- A sum over 96 lanes whose last 13 terms vanish is the sum over the first 83. -/
theorem sum96_eq (f : Fin 96 → EReal) (g : Fin 83 → EReal)
    (hlo : ∀ u : Fin 83, f ⟨u.val, by have := u.isLt; omega⟩ = g u) (hhi : ∀ u : Fin 96, 83 ≤ u.val → f u = 0) :
    ∑ u, f u = ∑ h, g h := by
  have e := Fin.sum_univ_add (a := 83) (b := 13) f
  refine e.trans ?_
  have e0 : ∑ i : Fin 13, f (Fin.natAdd 83 i) = 0 :=
    Finset.sum_eq_zero (fun i _ => hhi _ (by rw [Fin.coe_natAdd]; omega))
  rw [e0, add_zero]
  exact Finset.sum_congr rfl fun i _ => hlo i

/-- A live lane's stacked pre-activation is its head's unit. -/
theorem laneHid_live (P : Fin 3 → EReal) (wd : Proj.Idx → EReal) (w1 : Hid.Idx → EReal) (b1 : Bias.Idx → EReal)
    (s : Fin 4) (u : Fin 83) (q : Fin 384) (hq : q.val = s.val * 96 + u.val) :
    laneHid P wd w1 b1 q = hid P wd w1 b1 s u := by
  have hm : q.val % 96 < 83 := by have := u.isLt; omega
  unfold laneHid
  rw [dif_pos hm]
  have e1 : laneHead q = s := Fin.ext (by show q.val / 96 = s.val; have := u.isLt; omega)
  have e2 : (⟨q.val % 96, hm⟩ : Fin 83) = u := Fin.ext (by show q.val % 96 = u.val; have := u.isLt; omega)
  rw [e1, e2]

/-- Head `s`'s lanes of the stacked activation against its padded second-layer row, plus its bias, is the head's energy. -/
theorem laneE_head
    (h3 : ∀ (j : Fin 64) (q : Fin 384), x3 (ix2 j q) = padW1 w1 j q)
    (h5 : ∀ q : Fin 384, x5 (ix2 0 q) = padB1 b1 q)
    (h6 : ∀ (s : Fin 4) (u : Fin 96), x6 (ix2 s u) = padW2 w2 s u)
    (p : Fin 1000) (s : Fin 4) :
    laneE (k0_pay9 (F := Ideal) x0 x2 x3 x5) (k0_pay11 (F := Ideal) x6) x8 p s
      = headE (fun k => x0 (ix2 p k)) x2 w1 b1 w2 x8 s := by
  unfold laneE headE k0_pay11
  rw [shapeCast_self]
  refine congrArg (· + x8 (ix2 s 0)) ?_
  refine sum96_eq _ _ (fun u => ?_) (fun u hu => ?_)
  · rw [pay9_apply, pay7_lane x0 x2 x3 x5 w1 b1 h3 h5, h6,
      laneHid_live _ _ _ _ s u _ rfl]
    unfold padW2
    rw [dif_pos u.isLt]
  · rw [h6]
    unfold padW2
    rw [dif_neg (by omega), mul_zero]

/-- The zero offsets of a whole-block access. -/
theorem hz : (![0, 0] : Fin 2 → Nat) = fun _ => 0 :=
  funext fun a => by match a with | ⟨0, _⟩ => rfl | ⟨1, _⟩ => rfl

end Energy

open Energy

/-- Row `p` of the energy block is the atom's energy. -/
theorem out10_row
    (h3 : ∀ (j : Fin 64) (q : Fin 384), x3 (ix2 j q) = padW1 w1 j q)
    (h5 : ∀ q : Fin 384, x5 (ix2 0 q) = padB1 b1 q)
    (h6 : ∀ (s : Fin 4) (u : Fin 96), x6 (ix2 s u) = padW2 w2 s u)
    (p : Fin 1000) :
    out0_10 (F := Ideal) x0 x1 x2 x3 x4 x5 x6 x7 x8 x9 (ix2 p 0)
      = atomE (x1 (ix2 p 0)) (fun k => x0 (ix2 p k)) x2 w1 b1 w2 x8 := by
  unfold out0_10
  rw [View.canon_unit_zero hz]
  simp only [View.ld_unit_zero (S := S1000x3) hz, View.ld_unit_zero (S := S1000x1) hz, View.ld_unit_zero (S := S3x64) hz,
    View.ld_unit_zero (S := S64x384) hz, View.ld_unit_zero (S := S1x384) hz, View.ld_unit_zero (S := S4x96) hz,
    View.ld_unit_zero (S := S4x1) hz]
  rw [pay12_apply]
  simp only [laneE_head x0 x2 x3 x5 x6 x8 w1 b1 w2 h3 h5 h6]
  unfold atomE k0_pay1 k0_pay10
  rw [shapeCast_self, broadcast_apply]
  simp only [Ideal.ofBits_def, Ideal.ofBits_zero_f32]

end Cert.KernelIdeal.Body
end
-- ==== Proof.KernelForce.lean ====
/-
  What the kernel body leaves in its force block: entry `(p, k)` is the atom's force component `k`, as a function
  of the row's species word and position and of the weights — given that the stacked weight blocks hold the zero-padded
  weights and the lane table the lanes' heads.
-/
import proofs.«431511_j4320737100384_3_alg».proof.Proof.Gen.KernelIdeal.Frame
import proofs.«431511_j4320737100384_3_alg».proof.Proof.AtomSpec
import proofs.«431511_j4320737100384_3_alg».proof.Proof.KernelHid
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Body

open Idealize.ShloMosaic Idealize.ShloMosaic.ValueIdx Cert.KernelIdeal Cert.KernelIdeal.Gen Cert.AtomSpec

namespace Force

/-! ## The rows of the projection matrix, and a lane sum against one of them -/

section rows

variable (v3 : Vec Ideal S3x64 .f32)

/-- The three row slices of the projection matrix read its rows. -/
theorem pay2_apply (j : Fin 64) : k0_pay2 (F := Ideal) v3 (ix2 0 j) = v3 (ix2 0 j) := by
  unfold k0_pay2
  exact slice2_axis0_apply 0 v3 _ (0 : Fin 1) j (0 : Fin 3) rfl

theorem pay3_apply (j : Fin 64) : k0_pay3 (F := Ideal) v3 (ix2 0 j) = v3 (ix2 1 j) := by
  unfold k0_pay3
  exact slice2_axis0_apply 1 v3 _ (0 : Fin 1) j (1 : Fin 3) rfl

theorem pay4_apply (j : Fin 64) : k0_pay4 (F := Ideal) v3 (ix2 0 j) = v3 (ix2 2 j) := by
  unfold k0_pay4
  exact slice2_axis0_apply 2 v3 _ (0 : Fin 1) j (2 : Fin 3) rfl

/-- The product with a broadcast row, summed over the 64 lanes and stood up as a column. -/
theorem lane_sum (g : FVec Ideal S1000x64 .f32) (row : FVec Ideal S1x64 .f32) (p : Fin 1000) :
    shapeCast S1000x1 (multiReduction (F := Ideal) .add [1] S1000 (mulf g (broadcastTo S1000x64 row broadcasts_S1x64_S1000x64))
        0x00000000#32 reduces_S1000x64_S1000 (.inl rfl) rfl) shapeCasts_S1000_S1000x1 (ix2 p 0)
      = ∑ j : Fin 64, g (ix2 p j) * row (ix2 0 j) := by
  refine (shapeCast_apply _ _ (ix2 p 0) (ix1 p) ?_).trans ?_
  · rw [Shape.rowMajor_val_one, Shape.rowMajor_val_two]
    show p.val = p.val * 1 + 0
    omega
  refine (Ideal.multiReduction_add_single _ 0x00000000#32 reduces_S1000x64_S1000 (.inl rfl) rfl (ix1 p)).trans ?_
  show ∑ j : Fin 64, _ = _
  refine Finset.sum_congr rfl fun j _ => ?_
  have e : reduces_S1000x64_S1000.lift (ix1 p) j = ix2 p j := by
    funext a; apply Fin.ext
    match a with
    | ⟨0, _⟩ => rfl
    | ⟨1, _⟩ => rfl
  rw [e, mulf_apply, broadcastTo_1b_ab_apply]

end rows

/-! ## The second matrix product at an entry -/

section product

theorem contr_rank : dot_S1000x384_S384x64_S1000x64_1_0_0_1_n_n.contr.rank = 1 := rfl

theorem lhs_prod_0 (j : S1000x64.Idx) (k : dot_S1000x384_S384x64_S1000x64_1_0_0_1_n_n.contr.Idx) :
    (dot_S1000x384_S384x64_S1000x64_1_0_0_1_n_n.lhsIdx j k 0).val = (j 0).val := by
  unfold DotDims.lhsIdx
  rw [dif_neg (show ¬(0 : Fin S1000x384.rank) ∈ dot_S1000x384_S384x64_S1000x64_1_0_0_1_n_n.lhsBatch by decide),
    dif_pos (show (0 : Fin S1000x384.rank) ∈ dot_S1000x384_S384x64_S1000x64_1_0_0_1_n_n.lhsNonContracting by decide)]
  rfl

theorem lhs_prod_1 (j : S1000x64.Idx) (k : dot_S1000x384_S384x64_S1000x64_1_0_0_1_n_n.contr.Idx) :
    (dot_S1000x384_S384x64_S1000x64_1_0_0_1_n_n.lhsIdx j k 1).val = (k ⟨0, by decide⟩).val :=
  dot_S1000x384_S384x64_S1000x64_1_0_0_1_n_n.lhsIdx_val_of_single rfl j k

theorem rhs_prod_0 (j : S1000x64.Idx) (k : dot_S1000x384_S384x64_S1000x64_1_0_0_1_n_n.contr.Idx) :
    (dot_S1000x384_S384x64_S1000x64_1_0_0_1_n_n.rhsIdx j k 0).val = (k ⟨0, by decide⟩).val :=
  dot_S1000x384_S384x64_S1000x64_1_0_0_1_n_n.rhsIdx_val_of_single rfl j k

theorem rhs_prod_1 (j : S1000x64.Idx) (k : dot_S1000x384_S384x64_S1000x64_1_0_0_1_n_n.contr.Idx) :
    (dot_S1000x384_S384x64_S1000x64_1_0_0_1_n_n.rhsIdx j k 1).val = (j 1).val := by
  unfold DotDims.rhsIdx
  rw [dif_neg (show ¬(1 : Fin S384x64.rank) ∈ dot_S1000x384_S384x64_S1000x64_1_0_0_1_n_n.rhsBatch by decide),
    dif_pos (show (1 : Fin S384x64.rank) ∈ dot_S1000x384_S384x64_S1000x64_1_0_0_1_n_n.rhsNonContracting by decide)]
  rfl

/-- The product of a `[1000, 384]` by a `[384, 64]` matrix from a zero accumulator, at `(p, j)`. -/
theorem prod_apply (A : FVec Ideal S1000x384 .bf16) (B : FVec Ideal S384x64 .bf16) (p : Fin 1000) (j : Fin 64) :
    matmul dot_S1000x384_S384x64_S1000x64_1_0_0_1_n_n none A B (constant (F := Ideal) S1000x64 .f32 0x00000000#32) (ix2 p j)
      = ∑ q : Fin 384, A (ix2 p q) * B (ix2 q j) := by
  show FloatOps.matmul dot_S1000x384_S384x64_S1000x64_1_0_0_1_n_n none A B _ (ix2 p j) = _
  rw [Ideal.matmul_constant_zero_apply,
    ← Equiv.sum_comp (contrEquiv1 dot_S1000x384_S384x64_S1000x64_1_0_0_1_n_n 384 rfl rfl).symm]
  refine Finset.sum_congr rfl fun q _ => ?_
  have c2 := contrEquiv1_symm_val dot_S1000x384_S384x64_S1000x64_1_0_0_1_n_n 384 rfl rfl q
  have l2 : dot_S1000x384_S384x64_S1000x64_1_0_0_1_n_n.lhsIdx (ix2 p j)
      ((contrEquiv1 dot_S1000x384_S384x64_S1000x64_1_0_0_1_n_n 384 rfl rfl).symm q) = ix2 p q := by
    funext ax; apply Fin.ext
    match ax with
    | ⟨0, _⟩ => exact lhs_prod_0 _ _
    | ⟨1, _⟩ => exact (lhs_prod_1 _ _).trans c2
  have r2 : dot_S1000x384_S384x64_S1000x64_1_0_0_1_n_n.rhsIdx (ix2 p j)
      ((contrEquiv1 dot_S1000x384_S384x64_S1000x64_1_0_0_1_n_n 384 rfl rfl).symm q) = ix2 q j := by
    funext ax; apply Fin.ext
    match ax with
    | ⟨0, _⟩ => exact (rhs_prod_0 _ _).trans c2
    | ⟨1, _⟩ => exact rhs_prod_1 _ _
  rw [l2, r2]

end product

/-! ## The masked derivative against the stacked transposed weights, times the cosine -/

section shared

/-- A select on an equality test is the `if` on the equality. -/
theorem select_cmpi_eq {α : Type} (x y : BitVec 32) (A B : α) :
    Scalar.select (IntOp.cmpi .eq x y) A B = if x = y then A else B := by
  by_cases h : x = y
  · have h1 : IntOp.cmpi .eq x y = 1#1 := IntOp.cmpi_eq.mpr h
    rw [h1, select_one, if_pos h]
  · have h0 : IntOp.cmpi .eq x y = 0#1 := eq_zero_of_ne_one (fun h' => h (IntOp.cmpi_eq.mp h'))
    rw [h0, select_zero, if_neg h]

/-- A `[1000, 1]` column broadcast to `[1000, 384]` reads, at `(p, q)`, the column at `p`. -/
theorem broadcast_col_apply {α : Type} (v : S1000x1.Idx → α) (p : Fin 1000) (q : Fin 384) :
    broadcastTo S1000x384 v broadcasts_S1000x1_S1000x384 (ix2 p q) = v (ix2 p 0) := by
  refine broadcastTo_apply v _ (ix2 p q) (ix2 p (0 : Fin 1)) fun ax => ?_
  match ax with
  | ⟨0, _⟩ => rfl
  | ⟨1, _⟩ => rfl

variable (v2 : IVec S1000x1 32) (v22 : FVec Ideal S1000x64 .f32) (v30 v37 : FVec Ideal S1000x384 .f32)
  (v98 : Vec Ideal S1x384 .f32) (v102 : Vec Ideal S1x384 .i32) (v110 : Vec Ideal S384x64 .bf16)

/-- The shared value at `(p, j)`: over the 384 lanes, the lanes of the row's own head carry the derivative of the
    activation times the second-layer weight, the others zero; that against column `j` of the stacked transposed
    first-layer weights, times the cosine. -/
theorem pay13_apply (p : Fin 1000) (j : Fin 64) :
    k0_pay13 (F := Ideal) v2 v22 v30 v37 v98 v102 v110 (ix2 p j)
      = (∑ q : Fin 384,
          (if (v102 (ix2 0 q) : BitVec 32) = v2 (ix2 p 0)
            then (v37 (ix2 p q) * (1 + v30 (ix2 p q) * (1 - v37 (ix2 p q)))) * v98 (ix2 0 q) else 0)
            * v110 (ix2 q j)) * v22 (ix2 p j) := by
  unfold k0_pay13
  refine (mulf_apply _ _ _).trans ?_
  refine congrArg (· * v22 (ix2 p j)) ?_
  refine (prod_apply _ _ p j).trans ?_
  refine Finset.sum_congr rfl fun q _ => ?_
  refine congrArg₂ (· * ·) ?_ (congrFun (shapeCast_self v110 _) _)
  show Scalar.select (IntOp.cmpi .eq
        (broadcastTo S1000x384 (shapeCast S1x384 v102 shapeCasts_S1x384_S1x384) broadcasts_S1x384_S1000x384 (ix2 p q))
        (broadcastTo S1000x384 v2 broadcasts_S1000x1_S1000x384 (ix2 p q)))
      (v37 (ix2 p q) * (Ideal.ofBits .f32 0x3F800000#32 + v30 (ix2 p q) * (Ideal.ofBits .f32 0x3F800000#32 - v37 (ix2 p q)))
        * broadcastTo S1000x384 (shapeCast S1x384 v98 shapeCasts_S1x384_S1x384) broadcasts_S1x384_S1000x384 (ix2 p q))
      (Ideal.ofBits .f32 0x00000000#32) = _
  rw [select_cmpi_eq, broadcastTo_1b_ab_apply, broadcastTo_1b_ab_apply, broadcast_col_apply, shapeCast_self, shapeCast_self,
    Ideal.ofBits_one_f32, Ideal.ofBits_zero_f32]

end shared

/-! ## The 384 lanes as four heads of 96, of which 83 carry weights -/

section lanes

/-- A sum over the 384 lanes is the sum over the four heads of the sums over each head's 96 lanes. -/
theorem sum_lanes {M : Type*} [AddCommMonoid M] (f : Fin 384 → M) :
    ∑ q : Fin 384, f q = ∑ s : Fin 4, ∑ u : Fin 96, f ⟨s.val * 96 + u.val, by omega⟩ := by
  rw [← Equiv.sum_comp (finProdFinEquiv : Fin 4 × Fin 96 ≃ Fin 384) f, Fintype.sum_prod_type]
  refine Finset.sum_congr rfl fun s _ => Finset.sum_congr rfl fun u _ => congrArg f (Fin.ext ?_)
  show u.val + 96 * s.val = s.val * 96 + u.val
  omega

/-- A sum over a head's 96 lanes of a summand that is zero past lane 83 is the sum over the 83. -/
theorem sum_pad {M : Type*} [AddCommMonoid M] (F : Fin 83 → M) :
    ∑ u : Fin 96, (if h : u.val < 83 then F ⟨u.val, h⟩ else 0) = ∑ h : Fin 83, F h := by
  refine (Fin.sum_univ_add (a := 83) (b := 13) (fun u : Fin (83 + 13) => if h : u.val < 83 then F ⟨u.val, h⟩ else 0)).trans ?_
  have e1 : ∀ i : Fin 83,
      (if h : (Fin.castAdd 13 i).val < 83 then F ⟨(Fin.castAdd 13 i).val, h⟩ else 0) = F i := fun i => dif_pos i.isLt
  have e2 : ∀ i : Fin 13,
      (if h : (Fin.natAdd 83 i).val < 83 then F ⟨(Fin.natAdd 83 i).val, h⟩ else 0) = 0 :=
    fun i => dif_neg (by show ¬ 83 + i.val < 83; omega)
  refine (congrArg₂ (· + ·) (Finset.sum_congr rfl fun i _ => e1 i) (Finset.sum_congr rfl fun i _ => e2 i)).trans ?_
  rw [Finset.sum_const_zero, add_zero]

/-- Lane `u` of head `s`. -/
def lane (s : Fin 4) (u : Fin 96) : Fin 384 := ⟨s.val * 96 + u.val, by omega⟩

theorem lane_div (s : Fin 4) (u : Fin 96) : (lane s u).val / 96 = s.val := by
  show (s.val * 96 + u.val) / 96 = s.val
  omega

theorem lane_mod (s : Fin 4) (u : Fin 96) : (lane s u).val % 96 = u.val := by
  show (s.val * 96 + u.val) % 96 = u.val
  omega

theorem laneHead_lane (s : Fin 4) (u : Fin 96) : laneHead (lane s u) = s := Fin.ext (lane_div s u)
theorem laneUnit_lane (s : Fin 4) (u : Fin 96) : laneUnit (lane s u) = u := Fin.ext (lane_mod s u)

theorem headCol_lane (s : Fin 4) (u : Fin 96) : headCol (lane s u) = BitVec.ofNat 32 s.val := by
  unfold headCol
  rw [lane_div]

variable (w1 : Hid.Idx → EReal) (b1 : Bias.Idx → EReal) (w2 : Out.Idx → EReal)

theorem padW1_lane_lt (j : Fin 64) (s : Fin 4) (u : Fin 96) (h : u.val < 83) :
    padW1 w1 j (lane s u) = w1 (ix3 s j ⟨u.val, h⟩) := by
  have hm : (lane s u).val % 96 = u.val := lane_mod s u
  unfold padW1
  rw [dif_pos (by rw [hm]; exact h)]
  refine congrArg w1 (funext fun a => ?_)
  match a with
  | ⟨0, _⟩ => exact laneHead_lane s u
  | ⟨1, _⟩ => rfl
  | ⟨2, _⟩ => exact Fin.ext hm

theorem padW1_lane_ge (j : Fin 64) (s : Fin 4) (u : Fin 96) (h : ¬ u.val < 83) : padW1 w1 j (lane s u) = 0 := by
  have hm : (lane s u).val % 96 = u.val := lane_mod s u
  unfold padW1
  rw [dif_neg (by rw [hm]; exact h)]

theorem padW2_lt (s : Fin 4) (u : Fin 96) (h : u.val < 83) : padW2 w2 s u = w2 (ix3 s ⟨u.val, h⟩ 0) := dif_pos h

variable (pos : Fin 3 → EReal) (wd : Proj.Idx → EReal)

theorem laneHid_lane_lt (s : Fin 4) (u : Fin 96) (h : u.val < 83) :
    laneHid pos wd w1 b1 (lane s u) = hid pos wd w1 b1 s ⟨u.val, h⟩ := by
  have hm : (lane s u).val % 96 = u.val := lane_mod s u
  unfold laneHid
  rw [dif_pos (by rw [hm]; exact h)]
  exact congrArg₂ (hid pos wd w1 b1) (laneHead_lane s u) (Fin.ext hm)

/-- One lane's term of the masked sum. -/
def laneTerm (sy : BitVec 32) (j : Fin 64) (q : Fin 384) : EReal :=
  (if headCol q = sy then
      (gate (laneHid pos wd w1 b1 q) * (1 + laneHid pos wd w1 b1 q * (1 - gate (laneHid pos wd w1 b1 q))))
        * padW2 w2 (laneHead q) (laneUnit q)
    else 0) * padW1 w1 j q

/-- A head's 96 lanes sum to the head's term of the derivative: its 83 units when the species word names it, zero otherwise. -/
theorem head_sum (sy : BitVec 32) (j : Fin 64) (s : Fin 4) :
    ∑ u : Fin 96, laneTerm w1 b1 w2 pos wd sy j (lane s u)
      = if sy = BitVec.ofNat 32 s.val then
          ∑ h : Fin 83, (dgate (hid pos wd w1 b1 s h) * w2 (ix3 s h 0)) * w1 (ix3 s j h)
        else 0 := by
  by_cases hs : sy = BitVec.ofNat 32 s.val
  · rw [if_pos hs, ← sum_pad]
    refine Finset.sum_congr rfl fun u _ => ?_
    unfold laneTerm
    rw [if_pos ((headCol_lane s u).trans hs.symm)]
    by_cases h : u.val < 83
    · rw [dif_pos h, laneHid_lane_lt w1 b1 pos wd s u h, laneHead_lane, laneUnit_lane, padW2_lt w2 s u h,
        padW1_lane_lt w1 j s u h]
      rfl
    · rw [dif_neg h, padW1_lane_ge w1 j s u h, mul_zero]
  · rw [if_neg hs]
    refine Finset.sum_eq_zero fun u _ => ?_
    unfold laneTerm
    rw [if_neg (fun e => hs (e.symm.trans (headCol_lane s u))), zero_mul]

/-- The masked sum over all lanes is the derivative in descriptor entry `j`. -/
theorem lanes_back (sy : BitVec 32) (j : Fin 64) :
    ∑ q : Fin 384, laneTerm w1 b1 w2 pos wd sy j q = back sy pos wd w1 b1 w2 j := by
  rw [sum_lanes]
  unfold back
  exact Finset.sum_congr rfl fun s _ => head_sum w1 b1 w2 pos wd sy j s

end lanes

/-! ## The force block -/

section force

variable (x0 : Vec Ideal S1000x3 .f32) (x1 : Vec Ideal S1000x1 .i32) (x2 : Vec Ideal S3x64 .f32)
  (x3 : Vec Ideal S64x384 .bf16) (x4 : Vec Ideal S384x64 .bf16) (x5 : Vec Ideal S1x384 .f32) (x6 : Vec Ideal S4x96 .f32)
  (x7 : Vec Ideal S1x384 .f32) (x8 : Vec Ideal S4x1 .f32) (x9 : Vec Ideal S1x384 .i32)
  (w1 : Hid.Idx → EReal) (b1 : Bias.Idx → EReal) (w2 : Out.Idx → EReal)

/-- The species column recast to its own shape is itself. -/
theorem pay1_apply (i : S1000x1.Idx) : k0_pay1 (F := Ideal) x1 i = x1 i := by
  unfold k0_pay1
  exact congrFun (shapeCast_self x1 _) i

/-- The shared value at `(p, j)` is the energy's derivative in descriptor entry `j` times the cosine. -/
theorem pay13_entry
    (h3 : ∀ (j : Fin 64) (q : Fin 384), x3 (ix2 j q) = padW1 w1 j q)
    (h4 : ∀ (q : Fin 384) (j : Fin 64), x4 (ix2 q j) = padW1 w1 j q)
    (h5 : ∀ q : Fin 384, x5 (ix2 0 q) = padB1 b1 q)
    (h7 : ∀ q : Fin 384, x7 (ix2 0 q) = padW2 w2 (laneHead q) (laneUnit q))
    (h9 : ∀ q : Fin 384, x9 (ix2 0 q) = headCol q)
    (p : Fin 1000) (j : Fin 64) :
    k0_pay13 (F := Ideal) (k0_pay1 x1) (k0_pay6 x0 x2) (k0_pay7 x0 x2 x3 x5) (k0_pay8 x0 x2 x3 x5) x7 x9 x4 (ix2 p j)
      = back (x1 (ix2 p 0)) (fun k => x0 (ix2 p k)) x2 w1 b1 w2 j * dcos (fun k => x0 (ix2 p k)) x2 j := by
  rw [pay13_apply, pay6_apply]
  refine congrArg (· * dcos (fun k => x0 (ix2 p k)) x2 j) ?_
  rw [← lanes_back]
  refine Finset.sum_congr rfl fun q _ => ?_
  unfold laneTerm
  rw [pay8_apply, pay7_lane x0 x2 x3 x5 w1 b1 h3 h5, h4, h7, h9, pay1_apply]

/-- The three column payloads at row `p` are the three force components. -/
theorem pay14_entry
    (h3 : ∀ (j : Fin 64) (q : Fin 384), x3 (ix2 j q) = padW1 w1 j q)
    (h4 : ∀ (q : Fin 384) (j : Fin 64), x4 (ix2 q j) = padW1 w1 j q)
    (h5 : ∀ q : Fin 384, x5 (ix2 0 q) = padB1 b1 q)
    (h7 : ∀ q : Fin 384, x7 (ix2 0 q) = padW2 w2 (laneHead q) (laneUnit q))
    (h9 : ∀ q : Fin 384, x9 (ix2 0 q) = headCol q)
    (p : Fin 1000) :
    k0_pay14 (F := Ideal) (k0_pay1 x1) (k0_pay2 x2) (k0_pay6 x0 x2) (k0_pay7 x0 x2 x3 x5) (k0_pay8 x0 x2 x3 x5) x7 x9 x4 (ix2 p 0)
      = atomF (x1 (ix2 p 0)) (fun k => x0 (ix2 p k)) x2 w1 b1 w2 0 := by
  unfold k0_pay14
  refine (lane_sum _ _ p).trans ?_
  unfold atomF
  refine Finset.sum_congr rfl fun j _ => ?_
  rw [pay13_entry x0 x1 x2 x3 x4 x5 x7 x9 w1 b1 w2 h3 h4 h5 h7 h9, pay2_apply]

theorem pay15_entry
    (h3 : ∀ (j : Fin 64) (q : Fin 384), x3 (ix2 j q) = padW1 w1 j q)
    (h4 : ∀ (q : Fin 384) (j : Fin 64), x4 (ix2 q j) = padW1 w1 j q)
    (h5 : ∀ q : Fin 384, x5 (ix2 0 q) = padB1 b1 q)
    (h7 : ∀ q : Fin 384, x7 (ix2 0 q) = padW2 w2 (laneHead q) (laneUnit q))
    (h9 : ∀ q : Fin 384, x9 (ix2 0 q) = headCol q)
    (p : Fin 1000) :
    k0_pay15 (F := Ideal) (k0_pay1 x1) (k0_pay3 x2) (k0_pay6 x0 x2) (k0_pay7 x0 x2 x3 x5) (k0_pay8 x0 x2 x3 x5) x7 x9 x4 (ix2 p 0)
      = atomF (x1 (ix2 p 0)) (fun k => x0 (ix2 p k)) x2 w1 b1 w2 1 := by
  unfold k0_pay15
  refine (lane_sum _ _ p).trans ?_
  unfold atomF
  refine Finset.sum_congr rfl fun j _ => ?_
  rw [pay13_entry x0 x1 x2 x3 x4 x5 x7 x9 w1 b1 w2 h3 h4 h5 h7 h9, pay3_apply]

theorem pay16_entry
    (h3 : ∀ (j : Fin 64) (q : Fin 384), x3 (ix2 j q) = padW1 w1 j q)
    (h4 : ∀ (q : Fin 384) (j : Fin 64), x4 (ix2 q j) = padW1 w1 j q)
    (h5 : ∀ q : Fin 384, x5 (ix2 0 q) = padB1 b1 q)
    (h7 : ∀ q : Fin 384, x7 (ix2 0 q) = padW2 w2 (laneHead q) (laneUnit q))
    (h9 : ∀ q : Fin 384, x9 (ix2 0 q) = headCol q)
    (p : Fin 1000) :
    k0_pay16 (F := Ideal) (k0_pay1 x1) (k0_pay4 x2) (k0_pay6 x0 x2) (k0_pay7 x0 x2 x3 x5) (k0_pay8 x0 x2 x3 x5) x7 x9 x4 (ix2 p 0)
      = atomF (x1 (ix2 p 0)) (fun k => x0 (ix2 p k)) x2 w1 b1 w2 2 := by
  unfold k0_pay16
  refine (lane_sum _ _ p).trans ?_
  unfold atomF
  refine Finset.sum_congr rfl fun j _ => ?_
  rw [pay13_entry x0 x1 x2 x3 x4 x5 x7 x9 w1 b1 w2 h3 h4 h5 h7 h9, pay4_apply]

/-- The force block as one function of its index. -/
def forceAt (y : S1000x3.Idx) : EReal :=
  atomF (x1 (ix2 (⟨(y 0).val, (y 0).isLt⟩ : Fin 1000) 0)) (fun k => x0 (ix2 (⟨(y 0).val, (y 0).isLt⟩ : Fin 1000) k)) x2 w1 b1 w2
    (⟨(y 1).val, (y 1).isLt⟩ : Fin 3)

/-- Every index of a `[1000, 1]` column is a row's. -/
theorem col_idx (x : S1000x1.Idx) : ∃ p : Fin 1000, x = ix2 p 0 := by
  have h1 : (x 1).val < 1 := (x 1).isLt
  refine ⟨⟨(x 0).val, (x 0).isLt⟩, funext fun a => ?_⟩
  match a with
  | ⟨0, _⟩ => rfl
  | ⟨1, _⟩ => exact Fin.ext (by show (x 1).val = 0; omega)

/-- The all-zero offsets of a whole-array load. -/
theorem zero_off : (![0, 0] : Fin 2 → ℕ) = fun _ => 0 := by
  funext a
  match a with
  | ⟨0, _⟩ => rfl
  | ⟨1, _⟩ => rfl

end force

end Force

section block

variable (x0 : Vec Ideal S1000x3 .f32) (x1 : Vec Ideal S1000x1 .i32) (x2 : Vec Ideal S3x64 .f32)
  (x3 : Vec Ideal S64x384 .bf16) (x4 : Vec Ideal S384x64 .bf16) (x5 : Vec Ideal S1x384 .f32) (x6 : Vec Ideal S4x96 .f32)
  (x7 : Vec Ideal S1x384 .f32) (x8 : Vec Ideal S4x1 .f32) (x9 : Vec Ideal S1x384 .i32)
  (w1 : Hid.Idx → EReal) (b1 : Bias.Idx → EReal) (w2 : Out.Idx → EReal)

/-- Entry `(p, k)` of the force block is the atom's force component `k`. -/
theorem out11_row
    (h3 : ∀ (j : Fin 64) (q : Fin 384), x3 (ix2 j q) = padW1 w1 j q)
    (h4 : ∀ (q : Fin 384) (j : Fin 64), x4 (ix2 q j) = padW1 w1 j q)
    (h5 : ∀ q : Fin 384, x5 (ix2 0 q) = padB1 b1 q)
    (h7 : ∀ q : Fin 384, x7 (ix2 0 q) = padW2 w2 (laneHead q) (laneUnit q))
    (h9 : ∀ q : Fin 384, x9 (ix2 0 q) = headCol q)
    (p : Fin 1000) (k : Fin 3) :
    out0_11 (F := Ideal) x0 x1 x2 x3 x4 x5 x6 x7 x8 x9 (ix2 p k)
      = atomF (x1 (ix2 p 0)) (fun k => x0 (ix2 p k)) x2 w1 b1 w2 k := by
  unfold out0_11
  simp only [View.ld_unit_zero (S := S1000x3) Force.zero_off, View.ld_unit_zero (S := S1000x1) Force.zero_off,
    View.ld_unit_zero (S := S3x64) Force.zero_off, View.ld_unit_zero (S := S64x384) Force.zero_off,
    View.ld_unit_zero (S := S1x384) Force.zero_off, View.ld_unit_zero (S := S384x64) Force.zero_off]
  refine (View.canon_apply_of_pieces (Force.forceAt x0 x1 x2 w1 b1 w2) _ ?_ (ix2 p k) (cover0_11 _ _ _ _)).trans rfl
  intro pc hpc x
  rcases List.mem_cons.mp hpc with rfl | hpc
  · obtain ⟨p', rfl⟩ := Force.col_idx x
    refine (Force.pay16_entry x0 x1 x2 x3 x4 x5 x7 x9 w1 b1 w2 h3 h4 h5 h7 h9 p').trans ?_
    show _ = Force.forceAt x0 x1 x2 w1 b1 w2 (r0_10.emb (ix2 p' 0))
    have e0 : (⟨(r0_10.emb (ix2 p' 0) 0).val, (r0_10.emb (ix2 p' 0) 0).isLt⟩ : Fin 1000) = p' :=
      Fin.ext (by show 0 + 1 * p'.val = p'.val; omega)
    have e1 : (⟨(r0_10.emb (ix2 p' 0) 1).val, (r0_10.emb (ix2 p' 0) 1).isLt⟩ : Fin 3) = 2 :=
      Fin.ext (by show 2 + 1 * 0 = 2; rfl)
    unfold Force.forceAt
    rw [e0, e1]
  rcases List.mem_cons.mp hpc with rfl | hpc
  · obtain ⟨p', rfl⟩ := Force.col_idx x
    refine (Force.pay15_entry x0 x1 x2 x3 x4 x5 x7 x9 w1 b1 w2 h3 h4 h5 h7 h9 p').trans ?_
    show _ = Force.forceAt x0 x1 x2 w1 b1 w2 (r0_9.emb (ix2 p' 0))
    have e0 : (⟨(r0_9.emb (ix2 p' 0) 0).val, (r0_9.emb (ix2 p' 0) 0).isLt⟩ : Fin 1000) = p' :=
      Fin.ext (by show 0 + 1 * p'.val = p'.val; omega)
    have e1 : (⟨(r0_9.emb (ix2 p' 0) 1).val, (r0_9.emb (ix2 p' 0) 1).isLt⟩ : Fin 3) = 1 :=
      Fin.ext (by show 1 + 1 * 0 = 1; rfl)
    unfold Force.forceAt
    rw [e0, e1]
  rcases List.mem_cons.mp hpc with rfl | hpc
  · obtain ⟨p', rfl⟩ := Force.col_idx x
    refine (Force.pay14_entry x0 x1 x2 x3 x4 x5 x7 x9 w1 b1 w2 h3 h4 h5 h7 h9 p').trans ?_
    show _ = Force.forceAt x0 x1 x2 w1 b1 w2 (r0_8.emb (ix2 p' 0))
    have e0 : (⟨(r0_8.emb (ix2 p' 0) 0).val, (r0_8.emb (ix2 p' 0) 0).isLt⟩ : Fin 1000) = p' :=
      Fin.ext (by show 0 + 1 * p'.val = p'.val; omega)
    have e1 : (⟨(r0_8.emb (ix2 p' 0) 1).val, (r0_8.emb (ix2 p' 0) 1).isLt⟩ : Fin 3) = 0 :=
      Fin.ext (by show 0 + 1 * 0 = 0; rfl)
    unfold Force.forceAt
    rw [e0, e1]
  nomatch hpc

end block

end Cert.KernelIdeal.Body

end
-- ==== Proof.LibScatterSet.lean ====
/-
  A scatter whose body returns the update ("set"), read at one entry of the result.

  The scatter is a left fold over the update indices: each update that lands inside the operand overwrites the entry
  it lands on, the others are dropped.  Read at one entry this is: the update that lands there, when exactly one does;
  the operand's entry, when none does.
-/
import Idealize.ShloMosaic.PureOps.ShapeOps

namespace Idealize.ShloMosaic.ScatterSet

open Idealize.ShloMosaic

section fold

variable {ι κ α : Type} [DecidableEq ι]

/-- One overwriting step: update `n` lands at `g n` (nowhere when `none`) and carries the value `v n`. -/
def step (g : κ → Option ι) (v : κ → α) (r : ι → α) (n : κ) : ι → α :=
  match g n with
  | some i => fun i' => if i' = i then v n else r i'
  | none => r

/-- A step that does not land on `i'` leaves that entry alone. -/
theorem step_apply_of_ne (g : κ → Option ι) (v : κ → α) (r : ι → α) (n : κ) (i' : ι) (h : g n ≠ some i') :
    step g v r n i' = r i' := by
  unfold step
  cases hg : g n with
  | none => rfl
  | some i =>
    have hne : i' ≠ i := fun e => h (by rw [hg, e])
    simp only [if_neg hne]

/-- A step that lands on `i'` writes its value there. -/
theorem step_apply_of_eq (g : κ → Option ι) (v : κ → α) (r : ι → α) (n : κ) (i' : ι) (h : g n = some i') :
    step g v r n i' = v n := by
  unfold step
  rw [h]
  simp only [if_true]

/-- Folding steps none of which lands on `i'` leaves that entry alone. -/
theorem foldl_step_miss (g : κ → Option ι) (v : κ → α) (i' : ι) (l : List κ) (x : ι → α)
    (h : ∀ n ∈ l, g n ≠ some i') : l.foldl (step g v) x i' = x i' := by
  induction l generalizing x with
  | nil => rfl
  | cons a t ih =>
    rw [List.foldl_cons, ih (step g v x a) (fun n hn => h n (List.mem_cons_of_mem _ hn))]
    exact step_apply_of_ne g v x a i' (h a List.mem_cons_self)

/-- Folding steps of which `n0`, in the list, lands on `i'` and no other does: the entry holds `n0`'s value. -/
theorem foldl_step_hit (g : κ → Option ι) (v : κ → α) (i' : ι) (n0 : κ) (l : List κ) (x : ι → α)
    (hmem : n0 ∈ l) (hg : g n0 = some i') (huniq : ∀ n ∈ l, g n = some i' → n = n0) :
    l.foldl (step g v) x i' = v n0 := by
  induction l generalizing x with
  | nil => exact absurd hmem List.not_mem_nil
  | cons a t ih =>
    rw [List.foldl_cons]
    by_cases ht : n0 ∈ t
    · exact ih (step g v x a) ht (fun n hn => huniq n (List.mem_cons_of_mem _ hn))
    · have ha : n0 = a := by
        rcases List.mem_cons.1 hmem with e | e
        · exact e
        · exact absurd e ht
      subst ha
      rw [foldl_step_miss g v i' t (step g v x n0) (fun n hn e => ht (huniq n (List.mem_cons_of_mem _ hn) e ▸ hn))]
      exact step_apply_of_eq g v x n0 i' hg

end fold

section scatter

variable {s si u : Shape} {α : Type} {w : Nat}

/-- A scatter whose body returns the update is the fold of the overwriting steps over the update indices in
    row-major order. -/
theorem scatter_set_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- An update whose start plus window coordinate is `i`'s coordinate on every axis lands at `i`. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hin : ∀ a, 0 ≤ d.start j idx a + (d.window j a : Int) ∧ d.start j idx a + (d.window j a : Int) < (s.size a : Int) :=
    fun a => by
      rw [h a]
      exact ⟨Int.natCast_nonneg _, by exact_mod_cast (i a).isLt⟩
  rw [dif_pos hin]
  congr 1
  funext a
  apply Fin.ext
  show (d.start j idx a + (d.window j a : Int)).toNat = (i a).val
  rw [h a]
  exact Int.toNat_natCast _

/-- With every scatter index the zero word, every window starts at offset zero. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-- With every scatter index the zero word, an update whose window coordinate is `i`'s coordinate on every axis
    lands at `i`. -/
theorem resultIdx?_eq_some_of_window (d : ScatterDims s si u) (j : u.Idx) (idx : IVec si w) (hidx : ∀ k, idx k = 0#w)
    (i : s.Idx) (h : ∀ a, d.window j a = (i a).val) : d.resultIdx? j idx = some i :=
  resultIdx?_eq_some d j idx i (fun a => by rw [start_eq_zero d j idx hidx a, h a, Int.zero_add])

/-- An entry no update lands on keeps the operand's value. -/
theorem scatter_set_apply_of_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [scatter_set_eq_foldl]
  exact foldl_step_miss _ _ i' _ x (fun n _ => h (u.rowMajor.symm n))

/-- An entry exactly one update `j` lands on holds that update's value. -/
theorem scatter_set_apply_of_hit (d : ScatterDims s si u) (x : s.Idx → α) (idx : IVec si w) (upd : u.Idx → α)
    (i' : s.Idx) (j : u.Idx) (hj : d.resultIdx? j idx = some i')
    (huniq : ∀ j' : u.Idx, d.resultIdx? j' idx = some i' → j' = j) :
    Host.scatter d (fun _ b => b) x idx upd i' = upd j := by
  rw [scatter_set_eq_foldl]
  have hn0 : u.rowMajor.symm (u.rowMajor j) = j := u.rowMajor.symm_apply_apply j
  have := foldl_step_hit (fun n => d.resultIdx? (u.rowMajor.symm n) idx) (fun n => upd (u.rowMajor.symm n)) i'
    (u.rowMajor j) (List.finRange u.numel) x (List.mem_finRange _) (by simp only [hn0]; exact hj)
    (fun n _ hn => by
      have := huniq _ hn
      rw [← this]; exact (u.rowMajor.apply_symm_apply n).symm)
  rw [this]
  simp only [hn0]

/-- When every update `j` lands at `e j` and `e` is injective: entry `e j` holds update `j`. -/
theorem scatter_set_apply_emb (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j :=
  scatter_set_apply_of_hit d x idx upd (e j) j (he j) (fun j' hj' => by
    rw [he j'] at hj'
    exact hinj (Option.some.inj hj'))

/-- When every update `j` lands at `e j`: an entry outside the image of `e` keeps the operand's value. -/
theorem scatter_set_apply_not_emb (d : ScatterDims s si u) (x : s.Idx → α) (idx : IVec si w) (upd : u.Idx → α)
    (e : u.Idx → s.Idx) (he : ∀ j, d.resultIdx? j idx = some (e j)) (i' : s.Idx) (hi' : ∀ j, e j ≠ i') :
    Host.scatter d (fun _ b => b) x idx upd i' = x i' :=
  scatter_set_apply_of_miss d x idx upd i' (fun j hj => by
    rw [he j] at hj
    exact hi' j (Option.some.inj hj))

end scatter

end Idealize.ShloMosaic.ScatterSet
-- ==== Proof.KernelPrep.lean ====
/-
  What the host operations before the kernel region leave in the arrays the region stages: the species words as a
  column, the first-layer weights stacked and zero-padded (both orientations), the stacked bias, the padded
  second-layer weights (as four rows and as one row), and the lane-to-head table.

  The two zero-paddings are scatters of a whole array at offset zero into an array of zeros: entry by entry the
  update where the last coordinate is below 83, zero elsewhere.  The stackings are transposes and reshapes, read
  through row-major order: lane `q` of the 384 is head `q / 96`, unit `q % 96`.
-/
import proofs.«431511_j4320737100384_3_alg».proof.Proof.Gen.KernelIdeal.Frame
import proofs.«431511_j4320737100384_3_alg».proof.Proof.AtomSpec
import proofs.«431511_j4320737100384_3_alg».proof.Proof.LibScatterSet
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StableHlo.Run

noncomputable section

open scoped BigOperators

namespace Cert.KernelIdeal.Prep

open Idealize.ShloMosaic Idealize.ShloMosaic.ValueIdx Idealize.ShloMosaic.TcCoe Idealize.SL.Sem Cert.KernelIdeal Cert.KernelIdeal.Gen Cert.AtomSpec
open Idealize.ShloMosaic.ScatterSet

variable (m : (ℓ : Loc nD τ sig) → Buf (Elt Ideal) ℓ)

/-! ## The two scatters: the whole update written at offset zero -/

/-- Where update entry `j` of the first-layer weights lands: the same coordinates. -/
def e3 (j : S4x64x83.Idx) : S4x64x96.Idx :=
  fun a => ⟨(j a).val, lt_of_lt_of_le (j a).isLt ((by decide : ∀ a : Fin 3, S4x64x83.size a ≤ S4x64x96.size a) a)⟩

theorem win3 (j : S4x64x83.Idx) (a : Fin 3) :
    scatter_S4x64x96_S1_S4x64x83_012_n_2_0.window j a = (e3 j a).val := by
  fin_cases a <;> rfl

theorem e3_inj : Function.Injective e3 := by
  intro j j' h
  funext a
  have h1 : (e3 j a).val = (e3 j' a).val := congrArg Fin.val (congrFun h a)
  exact Fin.ext h1

theorem res3 (idx : IVec S1 32) (hidx : ∀ k, idx k = 0#32) (j : S4x64x83.Idx) :
    scatter_S4x64x96_S1_S4x64x83_012_n_2_0.resultIdx? j idx = some (e3 j) :=
  resultIdx?_eq_some_of_window _ j idx hidx (e3 j) (win3 j)

/-- The zero-padded first-layer weights read at an entry. -/
theorem scatter3_apply (x : S4x64x96.Idx → EReal) (idx : IVec S1 32) (hidx : ∀ k, idx k = 0#32) (upd : S4x64x83.Idx → EReal)
    (s : Fin 4) (j : Fin 64) (u : Fin 96) :
    Host.scatter scatter_S4x64x96_S1_S4x64x83_012_n_2_0 (fun _ b => b) x idx upd (ix3 s j u)
      = if h : u.val < 83 then upd (ix3 s j ⟨u.val, h⟩) else x (ix3 s j u) := by
  by_cases h : u.val < 83
  · rw [dif_pos h]
    have hi : (ix3 s j u : S4x64x96.Idx) = e3 (ix3 s j ⟨u.val, h⟩) := by
      funext a
      fin_cases a <;> rfl
    rw [hi]
    exact scatter_set_apply_emb _ x idx upd e3 (res3 idx hidx) e3_inj _
  · rw [dif_neg h]
    refine scatter_set_apply_not_emb _ x idx upd e3 (res3 idx hidx) _ (fun jj hjj => h ?_)
    have h2 : (e3 jj 2).val = u.val := congrArg Fin.val (congrFun hjj 2)
    have h3 : (jj 2).val < 83 := (jj 2).isLt
    have h4 : (e3 jj 2).val = (jj 2).val := rfl
    omega

/-- Where update entry `j` of a [4,83] array lands: the same coordinates. -/
def e2 (j : S4x83.Idx) : S4x96.Idx :=
  fun a => ⟨(j a).val, lt_of_lt_of_le (j a).isLt ((by decide : ∀ a : Fin 2, S4x83.size a ≤ S4x96.size a) a)⟩

theorem win2 (j : S4x83.Idx) (a : Fin 2) :
    scatter_S4x96_S1_S4x83_01_n_1_0.window j a = (e2 j a).val := by
  fin_cases a <;> rfl

theorem e2_inj : Function.Injective e2 := by
  intro j j' h
  funext a
  have h1 : (e2 j a).val = (e2 j' a).val := congrArg Fin.val (congrFun h a)
  exact Fin.ext h1

theorem res2 (idx : IVec S1 32) (hidx : ∀ k, idx k = 0#32) (j : S4x83.Idx) :
    scatter_S4x96_S1_S4x83_01_n_1_0.resultIdx? j idx = some (e2 j) :=
  resultIdx?_eq_some_of_window _ j idx hidx (e2 j) (win2 j)

/-- A zero-padded [4,83] array read at an entry. -/
theorem scatter2_apply (x : S4x96.Idx → EReal) (idx : IVec S1 32) (hidx : ∀ k, idx k = 0#32) (upd : S4x83.Idx → EReal)
    (s : Fin 4) (u : Fin 96) :
    Host.scatter scatter_S4x96_S1_S4x83_01_n_1_0 (fun _ b => b) x idx upd (ix2 s u)
      = if h : u.val < 83 then upd (ix2 s ⟨u.val, h⟩) else x (ix2 s u) := by
  by_cases h : u.val < 83
  · rw [dif_pos h]
    have hi : (ix2 s u : S4x96.Idx) = e2 (ix2 s ⟨u.val, h⟩) := by
      funext a
      fin_cases a <;> rfl
    rw [hi]
    exact scatter_set_apply_emb _ x idx upd e2 (res2 idx hidx) e2_inj _
  · rw [dif_neg h]
    refine scatter_set_apply_not_emb _ x idx upd e2 (res2 idx hidx) _ (fun jj hjj => h ?_)
    have h2 : (e2 jj 1).val = u.val := congrArg Fin.val (congrFun hjj 1)
    have h3 : (jj 1).val < 83 := (jj 1).isLt
    have h4 : (e2 jj 1).val = (jj 1).val := rfl
    omega

/-! ## The buffers as their operations' terms -/

/-- The zero array the first-layer weights are written into. -/
def zeros3 : S4x64x96.Idx → EReal :=
  broadcastInDim S4x64x96 ![] bcast_S_S4x64x96 (constant (F := Ideal) S_ .f32 0x00000000#32)
/-- The zero array the bias and the second-layer weights are written into. -/
def zeros2 : S4x96.Idx → EReal :=
  broadcastInDim S4x96 ![] bcast_S_S4x96 (constant (F := Ideal) S_ .f32 0x00000000#32)
/-- The one scatter index: the zero word. -/
def idx0 : IVec S1 32 := broadcastInDim S1 ![] bcast_S_S1 (constantI S_ 32 0#32)

theorem idx0_apply (k : S1.Idx) : idx0 k = 0#32 := rfl
theorem zeros3_apply (i : S4x64x96.Idx) : zeros3 i = 0 := by
  show Ideal.ofBits .f32 0x00000000#32 = 0
  exact Ideal.ofBits_zero_f32
theorem zeros2_apply (i : S4x96.Idx) : zeros2 i = 0 := by
  show Ideal.ofBits .f32 0x00000000#32 = 0
  exact Ideal.ofBits_zero_f32

/-- The first-layer weights zero-padded to 96 lanes a head. -/
def w1pad (x6 : S4x64x83.Idx → EReal) : S4x64x96.Idx → EReal :=
  Host.scatter scatter_S4x64x96_S1_S4x64x83_012_n_2_0 (fun _ b => b) zeros3 idx0 x6
/-- A [4,83] array zero-padded to 96 lanes a head. -/
def rowpad (x : S4x83.Idx → EReal) : S4x96.Idx → EReal :=
  Host.scatter scatter_S4x96_S1_S4x83_01_n_1_0 (fun _ b => b) zeros2 idx0 x

theorem V0_term (c : Dev nD) : (V m c main_v0 : S500000x1.Idx → BitVec 32)
    = shapeCast S500000x1 (m ((c : Thread nD τ).loc main_arg0) : S500000.Idx → BitVec 32) shapeCasts_S500000_S500000x1 := by
  show StableHlo.after hostOps0 (fun b => m (c, b)) (Proc.devRef .tc main_v0) = _
  after_results
  rfl

theorem V6_term (c : Dev nD) : (V m c main_v6 : S64x384.Idx → EReal)
    = truncf (F := Ideal) .bf16 (shapeCast S64x384 (transpose S64x4x96 [1, 0, 2]
        (w1pad (m ((c : Thread nD τ).loc main_arg6) : S4x64x83.Idx → EReal)) transposes_S4x64x96_S64x4x96_1_0_2)
        shapeCasts_S64x4x96_S64x384) bitsLt_bf16_f32 := by
  show StableHlo.after hostOps0 (fun b => m (c, b)) (Proc.devRef .tc main_v6) = _
  after_results
  rfl

theorem V9_term (c : Dev nD) : (V m c main_v9 : S384x64.Idx → EReal)
    = truncf (F := Ideal) .bf16 (shapeCast S384x64 (transpose S4x96x64 [0, 2, 1]
        (w1pad (m ((c : Thread nD τ).loc main_arg6) : S4x64x83.Idx → EReal)) transposes_S4x64x96_S4x96x64_0_2_1)
        shapeCasts_S4x96x64_S384x64) bitsLt_bf16_f32 := by
  show StableHlo.after hostOps0 (fun b => m (c, b)) (Proc.devRef .tc main_v9) = _
  after_results
  rfl

theorem V13_term (c : Dev nD) : (V m c main_v13 : S1x384.Idx → EReal)
    = shapeCast S1x384 (rowpad (m ((c : Thread nD τ).loc main_arg7) : S4x83.Idx → EReal)) shapeCasts_S4x96_S1x384 := by
  show StableHlo.after hostOps0 (fun b => m (c, b)) (Proc.devRef .tc main_v13) = _
  after_results
  rfl

theorem V17_term (c : Dev nD) : (V m c main_v17 : S4x96.Idx → EReal)
    = rowpad (shapeCast S4x83 (m ((c : Thread nD τ).loc main_arg8) : S4x83x1.Idx → EReal) shapeCasts_S4x83x1_S4x83) := by
  show StableHlo.after hostOps0 (fun b => m (c, b)) (Proc.devRef .tc main_v17) = _
  after_results
  rfl

theorem V18_term (c : Dev nD) : (V m c main_v18 : S1x384.Idx → EReal)
    = shapeCast S1x384 (rowpad (shapeCast S4x83 (m ((c : Thread nD τ).loc main_arg8) : S4x83x1.Idx → EReal) shapeCasts_S4x83x1_S4x83))
        shapeCasts_S4x96_S1x384 := by
  show StableHlo.after hostOps0 (fun b => m (c, b)) (Proc.devRef .tc main_v18) = _
  after_results
  rfl

theorem V22_term (c : Dev nD) : (V m c main_v22 : S1x384.Idx → BitVec 32)
    = shapeCast S1x384 (shapeCast S384 (broadcastInDim S4x96 ![0] bcast_S4_S4x96_0 (iotaInDim S4 32 0 : IVec S4 32))
        shapeCasts_S4x96_S384) shapeCasts_S384_S1x384 := by
  show StableHlo.after hostOps0 (fun b => m (c, b)) (Proc.devRef .tc main_v22) = _
  after_results
  rfl

/-! ## The padded arrays at an entry -/

theorem w1pad_apply (x6 : S4x64x83.Idx → EReal) (s : Fin 4) (j : Fin 64) (u : Fin 96) :
    w1pad x6 (ix3 s j u) = if h : u.val < 83 then x6 (ix3 s j ⟨u.val, h⟩) else 0 := by
  unfold w1pad
  rw [scatter3_apply zeros3 idx0 idx0_apply x6 s j u]
  by_cases h : u.val < 83
  · rw [dif_pos h, dif_pos h]
  · rw [dif_neg h, dif_neg h]; exact zeros3_apply _

theorem rowpad_apply (x : S4x83.Idx → EReal) (s : Fin 4) (u : Fin 96) :
    rowpad x (ix2 s u) = if h : u.val < 83 then x (ix2 s ⟨u.val, h⟩) else 0 := by
  unfold rowpad
  rw [scatter2_apply zeros2 idx0 idx0_apply x s u]
  by_cases h : u.val < 83
  · rw [dif_pos h, dif_pos h]
  · rw [dif_neg h, dif_neg h]; exact zeros2_apply _

/-! ## The seven buffers -/

/-- The species words, reshaped to a column. -/
theorem V_sym (c : Dev nD) (r : Fin 500000) :
    (V m c main_v0 : S500000x1.Idx → BitVec 32) (ix2 r 0)
      = (m ((c : Thread nD τ).loc main_arg0) : S500000.Idx → BitVec 32) (ix1 r) := by
  refine (congrFun (V0_term m c) (ix2 r 0)).trans ?_
  refine shapeCast_apply (s := S500000) (t := S500000x1) _ shapeCasts_S500000_S500000x1 (ix2 r 0) (ix1 r) ?_
  show (S500000.rowMajor (ix1 r)).val = (S500000x1.rowMajor (ix2 r 0)).val
  rewrite [Shape.rowMajor_val_one, Shape.rowMajor_val_two]
  show r.val = r.val * 1 + 0
  omega

/-- The first-layer weights, stacked along the lanes and zero-padded. -/
theorem V_w1all (c : Dev nD) (j : Fin 64) (q : Fin 384) :
    (V m c main_v6 : S64x384.Idx → EReal) (ix2 j q)
      = padW1 (m ((c : Thread nD τ).loc main_arg6) : S4x64x83.Idx → EReal) j q := by
  refine (congrFun (V6_term m c) (ix2 j q)).trans ?_
  generalize (m ((c : Thread nD τ).loc main_arg6) : S4x64x83.Idx → EReal) = x6
  refine (truncf_apply _ bitsLt_bf16_f32 (ix2 j q)).trans ?_
  refine (shapeCast_apply _ shapeCasts_S64x4x96_S64x384 (ix2 j q) (ix3 j (laneHead q) (laneUnit q)) ?_).trans ?_
  · rewrite [Shape.rowMajor_val_three, Shape.rowMajor_val_two]
    show (j.val * 4 + q.val / 96) * 96 + q.val % 96 = j.val * 384 + q.val
    omega
  refine (transpose_apply [1, 0, 2] (w1pad x6) transposes_S4x64x96_S64x4x96_1_0_2 (ix3 j (laneHead q) (laneUnit q))
    (ix3 (laneHead q) j (laneUnit q)) ?_).trans ?_
  · intro b
    fin_cases b <;> rfl
  exact w1pad_apply x6 (laneHead q) j (laneUnit q)

/-- The same, transposed. -/
theorem V_w1t (c : Dev nD) (q : Fin 384) (j : Fin 64) :
    (V m c main_v9 : S384x64.Idx → EReal) (ix2 q j)
      = padW1 (m ((c : Thread nD τ).loc main_arg6) : S4x64x83.Idx → EReal) j q := by
  refine (congrFun (V9_term m c) (ix2 q j)).trans ?_
  generalize (m ((c : Thread nD τ).loc main_arg6) : S4x64x83.Idx → EReal) = x6
  refine (truncf_apply _ bitsLt_bf16_f32 (ix2 q j)).trans ?_
  refine (shapeCast_apply _ shapeCasts_S4x96x64_S384x64 (ix2 q j) (ix3 (laneHead q) (laneUnit q) j) ?_).trans ?_
  · rewrite [Shape.rowMajor_val_three, Shape.rowMajor_val_two]
    show (q.val / 96 * 96 + q.val % 96) * 64 + j.val = q.val * 64 + j.val
    omega
  refine (transpose_apply [0, 2, 1] (w1pad x6) transposes_S4x64x96_S4x96x64_0_2_1 (ix3 (laneHead q) (laneUnit q) j)
    (ix3 (laneHead q) j (laneUnit q)) ?_).trans ?_
  · intro b
    fin_cases b <;> rfl
  exact w1pad_apply x6 (laneHead q) j (laneUnit q)

/-- The first-layer bias, stacked and zero-padded. -/
theorem V_b1all (c : Dev nD) (q : Fin 384) :
    (V m c main_v13 : S1x384.Idx → EReal) (ix2 0 q)
      = padB1 (m ((c : Thread nD τ).loc main_arg7) : S4x83.Idx → EReal) q := by
  refine (congrFun (V13_term m c) (ix2 0 q)).trans ?_
  generalize (m ((c : Thread nD τ).loc main_arg7) : S4x83.Idx → EReal) = x7
  refine (shapeCast_apply _ shapeCasts_S4x96_S1x384 (ix2 0 q) (ix2 (laneHead q) (laneUnit q)) ?_).trans ?_
  · rewrite [Shape.rowMajor_val_two, Shape.rowMajor_val_two]
    show q.val / 96 * 96 + q.val % 96 = 0 * 384 + q.val
    omega
  exact rowpad_apply x7 (laneHead q) (laneUnit q)

/-- The second-layer weights as a [4,83] array, read at an entry. -/
theorem w2cast_apply (x8 : S4x83x1.Idx → EReal) (s : Fin 4) (h : Fin 83) :
    shapeCast S4x83 x8 shapeCasts_S4x83x1_S4x83 (ix2 s h) = x8 (ix3 s h 0) := by
  refine shapeCast_apply x8 shapeCasts_S4x83x1_S4x83 (ix2 s h) (ix3 s h 0) ?_
  rewrite [Shape.rowMajor_val_three, Shape.rowMajor_val_two]
  show (s.val * 83 + h.val) * 1 + 0 = s.val * 83 + h.val
  omega

/-- The second-layer weights, zero-padded, one row a head. -/
theorem V_w2pad (c : Dev nD) (s : Fin 4) (u : Fin 96) :
    (V m c main_v17 : S4x96.Idx → EReal) (ix2 s u)
      = padW2 (m ((c : Thread nD τ).loc main_arg8) : S4x83x1.Idx → EReal) s u := by
  refine (congrFun (V17_term m c) (ix2 s u)).trans ?_
  generalize (m ((c : Thread nD τ).loc main_arg8) : S4x83x1.Idx → EReal) = x8
  rw [rowpad_apply]
  unfold padW2
  by_cases h : u.val < 83
  · rw [dif_pos h, dif_pos h]; exact w2cast_apply x8 s ⟨u.val, h⟩
  · rw [dif_neg h, dif_neg h]

/-- The same as one row of 384 lanes. -/
theorem V_w2flat (c : Dev nD) (q : Fin 384) :
    (V m c main_v18 : S1x384.Idx → EReal) (ix2 0 q)
      = padW2 (m ((c : Thread nD τ).loc main_arg8) : S4x83x1.Idx → EReal) (laneHead q) (laneUnit q) := by
  refine (congrFun (V18_term m c) (ix2 0 q)).trans ?_
  generalize (m ((c : Thread nD τ).loc main_arg8) : S4x83x1.Idx → EReal) = x8
  refine (shapeCast_apply _ shapeCasts_S4x96_S1x384 (ix2 0 q) (ix2 (laneHead q) (laneUnit q)) ?_).trans ?_
  · rewrite [Shape.rowMajor_val_two, Shape.rowMajor_val_two]
    show q.val / 96 * 96 + q.val % 96 = 0 * 384 + q.val
    omega
  rw [rowpad_apply]
  unfold padW2
  by_cases h : (laneUnit q).val < 83
  · rw [dif_pos h, dif_pos h]; exact w2cast_apply x8 (laneHead q) ⟨(laneUnit q).val, h⟩
  · rw [dif_neg h, dif_neg h]

/-- The head each lane belongs to. -/
theorem V_headcol (c : Dev nD) (q : Fin 384) :
    (V m c main_v22 : S1x384.Idx → BitVec 32) (ix2 0 q) = headCol q := by
  refine (congrFun (V22_term m c) (ix2 0 q)).trans ?_
  refine (shapeCast_apply _ shapeCasts_S384_S1x384 (ix2 0 q) (ix1 q) ?_).trans ?_
  · rewrite [Shape.rowMajor_val_one, Shape.rowMajor_val_two]
    show q.val = 0 * 384 + q.val
    omega
  refine (shapeCast_apply _ shapeCasts_S4x96_S384 (ix1 q) (ix2 (laneHead q) (laneUnit q)) ?_).trans ?_
  · rewrite [Shape.rowMajor_val_one, Shape.rowMajor_val_two]
    show q.val / 96 * 96 + q.val % 96 = q.val
    omega
  refine (broadcastInDim_apply ![0] bcast_S4_S4x96_0 (iotaInDim S4 32 0 : IVec S4 32) (ix2 (laneHead q) (laneUnit q))
    (ix1 (laneHead q)) ?_).trans ?_
  · intro a
    fin_cases a
    rfl
  rfl

end Cert.KernelIdeal.Prep

end
-- ==== Proof.KernelRun.lean ====
/-
  The kernel program's run with its three results named.  Point `t` of the 500-point grid handles atoms
  `1000 t … 1000 t + 999`: its blocks of positions and species words are rows of the arguments, its weight blocks the
  whole stacked arrays, so what it writes back is the energies and forces of those atoms; the 500 blocks tile the two
  output arrays.  After the region the energies are reshaped to a vector and summed per crystal.
-/
import proofs.«431511_j4320737100384_3_alg».proof.Proof.Gen.KernelIdeal.Frame
import proofs.«431511_j4320737100384_3_alg».proof.Proof.AtomSpec
import proofs.«431511_j4320737100384_3_alg».proof.Proof.KernelBody
import proofs.«431511_j4320737100384_3_alg».proof.Proof.KernelForce
import proofs.«431511_j4320737100384_3_alg».proof.Proof.KernelPrep
import Idealize.ShloMosaic.Lib.ValueIdx
import Idealize.ShloMosaic.Lib.Pipeline.Value
import Idealize.ShloMosaic.Lib.StableHlo.Run

set_option maxRecDepth 16384

noncomputable section

namespace Cert.KernelIdeal.KRun

open Idealize.ShloMosaic Idealize.ShloMosaic.ValueIdx Idealize.ShloMosaic.TcCoe Idealize.SL.Sem
open Cert.KernelIdeal Cert.KernelIdeal.Gen Cert.AtomSpec

variable (m : (ℓ : Loc nD τ sig) → Buf (Elt Ideal) ℓ) (ρ : Dev nD → PrngReg)

/-- The arguments as launched. -/
abbrev aSym (c : Dev nD) : S500000.Idx → BitVec 32 := m ((c : Thread nD τ).loc main_arg0)
abbrev aPos (c : Dev nD) : S500000x3.Idx → EReal := m ((c : Thread nD τ).loc main_arg1)
abbrev aCry (c : Dev nD) : S500000.Idx → BitVec 32 := m ((c : Thread nD τ).loc main_arg3)
abbrev aWd (c : Dev nD) : S3x64.Idx → EReal := m ((c : Thread nD τ).loc main_arg5)
abbrev aW1 (c : Dev nD) : S4x64x83.Idx → EReal := m ((c : Thread nD τ).loc main_arg6)
abbrev aB1 (c : Dev nD) : S4x83.Idx → EReal := m ((c : Thread nD τ).loc main_arg7)
abbrev aW2 (c : Dev nD) : S4x83x1.Idx → EReal := m ((c : Thread nD τ).loc main_arg8)
abbrev aB2 (c : Dev nD) : S4x1.Idx → EReal := m ((c : Thread nD τ).loc main_arg9)

theorem point_lt (t : Fin cfg0.N) : t.val < 500 := N_0 ▸ t.isLt

/-- The printed index maps over the grid: the four row-blocked windows sit at block `t`, the weight windows at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-! ## The blocks a point reads -/

/-- Row `p` of point `t`'s position block is atom `1000 t + p`'s position. -/
theorem read_pos (c : Dev nD) (t : Fin cfg0.N) (p : Fin 1000) (k : Fin 3) (r : Fin 500000) (hr : r.val = t.val * 1000 + p.val) :
    iblk m c 0 t (ix2 p k) = aPos m c (ix2 r k) := by
  show V m c main_arg1 (((cfg0.win 0).blk t).view.emb (ix2 p k)) = _
  rw [V_main_arg1]
  refine congrArg _ ?_
  obtain ⟨⟨e0, e1⟩, -⟩ := idx_facts t
  funext a; apply Fin.ext
  match a with
  | ⟨0, _⟩ => show win0_0.index t (0 : Fin 2) * 1000 + 1 * p.val = r.val; omega
  | ⟨1, _⟩ => show win0_0.index t (1 : Fin 2) * 3 + 1 * k.val = k.val; omega

/-- Row `p` of its species block is atom `1000 t + p`'s species word. -/
theorem read_sym (c : Dev nD) (t : Fin cfg0.N) (p : Fin 1000) (r : Fin 500000) (hr : r.val = t.val * 1000 + p.val) :
    iblk m c 1 t (ix2 p 0) = aSym m c (ix1 r) := by
  show V m c main_v0 (((cfg0.win 1).blk t).view.emb (ix2 p 0)) = _
  refine Eq.trans (congrArg _ ?_) (Prep.V_sym m c r)
  obtain ⟨-, ⟨e0, e1⟩, -⟩ := idx_facts t
  funext a; apply Fin.ext
  match a with
  | ⟨0, _⟩ => show win0_1.index t (0 : Fin 2) * 1000 + 1 * p.val = r.val; omega
  | ⟨1, _⟩ => show win0_1.index t (1 : Fin 2) * 1 + 1 * 0 = 0; omega

/-- A weight window's block is its whole array: the block index is 0 on both axes. -/
theorem read_wd (c : Dev nD) (t : Fin cfg0.N) : iblk m c 2 t = aWd m c := by
  funext y
  show V m c main_arg5 (((cfg0.win 2).blk t).view.emb y) = _
  rw [V_main_arg5]
  refine congrArg _ ?_
  obtain ⟨-, -, ⟨e0, e1⟩, -⟩ := idx_facts t
  funext a; apply Fin.ext
  match a with
  | ⟨0, _⟩ => show win0_2.index t (0 : Fin 2) * 3 + 1 * (y 0).val = (y 0).val; omega
  | ⟨1, _⟩ => show win0_2.index t (1 : Fin 2) * 64 + 1 * (y 1).val = (y 1).val; omega

theorem read_b2 (c : Dev nD) (t : Fin cfg0.N) : iblk m c 8 t = aB2 m c := by
  funext y
  show V m c main_arg9 (((cfg0.win 8).blk t).view.emb y) = _
  rw [V_main_arg9]
  refine congrArg _ ?_
  obtain ⟨-, -, -, -, -, -, -, -, ⟨e0, e1⟩, -⟩ := idx_facts t
  funext a; apply Fin.ext
  match a with
  | ⟨0, _⟩ => show win0_8.index t (0 : Fin 2) * 4 + 1 * (y 0).val = (y 0).val; omega
  | ⟨1, _⟩ => show win0_8.index t (1 : Fin 2) * 1 + 1 * (y 1).val = (y 1).val; omega

theorem read_w1all (c : Dev nD) (t : Fin cfg0.N) (j : Fin 64) (q : Fin 384) :
    iblk m c 3 t (ix2 j q) = padW1 (aW1 m c) j q := by
  show V m c main_v6 (((cfg0.win 3).blk t).view.emb (ix2 j q)) = _
  refine Eq.trans (congrArg _ ?_) (Prep.V_w1all m c j q)
  obtain ⟨-, -, -, ⟨e0, e1⟩, -⟩ := idx_facts t
  funext a; apply Fin.ext
  match a with
  | ⟨0, _⟩ => show win0_3.index t (0 : Fin 2) * 64 + 1 * j.val = j.val; omega
  | ⟨1, _⟩ => show win0_3.index t (1 : Fin 2) * 384 + 1 * q.val = q.val; omega

theorem read_w1t (c : Dev nD) (t : Fin cfg0.N) (q : Fin 384) (j : Fin 64) :
    iblk m c 4 t (ix2 q j) = padW1 (aW1 m c) j q := by
  show V m c main_v9 (((cfg0.win 4).blk t).view.emb (ix2 q j)) = _
  refine Eq.trans (congrArg _ ?_) (Prep.V_w1t m c q j)
  obtain ⟨-, -, -, -, ⟨e0, e1⟩, -⟩ := idx_facts t
  funext a; apply Fin.ext
  match a with
  | ⟨0, _⟩ => show win0_4.index t (0 : Fin 2) * 384 + 1 * q.val = q.val; omega
  | ⟨1, _⟩ => show win0_4.index t (1 : Fin 2) * 64 + 1 * j.val = j.val; omega

theorem read_b1all (c : Dev nD) (t : Fin cfg0.N) (q : Fin 384) :
    iblk m c 5 t (ix2 0 q) = padB1 (aB1 m c) q := by
  show V m c main_v13 (((cfg0.win 5).blk t).view.emb (ix2 0 q)) = _
  refine Eq.trans (congrArg _ ?_) (Prep.V_b1all m c q)
  obtain ⟨-, -, -, -, -, ⟨e0, e1⟩, -⟩ := idx_facts t
  funext a; apply Fin.ext
  match a with
  | ⟨0, _⟩ => show win0_5.index t (0 : Fin 2) * 1 + 1 * 0 = 0; omega
  | ⟨1, _⟩ => show win0_5.index t (1 : Fin 2) * 384 + 1 * q.val = q.val; omega

theorem read_w2pad (c : Dev nD) (t : Fin cfg0.N) (s : Fin 4) (u : Fin 96) :
    iblk m c 6 t (ix2 s u) = padW2 (aW2 m c) s u := by
  show V m c main_v17 (((cfg0.win 6).blk t).view.emb (ix2 s u)) = _
  refine Eq.trans (congrArg _ ?_) (Prep.V_w2pad m c s u)
  obtain ⟨-, -, -, -, -, -, ⟨e0, e1⟩, -⟩ := idx_facts t
  funext a; apply Fin.ext
  match a with
  | ⟨0, _⟩ => show win0_6.index t (0 : Fin 2) * 4 + 1 * s.val = s.val; omega
  | ⟨1, _⟩ => show win0_6.index t (1 : Fin 2) * 96 + 1 * u.val = u.val; omega

theorem read_w2flat (c : Dev nD) (t : Fin cfg0.N) (q : Fin 384) :
    iblk m c 7 t (ix2 0 q) = padW2 (aW2 m c) (laneHead q) (laneUnit q) := by
  show V m c main_v18 (((cfg0.win 7).blk t).view.emb (ix2 0 q)) = _
  refine Eq.trans (congrArg _ ?_) (Prep.V_w2flat m c q)
  obtain ⟨-, -, -, -, -, -, -, ⟨e0, e1⟩, -⟩ := idx_facts t
  funext a; apply Fin.ext
  match a with
  | ⟨0, _⟩ => show win0_7.index t (0 : Fin 2) * 1 + 1 * 0 = 0; omega
  | ⟨1, _⟩ => show win0_7.index t (1 : Fin 2) * 384 + 1 * q.val = q.val; omega

theorem read_headcol (c : Dev nD) (t : Fin cfg0.N) (q : Fin 384) :
    iblk m c 9 t (ix2 0 q) = headCol q := by
  show V m c main_v22 (((cfg0.win 9).blk t).view.emb (ix2 0 q)) = _
  refine Eq.trans (congrArg _ ?_) (Prep.V_headcol m c q)
  obtain ⟨-, -, -, -, -, -, -, -, -, ⟨e0, e1⟩, -⟩ := idx_facts t
  funext a; apply Fin.ext
  match a with
  | ⟨0, _⟩ => show win0_9.index t (0 : Fin 2) * 1 + 1 * 0 = 0; omega
  | ⟨1, _⟩ => show win0_9.index t (1 : Fin 2) * 384 + 1 * q.val = q.val; omega

/-! ## What a point writes back -/

/-- Every atom's energy, as the one-column array the region writes. -/
def eCol (c : Dev nD) : S500000x1.Idx → EReal :=
  fun i => atomE (aSym m c (ix1 (i 0))) (fun k => aPos m c (ix2 (i 0) k)) (aWd m c) (aW1 m c) (aB1 m c) (aW2 m c) (aB2 m c)

/-- Every atom's force. -/
abbrev fArr (c : Dev nD) : S500000x3.Idx → EReal :=
  forces (aSym m c) (aPos m c) (aWd m c) (aW1 m c) (aB1 m c) (aW2 m c)

theorem hz : (![0, 0] : Fin 2 → Nat) = fun _ => 0 := funext fun a => by fin_cases a <;> rfl

/-- Point `t` writes back block `t` of the energies. -/
theorem flushed10_eq (c : Dev nD) (t : Fin cfg0.N) :
    (dats m 0 c).flushed 10 t = ((cfg0.win 10).blk t).view.read (Elt Ideal) (eCol m c) := by
  show (cfg0.win 10).cut (grid0.coords t) ((dats m 0 c).after 10 t) = _
  rw [after0_10]
  funext y
  have ht := point_lt t
  obtain ⟨-, -, -, -, -, -, -, -, -, -, ⟨e0, e1⟩, -⟩ := idx_facts t
  have hy0 : (y 0).val < 1000 := (y 0).isLt
  have hy1 : (y 1).val < 1 := (y 1).isLt
  let p : Fin 1000 := ⟨(y 0).val, hy0⟩
  let r : Fin 500000 := ⟨t.val * 1000 + (y 0).val, by omega⟩
  have hyp : y = ix2 p 0 := by
    funext a; apply Fin.ext
    match a with
    | ⟨0, _⟩ => rfl
    | ⟨1, _⟩ => show (y 1).val = 0; omega
  have hemb : ((cfg0.win 10).blk t).view.emb y = ix2 r 0 := by
    funext a; apply Fin.ext
    match a with
    | ⟨0, _⟩ => show win0_10.index t (0 : Fin 2) * 1000 + 1 * (y 0).val = t.val * 1000 + (y 0).val; omega
    | ⟨1, _⟩ => show win0_10.index t (1 : Fin 2) * 1 + 1 * (y 1).val = 0; omega
  show out0_10 (iblk m c 0 t) (iblk m c 1 t) (iblk m c 2 t) (iblk m c 3 t) (iblk m c 4 t) (iblk m c 5 t) (iblk m c 6 t) (iblk m c 7 t) (iblk m c 8 t) (iblk m c 9 t) y
    = eCol m c (((cfg0.win 10).blk t).view.emb y)
  rw [hemb, hyp]
  refine (Body.out10_row (iblk m c 0 t) (iblk m c 1 t) (iblk m c 2 t) (iblk m c 3 t) (iblk m c 4 t) (iblk m c 5 t) (iblk m c 6 t) (iblk m c 7 t) (iblk m c 8 t) (iblk m c 9 t)
    (aW1 m c) (aB1 m c) (aW2 m c) (read_w1all m c t) (read_b1all m c t) (read_w2pad m c t) p).trans ?_
  unfold eCol
  rw [read_sym m c t p r rfl, read_wd m c t, read_b2 m c t]
  refine congrArg (fun f => atomE _ f _ _ _ _ _) ?_
  funext k
  exact read_pos m c t p k r rfl

/-- Point `t` writes back block `t` of the forces. -/
theorem flushed11_eq (c : Dev nD) (t : Fin cfg0.N) :
    (dats m 0 c).flushed 11 t = ((cfg0.win 11).blk t).view.read (Elt Ideal) (fArr m c) := by
  show (cfg0.win 11).cut (grid0.coords t) ((dats m 0 c).after 11 t) = _
  rw [after0_11]
  funext y
  have ht := point_lt t
  obtain ⟨-, -, -, -, -, -, -, -, -, -, -, ⟨e0, e1⟩⟩ := idx_facts t
  have hy0 : (y 0).val < 1000 := (y 0).isLt
  have hy1 : (y 1).val < 3 := (y 1).isLt
  let p : Fin 1000 := ⟨(y 0).val, hy0⟩
  let k : Fin 3 := ⟨(y 1).val, hy1⟩
  let r : Fin 500000 := ⟨t.val * 1000 + (y 0).val, by omega⟩
  have hyp : y = ix2 p k := by
    funext a; apply Fin.ext
    match a with
    | ⟨0, _⟩ => rfl
    | ⟨1, _⟩ => rfl
  have hemb : ((cfg0.win 11).blk t).view.emb y = ix2 r k := by
    funext a; apply Fin.ext
    match a with
    | ⟨0, _⟩ => show win0_11.index t (0 : Fin 2) * 1000 + 1 * (y 0).val = t.val * 1000 + (y 0).val; omega
    | ⟨1, _⟩ => show win0_11.index t (1 : Fin 2) * 3 + 1 * (y 1).val = (y 1).val; omega
  show out0_11 (iblk m c 0 t) (iblk m c 1 t) (iblk m c 2 t) (iblk m c 3 t) (iblk m c 4 t) (iblk m c 5 t) (iblk m c 6 t) (iblk m c 7 t) (iblk m c 8 t) (iblk m c 9 t) y
    = fArr m c (((cfg0.win 11).blk t).view.emb y)
  rw [hemb, hyp]
  refine (Body.out11_row (iblk m c 0 t) (iblk m c 1 t) (iblk m c 2 t) (iblk m c 3 t) (iblk m c 4 t) (iblk m c 5 t) (iblk m c 6 t) (iblk m c 7 t) (iblk m c 8 t) (iblk m c 9 t)
    (aW1 m c) (aB1 m c) (aW2 m c) (read_w1all m c t) (read_w1t m c t) (read_b1all m c t) (read_w2flat m c t) (read_headcol m c t) p k).trans ?_
  show _ = atomF (aSym m c (ix1 r)) (fun k' => aPos m c (ix2 r k')) (aWd m c) (aW1 m c) (aB1 m c) (aW2 m c) k
  rw [read_sym m c t p r rfl, read_wd m c t]
  refine congrArg (fun f => atomF _ f _ _ _ _ _) ?_
  funext k'
  exact read_pos m c t p k' r rfl

/-! ## The blocks tile the output arrays -/

theorem mem_blk10 (t : Fin cfg0.N) (i : S500000x1.Idx) :
    i ∈ ((cfg0.win 10).blk t).view.set ↔ ∀ a : Fin 2, win0_10.index t a * S1000x1.size a ≤ (i a).val ∧ (i a).val < win0_10.index t a * S1000x1.size a + S1000x1.size a := by
  show i ∈ ((View.whole main_v23_0).slice (win0_10.rect t)).set ↔ _
  rw [View.set_slice_whole, Rect.mem_set_unit]
  exact Iff.rfl

theorem mem_blk11 (t : Fin cfg0.N) (i : S500000x3.Idx) :
    i ∈ ((cfg0.win 11).blk t).view.set ↔ ∀ a : Fin 2, win0_11.index t a * S1000x3.size a ≤ (i a).val ∧ (i a).val < win0_11.index t a * S1000x3.size a + S1000x3.size a := by
  show i ∈ ((View.whole main_v23_1).slice (win0_11.rect t)).set ↔ _
  rw [View.set_slice_whole, Rect.mem_set_unit]
  exact Iff.rfl

/-- Atom `r`'s energy entry is in the block of point `r / 1000`. -/
theorem cover10 (i : S500000x1.Idx) :
    ∃ t : Fin cfg0.N, (cfg0.win 10).flush t = true ∧ i ∈ ((cfg0.win 10).blk t).view.set := by
  have hi0 : (i 0).val < 500000 := (i 0).isLt
  have hi1 : (i 1).val < 1 := (i 1).isLt
  let t : Fin cfg0.N := ⟨(i 0).val / 1000, by rw [show cfg0.N = 500 from N_0]; omega⟩
  obtain ⟨-, -, -, -, -, -, -, -, -, -, ⟨e0, e1⟩, -⟩ := idx_facts t
  have et : t.val = (i 0).val / 1000 := rfl
  refine ⟨t, flush0_10 t, ?_⟩
  rw [mem_blk10]
  intro a
  match a with
  | ⟨0, _⟩ => show win0_10.index t (0 : Fin 2) * 1000 ≤ (i 0).val ∧ (i 0).val < win0_10.index t (0 : Fin 2) * 1000 + 1000; omega
  | ⟨1, _⟩ => show win0_10.index t (1 : Fin 2) * 1 ≤ (i 1).val ∧ (i 1).val < win0_10.index t (1 : Fin 2) * 1 + 1; omega

theorem cover11 (i : S500000x3.Idx) :
    ∃ t : Fin cfg0.N, (cfg0.win 11).flush t = true ∧ i ∈ ((cfg0.win 11).blk t).view.set := by
  have hi0 : (i 0).val < 500000 := (i 0).isLt
  have hi1 : (i 1).val < 3 := (i 1).isLt
  let t : Fin cfg0.N := ⟨(i 0).val / 1000, by rw [show cfg0.N = 500 from N_0]; omega⟩
  obtain ⟨-, -, -, -, -, -, -, -, -, -, -, ⟨e0, e1⟩⟩ := idx_facts t
  have et : t.val = (i 0).val / 1000 := rfl
  refine ⟨t, flush0_11 t, ?_⟩
  rw [mem_blk11]
  intro a
  match a with
  | ⟨0, _⟩ => show win0_11.index t (0 : Fin 2) * 1000 ≤ (i 0).val ∧ (i 0).val < win0_11.index t (0 : Fin 2) * 1000 + 1000; omega
  | ⟨1, _⟩ => show win0_11.index t (1 : Fin 2) * 3 ≤ (i 1).val ∧ (i 1).val < win0_11.index t (1 : Fin 2) * 3 + 3; omega

/-- After the region the energy column holds every atom's energy, -/
theorem final10 (c : Dev nD) : (dats m 0 c).arrAt 10 cfg0.N = eCol m c :=
  (dats m 0 c).arrAt_eq_of_cover 10 (eCol m c) (fun t _ => flushed10_eq m c t) cover10

/-- and the force array every atom's force. -/
theorem final11 (c : Dev nD) : (dats m 0 c).arrAt 11 cfg0.N = fArr m c :=
  (dats m 0 c).arrAt_eq_of_cover 11 (fArr m c) (fun t _ => flushed11_eq m c t) cover11

/-! ## The host operations after the region -/

/-- The region's energy column, as the later host operations find it. -/
theorem tail_col (c : Dev nD) :
    Pipeline.withArrays (cfgs 0).spec c (V0 m c) (fun w => (dats m 0 c).arrAt w (cfgs 0).N) (Proc.devRef .tc main_v23_0)
      = eCol m c :=
  (Pipeline.withArrays_arr spec0 launch0.win.arr_inj c _ _ 10).trans (final10 m c)

/-- The energy column read as a vector is every atom's energy. -/
theorem col_vec (c : Dev nD) :
    shapeCast S500000 (eCol m c) shapeCasts_S500000x1_S500000
      = energies (aSym m c) (aPos m c) (aWd m c) (aW1 m c) (aB1 m c) (aW2 m c) (aB2 m c) := by
  funext i
  have h0 : (i 0).val < 500000 := (i 0).isLt
  rw [shapeCast_apply (eCol m c) shapeCasts_S500000x1_S500000 i (ix2 (i 0) 0)
    (by rewrite [Shape.rowMajor_val_two, Shape.rowMajor_val_one]; show (i 0).val * 1 + 0 = (i 0).val; omega)]
  exact congrArg (fun j => atomE (aSym m c j) (fun k => aPos m c (ix2 (i 0) k)) (aWd m c) (aW1 m c) (aB1 m c) (aW2 m c) (aB2 m c))
    (eq_ix1 i).symm

/-- The first result: the energies as a vector. -/
theorem tail_v24 (c : Dev nD) :
    Pipeline.afterTail₀ cfgs (dats m) 0 (V0 m) [hostOps1] c main_v24
      = energies (aSym m c) (aPos m c) (aWd m c) (aW1 m c) (aB1 m c) (aW2 m c) (aB2 m c) := by
  unfold Pipeline.afterTail₀
  show StableHlo.after hostOps1 _ (Proc.devRef .tc main_v24) = _
  after_results
  rw [tail_col m c]
  exact col_vec m c

/-- The crystal indices are untouched by the region. -/
theorem tail_cry (c : Dev nD) :
    Pipeline.withArrays (cfgs 0).spec c (V0 m c) (fun w => (dats m 0 c).arrAt w (cfgs 0).N) (Proc.devRef .tc main_arg3)
      = aCry m c :=
  (Pipeline.withArrays_of_ne _ c (V0 m c) _ main_arg3 (by exact (by decide : ∀ w, Pipeline.arrRef spec0 w ≠ main_arg3))).trans
    (V_main_arg3 m c)

/-- The second result: the energies summed per crystal. -/
theorem tail_v27 (c : Dev nD) :
    Pipeline.afterTail₀ cfgs (dats m) 0 (V0 m) [hostOps1] c main_v27
      = Host.scatterAdd scatter_S2500_S500000x1_S500000_n_0_0_1
          (broadcastInDim S2500 ![] bcast_S_S2500 (constant (F := Ideal) S_ .f32 0x00000000#32))
          (broadcastInDim S500000x1 ![0] bcast_S500000_S500000x1_0 (aCry m c))
          (energies (aSym m c) (aPos m c) (aWd m c) (aW1 m c) (aB1 m c) (aW2 m c) (aB2 m c)) := by
  unfold Pipeline.afterTail₀
  show StableHlo.after hostOps1 _ (Proc.devRef .tc main_v27) = _
  after_results
  rw [tail_col m c, tail_cry m c]
  exact congrArg _ (col_vec m c)

/-! ## The run -/

/-- Every weakly fair execution of the kernel program terminates with the energies, the per-crystal sums and the
    forces in its three results and its arguments unchanged. -/
theorem run : θ_run defs (onTc (τ := τ) (main (F := Ideal))) ⟨m, fun _ => 0, ρ⟩ (fun r => ∀ c : Dev nD,
      r.2.mem ((c.tc : Thread nD τ).loc main_v24)
        = energies (aSym m c) (aPos m c) (aWd m c) (aW1 m c) (aB1 m c) (aW2 m c) (aB2 m c)
      ∧ r.2.mem ((c.tc : Thread nD τ).loc main_v27)
        = Host.scatterAdd scatter_S2500_S500000x1_S500000_n_0_0_1
            (broadcastInDim S2500 ![] bcast_S_S2500 (constant (F := Ideal) S_ .f32 0x00000000#32))
            (broadcastInDim S500000x1 ![0] bcast_S500000_S500000x1_0 (aCry m c))
            (energies (aSym m c) (aPos m c) (aWd m c) (aW1 m c) (aB1 m c) (aW2 m c) (aB2 m c))
      ∧ r.2.mem ((c.tc : Thread nD τ).loc main_v23_1) = fArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v24 (Pipeline.mem_restRefs_of main_v24 (by decide) (by decide))).trans (tail_v24 m c),
      ((h c).2 main_v27 (Pipeline.mem_restRefs_of main_v27 (by decide) (by decide))).trans (tail_v27 m c),
      ((h c).1 11).trans (final11 m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 2).trans (((dats m 0 c).arrAt_in 2 rfl _).trans ((A_eq m c 2).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 8).trans (((dats m 0 c).arrAt_in 8 rfl _).trans ((A_eq m c 8).trans (V_main_arg9 m c)))⟩)
    (run_main m ρ)

end Cert.KernelIdeal.KRun

end
-- ==== Proof.RefEnergy.lean ====
/-
  The reference's first result is every atom's energy: its host operations, read one entry at a time, are the
  projection, the sine, each head's two layers and the selection by species word.
-/
import proofs.«431511_j4320737100384_3_alg».proof.Proof.RefRead
import proofs.«431511_j4320737100384_3_alg».proof.Proof.AtomSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.ReferenceIdeal.RefValue

open Idealize.ShloMosaic Idealize.ShloMosaic.ValueIdx Cert.ReferenceIdeal Cert.ReferenceIdeal.Read Cert.AtomSpec

variable (x0 : (⟨S500000, .i32⟩ : BufTy).Contents (Elt Ideal)) (x1 : (⟨S500000x3, .f32⟩ : BufTy).Contents (Elt Ideal))
  (x3 : (⟨S500000, .i32⟩ : BufTy).Contents (Elt Ideal)) (x5 : (⟨S3x64, .f32⟩ : BufTy).Contents (Elt Ideal))
  (x6 : (⟨S4x64x83, .f32⟩ : BufTy).Contents (Elt Ideal)) (x7 : (⟨S4x83, .f32⟩ : BufTy).Contents (Elt Ideal))
  (x8 : (⟨S4x83x1, .f32⟩ : BufTy).Contents (Elt Ideal)) (x9 : (⟨S4x1, .f32⟩ : BufTy).Contents (Elt Ideal))

/-! ## Words -/

/-- A selection on the comparison of two words is the `if` on their equality. -/
theorem word_select (a b : BitVec 32) (A B : EReal) :
    Scalar.select (IntOp.cmpi .eq a b) A B = if a = b then A else B := by
  by_cases h : a = b
  · subst h; simp [Scalar.select, IntOp.cmpi]
  · have hb : (a == b) = false := beq_eq_false_iff_ne.mpr h
    rw [if_neg h]
    simp [Scalar.select, IntOp.cmpi, hb]

/-! ## The descriptor -/

/-- The projection of atom `r`'s position, entry `j`. -/
theorem proj_at (r : Fin 500000) (j : Fin 64) :
    val_main_v0 (F := Ideal) x1 x5 (ix2 r j) = proj (fun k => x1 (ix2 r k)) x5 j := by
  have el : ∀ k : Fin 3, lidx_main_v0 (ix2 r j) k = ix2 r k := fun k => funext fun a => by
    match a with
    | ⟨0, _⟩ => rfl
    | ⟨1, _⟩ => rfl
  have er : ∀ k : Fin 3, ridx_main_v0 (ix2 r j) k = ix2 k j := fun k => funext fun a => by
    match a with
    | ⟨0, _⟩ => rfl
    | ⟨1, _⟩ => rfl
  rw [val_main_v0_apply, Fin.sum_univ_three, el 0, el 1, el 2, er 0, er 1, er 2]
  rfl

/-- The descriptor of atom `r`, entry `j`: the sine of the projection. -/
theorem desc_at (r : Fin 500000) (j : Fin 64) :
    val_main_v1 (F := Ideal) x1 x5 (ix2 r j) = desc (fun k => x1 (ix2 r k)) x5 j := by
  rw [val_main_v1_apply, proj_at, Ideal.hostUnary_sin_def]
  rfl

/-! ### Head 0 -/

/-- Head 0's first-layer weights: its slab of the stacked array, reshaped to a matrix. -/
theorem w1_0 (k : Fin 64) (h : Fin 83) :
    val_main_v5 (F := Ideal) x6 (ix2 k h) = x6 (ix3 (0 : Fin 4) k h) := by
  rw [val_main_v5_apply, val_main_v4_apply]
  refine congrArg x6 (funext fun a => Fin.ext ?_)
  have hk := k.isLt
  have hh := h.isLt
  match a with
  | ⟨0, _⟩ => rfl
  | ⟨1, _⟩ => show (k.val * 83 + h.val) / 83 % 64 = k.val; omega
  | ⟨2, _⟩ => show (k.val * 83 + h.val) % 83 = h.val; omega

/-- Head 0's first-layer bias, the same for every atom. -/
theorem b1_0 (r : Fin 500000) (h : Fin 83) :
    val_main_v10 (F := Ideal) x7 (ix2 r h) = x7 (ix2 (0 : Fin 4) h) := by
  rw [val_main_v10_apply, val_main_v9_apply, val_main_v8_apply, val_main_v7_apply]
  refine congrArg x7 (funext fun a => Fin.ext ?_)
  have hh := h.isLt
  match a with
  | ⟨0, _⟩ => rfl
  | ⟨1, _⟩ => show h.val % 83 = h.val; omega

/-- Head 0's hidden pre-activation: the descriptor times the weights, plus the bias. -/
theorem hid_0 (r : Fin 500000) (h : Fin 83) :
    val_main_v11 (F := Ideal) x1 x5 x6 x7 (ix2 r h) = hid (fun k => x1 (ix2 r k)) x5 x6 x7 (0 : Fin 4) h := by
  have el : ∀ k : Fin 64, lidx_main_v6 (ix2 r h) k = ix2 r k := fun k => funext fun a => by
    match a with
    | ⟨0, _⟩ => rfl
    | ⟨1, _⟩ => rfl
  have er : ∀ k : Fin 64, ridx_main_v6 (ix2 r h) k = ix2 k h := fun k => funext fun a => by
    match a with
    | ⟨0, _⟩ => rfl
    | ⟨1, _⟩ => rfl
  rw [val_main_v11_apply, val_main_v6_apply, b1_0, Ideal.addf_def]
  unfold hid
  refine congrArg (· + x7 (ix2 (0 : Fin 4) h)) (Finset.sum_congr rfl fun k _ => ?_)
  rw [el k, er k, desc_at, w1_0]

/-- Head 0's logistic factor: one over one plus the exponential of the negated pre-activation. -/
theorem gate_0 (i : S500000x83.Idx) :
    val_main_v12_2 (F := Ideal) x1 x5 x6 x7 i = gate (val_main_v11 (F := Ideal) x1 x5 x6 x7 i) := by
  rw [val_main_v12_2_apply, val_main_call0_v4_apply, val_main_call0_cst_0_apply, val_main_call0_v3_apply, val_main_call0_v2_apply, val_main_call0_cst_apply,
    val_main_call0_v1_apply, val_main_call0_v0_apply]
  simp only [Ideal.ofBits_def, Ideal.ofBits_one_f32, Ideal.hostDivf_def, Ideal.addf_def, Ideal.hostUnary_exp_def,
    Ideal.hostNegf_def, Ideal.negf_def]
  rfl

/-- Head 0's activation: the pre-activation times its logistic factor. -/
theorem act_0 (r : Fin 500000) (h : Fin 83) :
    val_main_v12_0 (F := Ideal) x1 x5 x6 x7 (ix2 r h)
      = hid (fun k => x1 (ix2 r k)) x5 x6 x7 (0 : Fin 4) h * gate (hid (fun k => x1 (ix2 r k)) x5 x6 x7 (0 : Fin 4) h) := by
  rw [val_main_v12_0_apply, gate_0, hid_0, Ideal.mulf_def]

/-- Head 0's second-layer weights: its column of the stacked array. -/
theorem w2_0 (h : Fin 83) :
    val_main_v14 (F := Ideal) x8 (ix2 h (0 : Fin 1)) = x8 (ix3 (0 : Fin 4) h (0 : Fin 1)) := by
  rw [val_main_v14_apply, val_main_v13_apply]
  refine congrArg x8 (funext fun a => Fin.ext ?_)
  have hh := h.isLt
  match a with
  | ⟨0, _⟩ => rfl
  | ⟨1, _⟩ => show (h.val * 1 + 0) / 1 % 83 = h.val; omega
  | ⟨2, _⟩ => rfl

/-- Head 0's second-layer bias, the same for every atom. -/
theorem b2_0 (r : Fin 500000) :
    val_main_v19 (F := Ideal) x9 (ix2 r (0 : Fin 1)) = x9 (ix2 (0 : Fin 4) (0 : Fin 1)) := by
  rw [val_main_v19_apply, val_main_v18_apply, val_main_v17_apply, val_main_v16_apply]
  refine congrArg x9 (funext fun a => Fin.ext ?_)
  match a with
  | ⟨0, _⟩ => rfl
  | ⟨1, _⟩ => rfl

/-- Head 0's energy of atom `r`. -/
theorem headE_0 (r : Fin 500000) :
    val_main_v21 (F := Ideal) x1 x5 x6 x7 x8 x9 (ix1 r) = headE (fun k => x1 (ix2 r k)) x5 x6 x7 x8 x9 (0 : Fin 4) := by
  have ei : idx_main_v21 (ix1 r) = ix2 r (0 : Fin 1) := funext fun a => Fin.ext (by
    match a with
    | ⟨0, _⟩ => show r.val / 1 = r.val; omega
    | ⟨1, _⟩ => rfl)
  have el : ∀ k : Fin 83, lidx_main_v15 (ix2 r (0 : Fin 1)) k = ix2 r k := fun k => funext fun a => by
    match a with
    | ⟨0, _⟩ => rfl
    | ⟨1, _⟩ => rfl
  have er : ∀ k : Fin 83, ridx_main_v15 (ix2 r (0 : Fin 1)) k = ix2 k (0 : Fin 1) := fun k => funext fun a => by
    match a with
    | ⟨0, _⟩ => rfl
    | ⟨1, _⟩ => rfl
  rw [val_main_v21_apply, ei, val_main_v20_apply, val_main_v15_apply, b2_0, Ideal.addf_def]
  unfold headE
  refine congrArg (· + x9 (ix2 (0 : Fin 4) (0 : Fin 1))) (Finset.sum_congr rfl fun k _ => ?_)
  rw [el k, er k, act_0, w2_0]

/-! ### Head 1 -/

/-- Head 1's first-layer weights: its slab of the stacked array, reshaped to a matrix. -/
theorem w1_1 (k : Fin 64) (h : Fin 83) :
    val_main_v26 (F := Ideal) x6 (ix2 k h) = x6 (ix3 (1 : Fin 4) k h) := by
  rw [val_main_v26_apply, val_main_v25_apply]
  refine congrArg x6 (funext fun a => Fin.ext ?_)
  have hk := k.isLt
  have hh := h.isLt
  match a with
  | ⟨0, _⟩ => rfl
  | ⟨1, _⟩ => show (k.val * 83 + h.val) / 83 % 64 = k.val; omega
  | ⟨2, _⟩ => show (k.val * 83 + h.val) % 83 = h.val; omega

/-- Head 1's first-layer bias, the same for every atom. -/
theorem b1_1 (r : Fin 500000) (h : Fin 83) :
    val_main_v31 (F := Ideal) x7 (ix2 r h) = x7 (ix2 (1 : Fin 4) h) := by
  rw [val_main_v31_apply, val_main_v30_apply, val_main_v29_apply, val_main_v28_apply]
  refine congrArg x7 (funext fun a => Fin.ext ?_)
  have hh := h.isLt
  match a with
  | ⟨0, _⟩ => rfl
  | ⟨1, _⟩ => show h.val % 83 = h.val; omega

/-- Head 1's hidden pre-activation: the descriptor times the weights, plus the bias. -/
theorem hid_1 (r : Fin 500000) (h : Fin 83) :
    val_main_v32 (F := Ideal) x1 x5 x6 x7 (ix2 r h) = hid (fun k => x1 (ix2 r k)) x5 x6 x7 (1 : Fin 4) h := by
  have el : ∀ k : Fin 64, lidx_main_v27 (ix2 r h) k = ix2 r k := fun k => funext fun a => by
    match a with
    | ⟨0, _⟩ => rfl
    | ⟨1, _⟩ => rfl
  have er : ∀ k : Fin 64, ridx_main_v27 (ix2 r h) k = ix2 k h := fun k => funext fun a => by
    match a with
    | ⟨0, _⟩ => rfl
    | ⟨1, _⟩ => rfl
  rw [val_main_v32_apply, val_main_v27_apply, b1_1, Ideal.addf_def]
  unfold hid
  refine congrArg (· + x7 (ix2 (1 : Fin 4) h)) (Finset.sum_congr rfl fun k _ => ?_)
  rw [el k, er k, desc_at, w1_1]

/-- Head 1's logistic factor: one over one plus the exponential of the negated pre-activation. -/
theorem gate_1 (i : S500000x83.Idx) :
    val_main_v33_2 (F := Ideal) x1 x5 x6 x7 i = gate (val_main_v32 (F := Ideal) x1 x5 x6 x7 i) := by
  rw [val_main_v33_2_apply, val_main_call2_v4_apply, val_main_call2_cst_0_apply, val_main_call2_v3_apply, val_main_call2_v2_apply, val_main_call2_cst_apply,
    val_main_call2_v1_apply, val_main_call2_v0_apply]
  simp only [Ideal.ofBits_def, Ideal.ofBits_one_f32, Ideal.hostDivf_def, Ideal.addf_def, Ideal.hostUnary_exp_def,
    Ideal.hostNegf_def, Ideal.negf_def]
  rfl

/-- Head 1's activation: the pre-activation times its logistic factor. -/
theorem act_1 (r : Fin 500000) (h : Fin 83) :
    val_main_v33_0 (F := Ideal) x1 x5 x6 x7 (ix2 r h)
      = hid (fun k => x1 (ix2 r k)) x5 x6 x7 (1 : Fin 4) h * gate (hid (fun k => x1 (ix2 r k)) x5 x6 x7 (1 : Fin 4) h) := by
  rw [val_main_v33_0_apply, gate_1, hid_1, Ideal.mulf_def]

/-- Head 1's second-layer weights: its column of the stacked array. -/
theorem w2_1 (h : Fin 83) :
    val_main_v35 (F := Ideal) x8 (ix2 h (0 : Fin 1)) = x8 (ix3 (1 : Fin 4) h (0 : Fin 1)) := by
  rw [val_main_v35_apply, val_main_v34_apply]
  refine congrArg x8 (funext fun a => Fin.ext ?_)
  have hh := h.isLt
  match a with
  | ⟨0, _⟩ => rfl
  | ⟨1, _⟩ => show (h.val * 1 + 0) / 1 % 83 = h.val; omega
  | ⟨2, _⟩ => rfl

/-- Head 1's second-layer bias, the same for every atom. -/
theorem b2_1 (r : Fin 500000) :
    val_main_v40 (F := Ideal) x9 (ix2 r (0 : Fin 1)) = x9 (ix2 (1 : Fin 4) (0 : Fin 1)) := by
  rw [val_main_v40_apply, val_main_v39_apply, val_main_v38_apply, val_main_v37_apply]
  refine congrArg x9 (funext fun a => Fin.ext ?_)
  match a with
  | ⟨0, _⟩ => rfl
  | ⟨1, _⟩ => rfl

/-- Head 1's energy of atom `r`. -/
theorem headE_1 (r : Fin 500000) :
    val_main_v42 (F := Ideal) x1 x5 x6 x7 x8 x9 (ix1 r) = headE (fun k => x1 (ix2 r k)) x5 x6 x7 x8 x9 (1 : Fin 4) := by
  have ei : idx_main_v42 (ix1 r) = ix2 r (0 : Fin 1) := funext fun a => Fin.ext (by
    match a with
    | ⟨0, _⟩ => show r.val / 1 = r.val; omega
    | ⟨1, _⟩ => rfl)
  have el : ∀ k : Fin 83, lidx_main_v36 (ix2 r (0 : Fin 1)) k = ix2 r k := fun k => funext fun a => by
    match a with
    | ⟨0, _⟩ => rfl
    | ⟨1, _⟩ => rfl
  have er : ∀ k : Fin 83, ridx_main_v36 (ix2 r (0 : Fin 1)) k = ix2 k (0 : Fin 1) := fun k => funext fun a => by
    match a with
    | ⟨0, _⟩ => rfl
    | ⟨1, _⟩ => rfl
  rw [val_main_v42_apply, ei, val_main_v41_apply, val_main_v36_apply, b2_1, Ideal.addf_def]
  unfold headE
  refine congrArg (· + x9 (ix2 (1 : Fin 4) (0 : Fin 1))) (Finset.sum_congr rfl fun k _ => ?_)
  rw [el k, er k, act_1, w2_1]

/-! ### Head 2 -/

/-- Head 2's first-layer weights: its slab of the stacked array, reshaped to a matrix. -/
theorem w1_2 (k : Fin 64) (h : Fin 83) :
    val_main_v47 (F := Ideal) x6 (ix2 k h) = x6 (ix3 (2 : Fin 4) k h) := by
  rw [val_main_v47_apply, val_main_v46_apply]
  refine congrArg x6 (funext fun a => Fin.ext ?_)
  have hk := k.isLt
  have hh := h.isLt
  match a with
  | ⟨0, _⟩ => rfl
  | ⟨1, _⟩ => show (k.val * 83 + h.val) / 83 % 64 = k.val; omega
  | ⟨2, _⟩ => show (k.val * 83 + h.val) % 83 = h.val; omega

/-- Head 2's first-layer bias, the same for every atom. -/
theorem b1_2 (r : Fin 500000) (h : Fin 83) :
    val_main_v52 (F := Ideal) x7 (ix2 r h) = x7 (ix2 (2 : Fin 4) h) := by
  rw [val_main_v52_apply, val_main_v51_apply, val_main_v50_apply, val_main_v49_apply]
  refine congrArg x7 (funext fun a => Fin.ext ?_)
  have hh := h.isLt
  match a with
  | ⟨0, _⟩ => rfl
  | ⟨1, _⟩ => show h.val % 83 = h.val; omega

/-- Head 2's hidden pre-activation: the descriptor times the weights, plus the bias. -/
theorem hid_2 (r : Fin 500000) (h : Fin 83) :
    val_main_v53 (F := Ideal) x1 x5 x6 x7 (ix2 r h) = hid (fun k => x1 (ix2 r k)) x5 x6 x7 (2 : Fin 4) h := by
  have el : ∀ k : Fin 64, lidx_main_v48 (ix2 r h) k = ix2 r k := fun k => funext fun a => by
    match a with
    | ⟨0, _⟩ => rfl
    | ⟨1, _⟩ => rfl
  have er : ∀ k : Fin 64, ridx_main_v48 (ix2 r h) k = ix2 k h := fun k => funext fun a => by
    match a with
    | ⟨0, _⟩ => rfl
    | ⟨1, _⟩ => rfl
  rw [val_main_v53_apply, val_main_v48_apply, b1_2, Ideal.addf_def]
  unfold hid
  refine congrArg (· + x7 (ix2 (2 : Fin 4) h)) (Finset.sum_congr rfl fun k _ => ?_)
  rw [el k, er k, desc_at, w1_2]

/-- Head 2's logistic factor: one over one plus the exponential of the negated pre-activation. -/
theorem gate_2 (i : S500000x83.Idx) :
    val_main_v54_2 (F := Ideal) x1 x5 x6 x7 i = gate (val_main_v53 (F := Ideal) x1 x5 x6 x7 i) := by
  rw [val_main_v54_2_apply, val_main_call4_v4_apply, val_main_call4_cst_0_apply, val_main_call4_v3_apply, val_main_call4_v2_apply, val_main_call4_cst_apply,
    val_main_call4_v1_apply, val_main_call4_v0_apply]
  simp only [Ideal.ofBits_def, Ideal.ofBits_one_f32, Ideal.hostDivf_def, Ideal.addf_def, Ideal.hostUnary_exp_def,
    Ideal.hostNegf_def, Ideal.negf_def]
  rfl

/-- Head 2's activation: the pre-activation times its logistic factor. -/
theorem act_2 (r : Fin 500000) (h : Fin 83) :
    val_main_v54_0 (F := Ideal) x1 x5 x6 x7 (ix2 r h)
      = hid (fun k => x1 (ix2 r k)) x5 x6 x7 (2 : Fin 4) h * gate (hid (fun k => x1 (ix2 r k)) x5 x6 x7 (2 : Fin 4) h) := by
  rw [val_main_v54_0_apply, gate_2, hid_2, Ideal.mulf_def]

/-- Head 2's second-layer weights: its column of the stacked array. -/
theorem w2_2 (h : Fin 83) :
    val_main_v56 (F := Ideal) x8 (ix2 h (0 : Fin 1)) = x8 (ix3 (2 : Fin 4) h (0 : Fin 1)) := by
  rw [val_main_v56_apply, val_main_v55_apply]
  refine congrArg x8 (funext fun a => Fin.ext ?_)
  have hh := h.isLt
  match a with
  | ⟨0, _⟩ => rfl
  | ⟨1, _⟩ => show (h.val * 1 + 0) / 1 % 83 = h.val; omega
  | ⟨2, _⟩ => rfl

/-- Head 2's second-layer bias, the same for every atom. -/
theorem b2_2 (r : Fin 500000) :
    val_main_v61 (F := Ideal) x9 (ix2 r (0 : Fin 1)) = x9 (ix2 (2 : Fin 4) (0 : Fin 1)) := by
  rw [val_main_v61_apply, val_main_v60_apply, val_main_v59_apply, val_main_v58_apply]
  refine congrArg x9 (funext fun a => Fin.ext ?_)
  match a with
  | ⟨0, _⟩ => rfl
  | ⟨1, _⟩ => rfl

/-- Head 2's energy of atom `r`. -/
theorem headE_2 (r : Fin 500000) :
    val_main_v63 (F := Ideal) x1 x5 x6 x7 x8 x9 (ix1 r) = headE (fun k => x1 (ix2 r k)) x5 x6 x7 x8 x9 (2 : Fin 4) := by
  have ei : idx_main_v63 (ix1 r) = ix2 r (0 : Fin 1) := funext fun a => Fin.ext (by
    match a with
    | ⟨0, _⟩ => show r.val / 1 = r.val; omega
    | ⟨1, _⟩ => rfl)
  have el : ∀ k : Fin 83, lidx_main_v57 (ix2 r (0 : Fin 1)) k = ix2 r k := fun k => funext fun a => by
    match a with
    | ⟨0, _⟩ => rfl
    | ⟨1, _⟩ => rfl
  have er : ∀ k : Fin 83, ridx_main_v57 (ix2 r (0 : Fin 1)) k = ix2 k (0 : Fin 1) := fun k => funext fun a => by
    match a with
    | ⟨0, _⟩ => rfl
    | ⟨1, _⟩ => rfl
  rw [val_main_v63_apply, ei, val_main_v62_apply, val_main_v57_apply, b2_2, Ideal.addf_def]
  unfold headE
  refine congrArg (· + x9 (ix2 (2 : Fin 4) (0 : Fin 1))) (Finset.sum_congr rfl fun k _ => ?_)
  rw [el k, er k, act_2, w2_2]

/-! ### Head 3 -/

/-- Head 3's first-layer weights: its slab of the stacked array, reshaped to a matrix. -/
theorem w1_3 (k : Fin 64) (h : Fin 83) :
    val_main_v68 (F := Ideal) x6 (ix2 k h) = x6 (ix3 (3 : Fin 4) k h) := by
  rw [val_main_v68_apply, val_main_v67_apply]
  refine congrArg x6 (funext fun a => Fin.ext ?_)
  have hk := k.isLt
  have hh := h.isLt
  match a with
  | ⟨0, _⟩ => rfl
  | ⟨1, _⟩ => show (k.val * 83 + h.val) / 83 % 64 = k.val; omega
  | ⟨2, _⟩ => show (k.val * 83 + h.val) % 83 = h.val; omega

/-- Head 3's first-layer bias, the same for every atom. -/
theorem b1_3 (r : Fin 500000) (h : Fin 83) :
    val_main_v73 (F := Ideal) x7 (ix2 r h) = x7 (ix2 (3 : Fin 4) h) := by
  rw [val_main_v73_apply, val_main_v72_apply, val_main_v71_apply, val_main_v70_apply]
  refine congrArg x7 (funext fun a => Fin.ext ?_)
  have hh := h.isLt
  match a with
  | ⟨0, _⟩ => rfl
  | ⟨1, _⟩ => show h.val % 83 = h.val; omega

/-- Head 3's hidden pre-activation: the descriptor times the weights, plus the bias. -/
theorem hid_3 (r : Fin 500000) (h : Fin 83) :
    val_main_v74 (F := Ideal) x1 x5 x6 x7 (ix2 r h) = hid (fun k => x1 (ix2 r k)) x5 x6 x7 (3 : Fin 4) h := by
  have el : ∀ k : Fin 64, lidx_main_v69 (ix2 r h) k = ix2 r k := fun k => funext fun a => by
    match a with
    | ⟨0, _⟩ => rfl
    | ⟨1, _⟩ => rfl
  have er : ∀ k : Fin 64, ridx_main_v69 (ix2 r h) k = ix2 k h := fun k => funext fun a => by
    match a with
    | ⟨0, _⟩ => rfl
    | ⟨1, _⟩ => rfl
  rw [val_main_v74_apply, val_main_v69_apply, b1_3, Ideal.addf_def]
  unfold hid
  refine congrArg (· + x7 (ix2 (3 : Fin 4) h)) (Finset.sum_congr rfl fun k _ => ?_)
  rw [el k, er k, desc_at, w1_3]

/-- Head 3's logistic factor: one over one plus the exponential of the negated pre-activation. -/
theorem gate_3 (i : S500000x83.Idx) :
    val_main_v75_2 (F := Ideal) x1 x5 x6 x7 i = gate (val_main_v74 (F := Ideal) x1 x5 x6 x7 i) := by
  rw [val_main_v75_2_apply, val_main_call6_v4_apply, val_main_call6_cst_0_apply, val_main_call6_v3_apply, val_main_call6_v2_apply, val_main_call6_cst_apply,
    val_main_call6_v1_apply, val_main_call6_v0_apply]
  simp only [Ideal.ofBits_def, Ideal.ofBits_one_f32, Ideal.hostDivf_def, Ideal.addf_def, Ideal.hostUnary_exp_def,
    Ideal.hostNegf_def, Ideal.negf_def]
  rfl

/-- Head 3's activation: the pre-activation times its logistic factor. -/
theorem act_3 (r : Fin 500000) (h : Fin 83) :
    val_main_v75_0 (F := Ideal) x1 x5 x6 x7 (ix2 r h)
      = hid (fun k => x1 (ix2 r k)) x5 x6 x7 (3 : Fin 4) h * gate (hid (fun k => x1 (ix2 r k)) x5 x6 x7 (3 : Fin 4) h) := by
  rw [val_main_v75_0_apply, gate_3, hid_3, Ideal.mulf_def]

/-- Head 3's second-layer weights: its column of the stacked array. -/
theorem w2_3 (h : Fin 83) :
    val_main_v77 (F := Ideal) x8 (ix2 h (0 : Fin 1)) = x8 (ix3 (3 : Fin 4) h (0 : Fin 1)) := by
  rw [val_main_v77_apply, val_main_v76_apply]
  refine congrArg x8 (funext fun a => Fin.ext ?_)
  have hh := h.isLt
  match a with
  | ⟨0, _⟩ => rfl
  | ⟨1, _⟩ => show (h.val * 1 + 0) / 1 % 83 = h.val; omega
  | ⟨2, _⟩ => rfl

/-- Head 3's second-layer bias, the same for every atom. -/
theorem b2_3 (r : Fin 500000) :
    val_main_v82 (F := Ideal) x9 (ix2 r (0 : Fin 1)) = x9 (ix2 (3 : Fin 4) (0 : Fin 1)) := by
  rw [val_main_v82_apply, val_main_v81_apply, val_main_v80_apply, val_main_v79_apply]
  refine congrArg x9 (funext fun a => Fin.ext ?_)
  match a with
  | ⟨0, _⟩ => rfl
  | ⟨1, _⟩ => rfl

/-- Head 3's energy of atom `r`. -/
theorem headE_3 (r : Fin 500000) :
    val_main_v84 (F := Ideal) x1 x5 x6 x7 x8 x9 (ix1 r) = headE (fun k => x1 (ix2 r k)) x5 x6 x7 x8 x9 (3 : Fin 4) := by
  have ei : idx_main_v84 (ix1 r) = ix2 r (0 : Fin 1) := funext fun a => Fin.ext (by
    match a with
    | ⟨0, _⟩ => show r.val / 1 = r.val; omega
    | ⟨1, _⟩ => rfl)
  have el : ∀ k : Fin 83, lidx_main_v78 (ix2 r (0 : Fin 1)) k = ix2 r k := fun k => funext fun a => by
    match a with
    | ⟨0, _⟩ => rfl
    | ⟨1, _⟩ => rfl
  have er : ∀ k : Fin 83, ridx_main_v78 (ix2 r (0 : Fin 1)) k = ix2 k (0 : Fin 1) := fun k => funext fun a => by
    match a with
    | ⟨0, _⟩ => rfl
    | ⟨1, _⟩ => rfl
  rw [val_main_v84_apply, ei, val_main_v83_apply, val_main_v78_apply, b2_3, Ideal.addf_def]
  unfold headE
  refine congrArg (· + x9 (ix2 (3 : Fin 4) (0 : Fin 1))) (Finset.sum_congr rfl fun k _ => ?_)
  rw [el k, er k, act_3, w2_3]

/-! ## The selection by species word -/

/-- The reference's energies are the atoms' energies. -/
theorem energies_eq :
    val_main_v87 (F := Ideal) x0 x1 x5 x6 x7 x8 x9 = energies x0 x1 x5 x6 x7 x8 x9 := by
  funext i
  obtain ⟨r, rfl⟩ : ∃ r : Fin 500000, i = ix1 r := ⟨i 0, eq_ix1 i⟩
  rw [val_main_v87_apply, val_main_v86_apply, val_main_v85_apply, val_main_c_2_apply, word_select,
    val_main_v66_apply, val_main_v65_apply, val_main_v64_apply, val_main_c_1_apply, word_select,
    val_main_v45_apply, val_main_v44_apply, val_main_v43_apply, val_main_c_0_apply, word_select,
    val_main_v24_0_apply, val_main_v23_apply, val_main_v22_apply, val_main_c_apply, word_select,
    val_main_v3_apply, val_main_cst_apply, headE_3, headE_2, headE_1, headE_0,
    Ideal.ofBits_def, Ideal.ofBits_zero_f32]
  rfl

end Cert.ReferenceIdeal.RefValue

end
-- ==== Proof.RefBackAux.lean ====
/-
  Real-number facts behind the reverse pass: when the position and the weights are real numbers, every hidden
  pre-activation is a real number, the logistic gate of a real number is the real logistic value, and the reverse
  pass's spelling of the derivative of `z · gate z` (cotangent `1 · w`) equals `dgate z · w`.  Distributivity
  fails on the extended reals at the infinities, so the identity is proved on the reals and carried over.
-/
import proofs.«431511_j4320737100384_3_alg».proof.Proof.AtomSpec
import Idealize.ShloMosaic.PureOps.Ideal
import Idealize.ShloMosaic.Lib.ValueIdx

noncomputable section

open scoped BigOperators

namespace Cert.AtomSpec

open Idealize.ShloMosaic Idealize.ShloMosaic.ValueIdx

/-- A finite sum of real numbers is a real number. -/
theorem real_sum {ι : Type} (s : Finset ι) (f : ι → EReal) (hf : ∀ i, ∃ x : ℝ, f i = (x : EReal)) :
    ∃ x : ℝ, ∑ i ∈ s, f i = (x : EReal) := by
  classical
  induction s using Finset.induction_on with
  | empty => exact ⟨0, by simp⟩
  | insert a s ha ih =>
    obtain ⟨x, hx⟩ := hf a
    obtain ⟨y, hy⟩ := ih
    exact ⟨x + y, by rw [Finset.sum_insert ha, hx, hy, EReal.coe_add]⟩

section row

variable (p : Fin 3 → EReal) (wd : Proj.Idx → EReal) (w1 : Hid.Idx → EReal) (b1 : Bias.Idx → EReal)

/-- The projection of a real position by real weights is real. -/
theorem proj_real (hp : ∀ k, ∃ x : ℝ, p k = (x : EReal)) (hwd : AllReal wd) (j : Fin 64) :
    ∃ x : ℝ, proj p wd j = (x : EReal) := by
  obtain ⟨a0, h0⟩ := hp 0
  obtain ⟨a1, h1⟩ := hp 1
  obtain ⟨a2, h2⟩ := hp 2
  obtain ⟨c0, g0⟩ := hwd (ix2 0 j)
  obtain ⟨c1, g1⟩ := hwd (ix2 1 j)
  obtain ⟨c2, g2⟩ := hwd (ix2 2 j)
  refine ⟨a0 * c0 + a1 * c1 + a2 * c2, ?_⟩
  unfold proj
  rw [h0, h1, h2, g0, g1, g2, EReal.coe_add, EReal.coe_add, EReal.coe_mul, EReal.coe_mul, EReal.coe_mul]

/-- The descriptor of a real position is real. -/
theorem desc_real (hp : ∀ k, ∃ x : ℝ, p k = (x : EReal)) (hwd : AllReal wd) (j : Fin 64) :
    ∃ x : ℝ, desc p wd j = (x : EReal) := by
  obtain ⟨x, hx⟩ := proj_real p wd hp hwd j
  exact ⟨Real.sin x, by unfold desc; rw [hx, Ideal.sin_coe]⟩

/-- Every hidden pre-activation is real. -/
theorem hid_real (hp : ∀ k, ∃ x : ℝ, p k = (x : EReal)) (hwd : AllReal wd) (hw1 : AllReal w1) (hb1 : AllReal b1)
    (s : Fin 4) (h : Fin 83) : ∃ x : ℝ, hid p wd w1 b1 s h = (x : EReal) := by
  obtain ⟨y, hy⟩ := real_sum Finset.univ (fun j : Fin 64 => desc p wd j * w1 (ix3 s j h)) (fun j => by
    obtain ⟨a, ha⟩ := desc_real p wd hp hwd j
    obtain ⟨b, hb⟩ := hw1 (ix3 s j h)
    exact ⟨a * b, by rw [ha, hb, EReal.coe_mul]⟩)
  obtain ⟨b, hb⟩ := hb1 (ix2 s h)
  exact ⟨y + b, by unfold hid; rw [hy, hb, EReal.coe_add]⟩

end row

/-- The gate of a real number is the real logistic value. -/
theorem gate_real (z : ℝ) : gate (z : EReal) = ((1 / (1 + Real.exp (-z)) : ℝ) : EReal) := by
  have hpos : (1 + Real.exp (-z)) ≠ 0 := by have := Real.exp_pos (-z); linarith
  unfold gate
  rw [← EReal.coe_neg, Ideal.exp_coe, ← EReal.coe_one, ← EReal.coe_add, Ideal.div_coe hpos, ← EReal.coe_mul, one_mul]

/-- The reverse pass's derivative of `z · gate z` at cotangent `1 · w`, for real `z` and `w`. -/
theorem silu_back_one (z w : ℝ) :
    ((1 : EReal) * (w : EReal)) * gate (z : EReal)
        + ((z : EReal) * ((1 : EReal) * (w : EReal))) * (gate (z : EReal) * (1 - gate (z : EReal)))
      = dgate (z : EReal) * (w : EReal) := by
  unfold dgate
  rw [gate_real z]
  generalize (1 / (1 + Real.exp (-z)) : ℝ) = s
  rw [one_mul, ← EReal.coe_one, ← EReal.coe_sub, ← EReal.coe_mul, ← EReal.coe_mul, ← EReal.coe_mul, ← EReal.coe_mul,
    ← EReal.coe_add, ← EReal.coe_mul, ← EReal.coe_add, ← EReal.coe_mul, ← EReal.coe_mul]
  congr 1
  ring

/-- At cotangent `0 · w` the reverse pass's derivative term vanishes, whatever the other factors. -/
theorem silu_back_zero (z w σ τ : EReal) : ((0 : EReal) * w) * σ + (z * ((0 : EReal) * w)) * τ = 0 := by
  rw [zero_mul, zero_mul, mul_zero, zero_mul, add_zero]

/-! ## One head's reverse step, stated once over abstract rows -/

/-- One head's contribution to the derivative in a descriptor entry.  `c` is the head's cotangent: one when the head
    is selected, zero otherwise.  `z` is the head's pre-activation row, `w2` its second-layer weights, `w1` the
    first-layer weights of the descriptor entry.  Selected, the reverse pass's spelling is `dgate z · w2` on the
    reals; not selected, every term is a product with zero. -/
theorem head_back (sel : Prop) [Decidable sel] (c : EReal) (hc : c = if sel then 1 else 0)
    (z w2 w1 : Fin 83 → EReal) (hz : ∀ h, ∃ x : ℝ, z h = (x : EReal)) (hw2 : ∀ h, ∃ x : ℝ, w2 h = (x : EReal)) :
    ∑ h : Fin 83, ((c * w2 h) * gate (z h) + (z h * (c * w2 h)) * (gate (z h) * (1 - gate (z h)))) * w1 h
      = if sel then ∑ h : Fin 83, (dgate (z h) * w2 h) * w1 h else 0 := by
  by_cases hs : sel
  · rw [if_pos hs] at hc
    rw [if_pos hs, hc]
    refine Finset.sum_congr rfl fun h _ => ?_
    obtain ⟨a, ha⟩ := hz h
    obtain ⟨b, hb⟩ := hw2 h
    rw [ha, hb, silu_back_one a b]
  · rw [if_neg hs] at hc
    rw [if_neg hs, hc]
    refine Finset.sum_eq_zero fun h _ => ?_
    rw [silu_back_zero, zero_mul]

/-! ## Words -/

/-- A select on an equality compare of two words is the `if` on their equality. -/
theorem select_cmpi_eq {α : Type} (x y : BitVec 32) (a b : α) :
    Scalar.select (IntOp.cmpi .eq x y) a b = if x = y then a else b := by
  unfold IntOp.cmpi
  by_cases h : x = y
  · rw [if_pos h, show (x == y) = true from beq_iff_eq.mpr h]
    exact select_one a b
  · rw [if_neg h, show (x == y) = false from beq_eq_false_iff_ne.mpr h]
    exact select_zero a b

/-- A left fold of `and` from the true bit over entries that are all true is true. -/
theorem foldl_andi_one {ι : Type} (l : List ι) (x : ι → BitVec 1) (hx : ∀ i, x i = 1#1) :
    l.foldl (fun r i => IntOp.andi r (x i)) 1#1 = 1#1 := by
  induction l with
  | nil => rfl
  | cons a l ih =>
    rw [List.foldl_cons, hx a, show IntOp.andi 1#1 1#1 = 1#1 by decide]
    exact ih

/-! ## The selection chain and the sum over the heads -/

/-- The four heads' cotangents.  The reverse pass hands the incoming cotangent `ct` to head 3 where the species word is
    3 and passes the rest on; head 2 takes it where the word is 2, and so on.  The words 0..3 differ, so each head's
    cotangent is `ct` exactly where the species word is that head's number. -/
theorem chain_cotangents (sy : BitVec 32) (ct : EReal) :
    let p3 := if sy = 3#32 then (0 : EReal) else ct
    let p2 := if sy = 2#32 then (0 : EReal) else p3
    let p1 := if sy = 1#32 then (0 : EReal) else p2
    (if sy = 2#32 then p3 else 0) = (if sy = 2#32 then ct else 0)
      ∧ (if sy = 1#32 then p2 else 0) = (if sy = 1#32 then ct else 0)
      ∧ (if sy = 0#32 then p1 else 0) = (if sy = 0#32 then ct else 0) := by
  intro p3 p2 p1
  refine ⟨?_, ?_, ?_⟩
  · by_cases h2 : sy = 2#32
    · have h3 : ¬sy = 3#32 := by rw [h2]; decide
      simp only [p3, if_pos h2, if_neg h3]
    · simp only [if_neg h2]
  · by_cases h1 : sy = 1#32
    · have h3 : ¬sy = 3#32 := by rw [h1]; decide
      have h2 : ¬sy = 2#32 := by rw [h1]; decide
      simp only [p2, p3, if_pos h1, if_neg h2, if_neg h3]
    · simp only [if_neg h1]
  · by_cases h0 : sy = 0#32
    · have h3 : ¬sy = 3#32 := by rw [h0]; decide
      have h2 : ¬sy = 2#32 := by rw [h0]; decide
      have h1 : ¬sy = 1#32 := by rw [h0]; decide
      simp only [p1, p2, p3, if_pos h0, if_neg h1, if_neg h2, if_neg h3]
    · simp only [if_neg h0]

/-- The reverse pass adds the heads in the order 3, 2, 1, 0; `back` sums them in the order 0, 1, 2, 3. -/
theorem back_of_heads (sy : BitVec 32) (p : Fin 3 → EReal) (wd : Proj.Idx → EReal) (w1 : Hid.Idx → EReal)
    (b1 : Bias.Idx → EReal) (w2 : Out.Idx → EReal) (j : Fin 64) (t3 t2 t1 t0 : EReal)
    (e3 : t3 = if sy = 3#32 then ∑ h : Fin 83, (dgate (hid p wd w1 b1 3 h) * w2 (ix3 3 h 0)) * w1 (ix3 3 j h) else 0)
    (e2 : t2 = if sy = 2#32 then ∑ h : Fin 83, (dgate (hid p wd w1 b1 2 h) * w2 (ix3 2 h 0)) * w1 (ix3 2 j h) else 0)
    (e1 : t1 = if sy = 1#32 then ∑ h : Fin 83, (dgate (hid p wd w1 b1 1 h) * w2 (ix3 1 h 0)) * w1 (ix3 1 j h) else 0)
    (e0 : t0 = if sy = 0#32 then ∑ h : Fin 83, (dgate (hid p wd w1 b1 0 h) * w2 (ix3 0 h 0)) * w1 (ix3 0 j h) else 0) :
    ((t3 + t2) + t1) + t0 = back sy p wd w1 b1 w2 j := by
  unfold back
  rw [Fin.sum_univ_four, e3, e2, e1, e0]
  show _ = (((if sy = BitVec.ofNat 32 0 then _ else 0) + (if sy = BitVec.ofNat 32 1 then _ else 0))
      + (if sy = BitVec.ofNat 32 2 then _ else 0)) + (if sy = BitVec.ofNat 32 3 then _ else 0)
  generalize (if sy = 3#32 then _ else (0 : EReal)) = a3
  generalize (if sy = 2#32 then _ else (0 : EReal)) = a2
  generalize (if sy = 1#32 then _ else (0 : EReal)) = a1
  generalize (if sy = 0#32 then _ else (0 : EReal)) = a0
  rw [add_comm a3 a2, add_comm (a2 + a3) a1, ← add_assoc, add_comm (a1 + a2 + a3) a0, ← add_assoc, ← add_assoc]

/-- A word whose signed value lies in `0 .. 2499` passes both range compares: `x ≥ 0` and `x ≤ 2499`. -/
theorem inrange_bits (x : BitVec 32) (h : 0 ≤ x.toInt ∧ x.toInt < 2500) :
    IntOp.andi (IntOp.cmpi .sge x 0#32) (IntOp.cmpi .sle x 2499#32) = 1#1 := by
  have h0 : (0#32 : BitVec 32).toInt = 0 := by decide
  have h1 : (2499#32 : BitVec 32).toInt = 2499 := by decide
  have ge : (0#32 : BitVec 32).sle x = true := by rw [BitVec.sle_iff_toInt_le, h0]; exact h.1
  have le : x.sle 2499#32 = true := by rw [BitVec.sle_iff_toInt_le, h1]; omega
  have e1 : IntOp.cmpi .sge x 0#32 = 1#1 := by
    show BitVec.ofBool ((0#32 : BitVec 32).sle x) = 1#1
    rw [ge]; rfl
  have e2 : IntOp.cmpi .sle x 2499#32 = 1#1 := by
    show BitVec.ofBool (x.sle 2499#32) = 1#1
    rw [le]; rfl
  rw [e1, e2]
  decide

end Cert.AtomSpec

end
-- ==== Proof.RefBack.lean ====
/-
  The reverse pass of the reference, up to the derivative of the total energy in the descriptor: entry `(r, j)` of the
  sum of the four heads' contributions is the selected head's derivative `back`, when every weight and position is a
  real number and every crystal index is in range (so that the total energy counts every atom once).
-/
import proofs.«431511_j4320737100384_3_alg».proof.Proof.RefRead
import proofs.«431511_j4320737100384_3_alg».proof.Proof.AtomSpec
import proofs.«431511_j4320737100384_3_alg».proof.Proof.RefBackAux
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.ReferenceIdeal.RefValue

open Idealize.ShloMosaic Idealize.ShloMosaic.ValueIdx Cert.ReferenceIdeal Cert.ReferenceIdeal.Read Cert.AtomSpec

variable (x0 : (⟨S500000, .i32⟩ : BufTy).Contents (Elt Ideal)) (x1 : (⟨S500000x3, .f32⟩ : BufTy).Contents (Elt Ideal))
  (x3 : (⟨S500000, .i32⟩ : BufTy).Contents (Elt Ideal)) (x5 : (⟨S3x64, .f32⟩ : BufTy).Contents (Elt Ideal))
  (x6 : (⟨S4x64x83, .f32⟩ : BufTy).Contents (Elt Ideal)) (x7 : (⟨S4x83, .f32⟩ : BufTy).Contents (Elt Ideal))
  (x8 : (⟨S4x83x1, .f32⟩ : BufTy).Contents (Elt Ideal)) (x9 : (⟨S4x1, .f32⟩ : BufTy).Contents (Elt Ideal))

/-! ## The descriptor -/

/-- Entry `(r, j)` of the sine of the projection is atom `r`'s descriptor entry `j`. -/
theorem desc_at (r : Fin 500000) (j : Fin 64) :
    val_main_v1 (F := Ideal) x1 x5 (ix2 r j) = desc (fun k => x1 (ix2 r k)) x5 j := by
  have el : ∀ k : Fin 3, lidx_main_v0 (ix2 r j) k = ix2 r k := fun k => funext fun a => Fin.ext (by
    match a with
    | ⟨0, _⟩ => rfl
    | ⟨1, _⟩ => rfl)
  have er : ∀ k : Fin 3, ridx_main_v0 (ix2 r j) k = ix2 k j := fun k => funext fun a => Fin.ext (by
    match a with
    | ⟨0, _⟩ => rfl
    | ⟨1, _⟩ => rfl)
  rw [val_main_v1_apply, val_main_v0_apply, Fin.sum_univ_three]
  simp only [el, er, Ideal.hostUnary_sin_def]
  rfl

/-! ## Head 3, forward -/

/-- Head 3's first-layer weights: entry `(j, h)` of the sliced and reshaped array. -/
theorem w1_3_at (j : Fin 64) (h : Fin 83) : val_main_v68 (F := Ideal) x6 (ix2 j h) = x6 (ix3 3 j h) := by
  rw [val_main_v68_apply, val_main_v67_apply]
  refine congrArg x6 (funext fun a => Fin.ext ?_)
  have hj : j.val < 64 := j.isLt
  have hh : h.val < 83 := h.isLt
  match a with
  | ⟨0, _⟩ => show 3 + 0 = 3; rfl
  | ⟨1, _⟩ => show (j.val * 83 + h.val) / 83 % 64 = j.val; omega
  | ⟨2, _⟩ => show (j.val * 83 + h.val) % 83 = h.val; omega

/-- Head 3's bias, broadcast down the rows: entry `(r, h)`. -/
theorem b1_3_at (r : Fin 500000) (h : Fin 83) : val_main_v73 (F := Ideal) x7 (ix2 r h) = x7 (ix2 3 h) := by
  rw [val_main_v73_apply, val_main_v72_apply, val_main_v71_apply, val_main_v70_apply]
  refine congrArg x7 (funext fun a => Fin.ext ?_)
  have hh : h.val < 83 := h.isLt
  match a with
  | ⟨0, _⟩ => show 3 + 0 = 3; rfl
  | ⟨1, _⟩ => show h.val % 83 = h.val; omega

/-- Head 3's second-layer weights: entry `(h, 0)` of the sliced and reshaped array. -/
theorem w2_3_at (h : Fin 83) : val_main_v77 (F := Ideal) x8 (ix2 h 0) = x8 (ix3 3 h 0) := by
  rw [val_main_v77_apply, val_main_v76_apply]
  refine congrArg x8 (funext fun a => Fin.ext ?_)
  have hh : h.val < 83 := h.isLt
  match a with
  | ⟨0, _⟩ => show 3 + 0 = 3; rfl
  | ⟨1, _⟩ => show (h.val * 1 + 0) / 1 % 83 = h.val; omega
  | ⟨2, _⟩ => rfl

/-- Head 3's pre-activation at `(r, h)` is the atom's `hid`. -/
theorem hid3_at (r : Fin 500000) (h : Fin 83) :
    val_main_v74 (F := Ideal) x1 x5 x6 x7 (ix2 r h) = hid (fun k => x1 (ix2 r k)) x5 x6 x7 3 h := by
  have el : ∀ k : Fin 64, lidx_main_v69 (ix2 r h) k = ix2 r k := fun k => funext fun a => Fin.ext (by
    match a with
    | ⟨0, _⟩ => rfl
    | ⟨1, _⟩ => rfl)
  have er : ∀ k : Fin 64, ridx_main_v69 (ix2 r h) k = ix2 k h := fun k => funext fun a => Fin.ext (by
    match a with
    | ⟨0, _⟩ => rfl
    | ⟨1, _⟩ => rfl)
  rw [val_main_v74_apply, val_main_v69_apply, b1_3_at]
  simp only [el, er, desc_at, w1_3_at, Ideal.addf_def]
  rfl

/-- The logistic gate of head 3's pre-activation at `(r, h)`. -/
theorem gate3_at (r : Fin 500000) (h : Fin 83) :
    val_main_v75_2 (F := Ideal) x1 x5 x6 x7 (ix2 r h) = gate (hid (fun k => x1 (ix2 r k)) x5 x6 x7 3 h) := by
  rw [val_main_v75_2_apply, val_main_call6_v4_apply, val_main_call6_cst_0_apply, val_main_call6_v3_apply,
    val_main_call6_v2_apply, val_main_call6_cst_apply, val_main_call6_v1_apply, val_main_call6_v0_apply, hid3_at]
  simp only [Ideal.hostDivf_def, Ideal.addf_def, Ideal.hostUnary_exp_def, Ideal.ofBits_def, Ideal.ofBits_one_f32]
  rfl

/-- The gate's derivative factor `gate z · (1 - gate z)` of head 3 at `(r, h)`. -/
theorem dsig3_at (r : Fin 500000) (h : Fin 83) :
    val_main_v75_1 (F := Ideal) x1 x5 x6 x7 (ix2 r h)
      = gate (hid (fun k => x1 (ix2 r k)) x5 x6 x7 3 h) * (1 - gate (hid (fun k => x1 (ix2 r k)) x5 x6 x7 3 h)) := by
  rw [val_main_v75_1_apply, val_main_call6_v7_apply, val_main_call6_v6_apply, val_main_call6_cst_1_apply, gate3_at]
  simp only [Ideal.mulf_def, Ideal.subf_def, Ideal.ofBits_def, Ideal.ofBits_one_f32]

/-! ## The incoming cotangent is one -/

/-- Under the range fact every entry of the in-range mask, before the reduction over its unit axis, is the true bit. -/
theorem mask_entry (hr : InRange x3) (i : S500000x1.Idx) : val_main_v99 (F := Ideal) x3 i = 1#1 := by
  rw [val_main_v99_apply, val_main_v95_apply, val_main_v98_apply, val_main_v89_apply, val_main_v94_apply,
    val_main_c_8_apply, val_main_v97_apply, val_main_v96_apply, val_main_c_7_apply]
  exact inrange_bits _ (hr _)

/-- The in-range mask at atom `r`: an `and` over one entry, from the true bit. -/
theorem mask_at (hr : InRange x3) (r : Fin 500000) : val_main_v100 (F := Ideal) x3 (ix1 r) = 1#1 := by
  unfold val_main_v100
  rw [Host.reduce_eq_foldl, val_main_c_9_apply]
  exact foldl_andi_one _ _ (mask_entry x3 hr)

/-- The gather reads an array whose every entry is the constant one. -/
theorem ones_at (r : Fin 500000) : val_main_v101 (F := Ideal) x3 (ix1 r) = 1 := by
  unfold val_main_v101
  show val_main_v93 (F := Ideal) _ = 1
  rw [val_main_v93_apply, val_main_cst_6_apply]
  simp only [Ideal.ofBits_def, Ideal.ofBits_one_f32]

/-- The cotangent of atom `r`'s energy in the total is one. -/
theorem ct_at (hr : InRange x3) (r : Fin 500000) : val_main_v103 (F := Ideal) x3 (ix1 r) = 1 := by
  rw [val_main_v103_apply, mask_at x3 hr, ones_at, select_one]

/-! ## Head 3, reverse -/

/-- Head 3's cotangent at atom `r`: the incoming one where the species word is 3, zero elsewhere. -/
theorem c3_at (hr : InRange x3) (r : Fin 500000) :
    val_main_v104_0 (F := Ideal) x0 x3 (ix1 r) = if x0 (ix1 r) = 3#32 then 1 else 0 := by
  rw [val_main_v104_0_apply, val_main_v86_apply, val_main_v85_apply, val_main_c_2_apply, ct_at x3 hr,
    val_main_call8_v0_apply, val_main_call8_cst_apply, select_cmpi_eq]
  simp only [Ideal.ofBits_def, Ideal.ofBits_zero_f32]

/-- What head 3 passes on to the earlier heads: zero where the species word is 3, the incoming cotangent elsewhere. -/
theorem p3_at (hr : InRange x3) (r : Fin 500000) :
    val_main_v104_1 (F := Ideal) x0 x3 (ix1 r) = if x0 (ix1 r) = 3#32 then 0 else 1 := by
  rw [val_main_v104_1_apply, val_main_v86_apply, val_main_v85_apply, val_main_c_2_apply, ct_at x3 hr,
    val_main_call8_v0_apply, val_main_call8_cst_apply, select_cmpi_eq]
  simp only [Ideal.ofBits_def, Ideal.ofBits_zero_f32]

/-- The cotangent of head 3's hidden output at `(r, h)`: the head's cotangent times its second-layer weight. -/
theorem g3_at (r : Fin 500000) (h : Fin 83) :
    val_main_v106 (F := Ideal) x0 x3 x8 (ix2 r h) = val_main_v104_0 (F := Ideal) x0 x3 (ix1 r) * x8 (ix3 3 h 0) := by
  have el : lidx_main_v106 (ix2 r h) 0 = ix2 r 0 := funext fun a => Fin.ext (by
    match a with
    | ⟨0, _⟩ => rfl
    | ⟨1, _⟩ => rfl)
  have er : ridx_main_v106 (ix2 r h) 0 = ix2 h 0 := funext fun a => Fin.ext (by
    match a with
    | ⟨0, _⟩ => rfl
    | ⟨1, _⟩ => rfl)
  have ei : idx_main_v105 (ix2 r 0) = ix1 r := funext fun a => Fin.ext (by
    match a with
    | ⟨0, _⟩ => rfl)
  rw [val_main_v106_apply, Fin.sum_univ_one, el, er, val_main_v105_apply, ei, w2_3_at]

/-- Head 3's contribution to the derivative in descriptor entry `(r, j)`. -/
theorem head3_back (h1 : AllReal x1) (h5 : AllReal x5) (h6 : AllReal x6) (h7 : AllReal x7) (h8 : AllReal x8)
    (hr : InRange x3) (r : Fin 500000) (j : Fin 64) :
    val_main_v108 (F := Ideal) x0 x1 x3 x5 x6 x7 x8 (ix2 r j)
      = if x0 (ix1 r) = 3#32 then
          ∑ h : Fin 83, (dgate (hid (fun k => x1 (ix2 r k)) x5 x6 x7 3 h) * x8 (ix3 3 h 0)) * x6 (ix3 3 j h)
        else 0 := by
  have el : ∀ k : Fin 83, lidx_main_v108 (ix2 r j) k = ix2 r k := fun k => funext fun a => Fin.ext (by
    match a with
    | ⟨0, _⟩ => rfl
    | ⟨1, _⟩ => rfl)
  have er : ∀ k : Fin 83, ridx_main_v108 (ix2 r j) k = ix2 j k := fun k => funext fun a => Fin.ext (by
    match a with
    | ⟨0, _⟩ => rfl
    | ⟨1, _⟩ => rfl)
  rw [val_main_v108_apply]
  simp only [el, er, w1_3_at, val_main_v107_apply, val_main_call9_v1_apply, val_main_call9_v2_apply,
    val_main_call9_v0_apply, g3_at, hid3_at, gate3_at, dsig3_at, Ideal.addf_def, Ideal.mulf_def]
  exact head_back (x0 (ix1 r) = 3#32) _ (c3_at x0 x3 hr r) _ _ _
    (fun h => hid_real _ x5 x6 x7 (fun k => h1 (ix2 r k)) h5 h6 h7 3 h) (fun h => h8 (ix3 3 h 0))

/-! ## Head 2 -/

/-- Head 2's first-layer weights at `(j, h)`. -/
theorem w1_2_at (j : Fin 64) (h : Fin 83) : val_main_v47 (F := Ideal) x6 (ix2 j h) = x6 (ix3 2 j h) := by
  rw [val_main_v47_apply, val_main_v46_apply]
  refine congrArg x6 (funext fun a => Fin.ext ?_)
  have hj : j.val < 64 := j.isLt
  have hh : h.val < 83 := h.isLt
  match a with
  | ⟨0, _⟩ => show 2 + 0 = 2; rfl
  | ⟨1, _⟩ => show (j.val * 83 + h.val) / 83 % 64 = j.val; omega
  | ⟨2, _⟩ => show (j.val * 83 + h.val) % 83 = h.val; omega

/-- Head 2's bias at `(r, h)`. -/
theorem b1_2_at (r : Fin 500000) (h : Fin 83) : val_main_v52 (F := Ideal) x7 (ix2 r h) = x7 (ix2 2 h) := by
  rw [val_main_v52_apply, val_main_v51_apply, val_main_v50_apply, val_main_v49_apply]
  refine congrArg x7 (funext fun a => Fin.ext ?_)
  have hh : h.val < 83 := h.isLt
  match a with
  | ⟨0, _⟩ => show 2 + 0 = 2; rfl
  | ⟨1, _⟩ => show h.val % 83 = h.val; omega

/-- Head 2's second-layer weights at `(h, 0)`. -/
theorem w2_2_at (h : Fin 83) : val_main_v56 (F := Ideal) x8 (ix2 h 0) = x8 (ix3 2 h 0) := by
  rw [val_main_v56_apply, val_main_v55_apply]
  refine congrArg x8 (funext fun a => Fin.ext ?_)
  have hh : h.val < 83 := h.isLt
  match a with
  | ⟨0, _⟩ => show 2 + 0 = 2; rfl
  | ⟨1, _⟩ => show (h.val * 1 + 0) / 1 % 83 = h.val; omega
  | ⟨2, _⟩ => rfl

/-- Head 2's pre-activation at `(r, h)`. -/
theorem hid2_at (r : Fin 500000) (h : Fin 83) :
    val_main_v53 (F := Ideal) x1 x5 x6 x7 (ix2 r h) = hid (fun k => x1 (ix2 r k)) x5 x6 x7 2 h := by
  have el : ∀ k : Fin 64, lidx_main_v48 (ix2 r h) k = ix2 r k := fun k => funext fun a => Fin.ext (by
    match a with
    | ⟨0, _⟩ => rfl
    | ⟨1, _⟩ => rfl)
  have er : ∀ k : Fin 64, ridx_main_v48 (ix2 r h) k = ix2 k h := fun k => funext fun a => Fin.ext (by
    match a with
    | ⟨0, _⟩ => rfl
    | ⟨1, _⟩ => rfl)
  rw [val_main_v53_apply, val_main_v48_apply, b1_2_at]
  simp only [el, er, desc_at, w1_2_at, Ideal.addf_def]
  rfl

/-- The gate of head 2's pre-activation at `(r, h)`. -/
theorem gate2_at (r : Fin 500000) (h : Fin 83) :
    val_main_v54_2 (F := Ideal) x1 x5 x6 x7 (ix2 r h) = gate (hid (fun k => x1 (ix2 r k)) x5 x6 x7 2 h) := by
  rw [val_main_v54_2_apply, val_main_call4_v4_apply, val_main_call4_cst_0_apply, val_main_call4_v3_apply,
    val_main_call4_v2_apply, val_main_call4_cst_apply, val_main_call4_v1_apply, val_main_call4_v0_apply, hid2_at]
  simp only [Ideal.hostDivf_def, Ideal.addf_def, Ideal.hostUnary_exp_def, Ideal.ofBits_def, Ideal.ofBits_one_f32]
  rfl

/-- The gate's derivative factor of head 2 at `(r, h)`. -/
theorem dsig2_at (r : Fin 500000) (h : Fin 83) :
    val_main_v54_1 (F := Ideal) x1 x5 x6 x7 (ix2 r h)
      = gate (hid (fun k => x1 (ix2 r k)) x5 x6 x7 2 h) * (1 - gate (hid (fun k => x1 (ix2 r k)) x5 x6 x7 2 h)) := by
  rw [val_main_v54_1_apply, val_main_call4_v7_apply, val_main_call4_v6_apply, val_main_call4_cst_1_apply, gate2_at]
  simp only [Ideal.mulf_def, Ideal.subf_def, Ideal.ofBits_def, Ideal.ofBits_one_f32]

/-- Head 2's cotangent at atom `r`: one where the species word is 2, zero elsewhere. -/
theorem c2_at (hr : InRange x3) (r : Fin 500000) :
    val_main_v109_0 (F := Ideal) x0 x3 (ix1 r) = if x0 (ix1 r) = 2#32 then 1 else 0 := by
  rw [val_main_v109_0_apply, val_main_v65_apply, val_main_v64_apply, val_main_c_1_apply, p3_at x0 x3 hr,
    val_main_call10_v0_apply, val_main_call10_cst_apply, select_cmpi_eq]
  simp only [Ideal.ofBits_def, Ideal.ofBits_zero_f32]
  exact (chain_cotangents (x0 (ix1 r)) 1).1

/-- What head 2 passes on: zero where the species word is 2 or 3, one elsewhere. -/
theorem p2_at (hr : InRange x3) (r : Fin 500000) :
    val_main_v109_1 (F := Ideal) x0 x3 (ix1 r)
      = if x0 (ix1 r) = 2#32 then 0 else (if x0 (ix1 r) = 3#32 then 0 else 1) := by
  rw [val_main_v109_1_apply, val_main_v65_apply, val_main_v64_apply, val_main_c_1_apply, p3_at x0 x3 hr,
    val_main_call10_v0_apply, val_main_call10_cst_apply, select_cmpi_eq]
  simp only [Ideal.ofBits_def, Ideal.ofBits_zero_f32]

/-- The cotangent of head 2's hidden output at `(r, h)`. -/
theorem g2_at (r : Fin 500000) (h : Fin 83) :
    val_main_v111 (F := Ideal) x0 x3 x8 (ix2 r h) = val_main_v109_0 (F := Ideal) x0 x3 (ix1 r) * x8 (ix3 2 h 0) := by
  have el : lidx_main_v111 (ix2 r h) 0 = ix2 r 0 := funext fun a => Fin.ext (by
    match a with
    | ⟨0, _⟩ => rfl
    | ⟨1, _⟩ => rfl)
  have er : ridx_main_v111 (ix2 r h) 0 = ix2 h 0 := funext fun a => Fin.ext (by
    match a with
    | ⟨0, _⟩ => rfl
    | ⟨1, _⟩ => rfl)
  have ei : idx_main_v110 (ix2 r 0) = ix1 r := funext fun a => Fin.ext (by
    match a with
    | ⟨0, _⟩ => rfl)
  rw [val_main_v111_apply, Fin.sum_univ_one, el, er, val_main_v110_apply, ei, w2_2_at]

/-- Head 2's contribution to the derivative in descriptor entry `(r, j)`. -/
theorem head2_back (h1 : AllReal x1) (h5 : AllReal x5) (h6 : AllReal x6) (h7 : AllReal x7) (h8 : AllReal x8)
    (hr : InRange x3) (r : Fin 500000) (j : Fin 64) :
    val_main_v113 (F := Ideal) x0 x1 x3 x5 x6 x7 x8 (ix2 r j)
      = if x0 (ix1 r) = 2#32 then
          ∑ h : Fin 83, (dgate (hid (fun k => x1 (ix2 r k)) x5 x6 x7 2 h) * x8 (ix3 2 h 0)) * x6 (ix3 2 j h)
        else 0 := by
  have el : ∀ k : Fin 83, lidx_main_v113 (ix2 r j) k = ix2 r k := fun k => funext fun a => Fin.ext (by
    match a with
    | ⟨0, _⟩ => rfl
    | ⟨1, _⟩ => rfl)
  have er : ∀ k : Fin 83, ridx_main_v113 (ix2 r j) k = ix2 j k := fun k => funext fun a => Fin.ext (by
    match a with
    | ⟨0, _⟩ => rfl
    | ⟨1, _⟩ => rfl)
  rw [val_main_v113_apply]
  simp only [el, er, w1_2_at, val_main_v112_apply, val_main_call11_v1_apply, val_main_call11_v2_apply,
    val_main_call11_v0_apply, g2_at, hid2_at, gate2_at, dsig2_at, Ideal.addf_def, Ideal.mulf_def]
  exact head_back (x0 (ix1 r) = 2#32) _ (c2_at x0 x3 hr r) _ _ _
    (fun h => hid_real _ x5 x6 x7 (fun k => h1 (ix2 r k)) h5 h6 h7 2 h) (fun h => h8 (ix3 2 h 0))

/-! ## Head 1 -/

/-- Head 1's first-layer weights at `(j, h)`. -/
theorem w1_1_at (j : Fin 64) (h : Fin 83) : val_main_v26 (F := Ideal) x6 (ix2 j h) = x6 (ix3 1 j h) := by
  rw [val_main_v26_apply, val_main_v25_apply]
  refine congrArg x6 (funext fun a => Fin.ext ?_)
  have hj : j.val < 64 := j.isLt
  have hh : h.val < 83 := h.isLt
  match a with
  | ⟨0, _⟩ => show 1 + 0 = 1; rfl
  | ⟨1, _⟩ => show (j.val * 83 + h.val) / 83 % 64 = j.val; omega
  | ⟨2, _⟩ => show (j.val * 83 + h.val) % 83 = h.val; omega

/-- Head 1's bias at `(r, h)`. -/
theorem b1_1_at (r : Fin 500000) (h : Fin 83) : val_main_v31 (F := Ideal) x7 (ix2 r h) = x7 (ix2 1 h) := by
  rw [val_main_v31_apply, val_main_v30_apply, val_main_v29_apply, val_main_v28_apply]
  refine congrArg x7 (funext fun a => Fin.ext ?_)
  have hh : h.val < 83 := h.isLt
  match a with
  | ⟨0, _⟩ => show 1 + 0 = 1; rfl
  | ⟨1, _⟩ => show h.val % 83 = h.val; omega

/-- Head 1's second-layer weights at `(h, 0)`. -/
theorem w2_1_at (h : Fin 83) : val_main_v35 (F := Ideal) x8 (ix2 h 0) = x8 (ix3 1 h 0) := by
  rw [val_main_v35_apply, val_main_v34_apply]
  refine congrArg x8 (funext fun a => Fin.ext ?_)
  have hh : h.val < 83 := h.isLt
  match a with
  | ⟨0, _⟩ => show 1 + 0 = 1; rfl
  | ⟨1, _⟩ => show (h.val * 1 + 0) / 1 % 83 = h.val; omega
  | ⟨2, _⟩ => rfl

/-- Head 1's pre-activation at `(r, h)`. -/
theorem hid1_at (r : Fin 500000) (h : Fin 83) :
    val_main_v32 (F := Ideal) x1 x5 x6 x7 (ix2 r h) = hid (fun k => x1 (ix2 r k)) x5 x6 x7 1 h := by
  have el : ∀ k : Fin 64, lidx_main_v27 (ix2 r h) k = ix2 r k := fun k => funext fun a => Fin.ext (by
    match a with
    | ⟨0, _⟩ => rfl
    | ⟨1, _⟩ => rfl)
  have er : ∀ k : Fin 64, ridx_main_v27 (ix2 r h) k = ix2 k h := fun k => funext fun a => Fin.ext (by
    match a with
    | ⟨0, _⟩ => rfl
    | ⟨1, _⟩ => rfl)
  rw [val_main_v32_apply, val_main_v27_apply, b1_1_at]
  simp only [el, er, desc_at, w1_1_at, Ideal.addf_def]
  rfl

/-- The gate of head 1's pre-activation at `(r, h)`. -/
theorem gate1_at (r : Fin 500000) (h : Fin 83) :
    val_main_v33_2 (F := Ideal) x1 x5 x6 x7 (ix2 r h) = gate (hid (fun k => x1 (ix2 r k)) x5 x6 x7 1 h) := by
  rw [val_main_v33_2_apply, val_main_call2_v4_apply, val_main_call2_cst_0_apply, val_main_call2_v3_apply,
    val_main_call2_v2_apply, val_main_call2_cst_apply, val_main_call2_v1_apply, val_main_call2_v0_apply, hid1_at]
  simp only [Ideal.hostDivf_def, Ideal.addf_def, Ideal.hostUnary_exp_def, Ideal.ofBits_def, Ideal.ofBits_one_f32]
  rfl

/-- The gate's derivative factor of head 1 at `(r, h)`. -/
theorem dsig1_at (r : Fin 500000) (h : Fin 83) :
    val_main_v33_1 (F := Ideal) x1 x5 x6 x7 (ix2 r h)
      = gate (hid (fun k => x1 (ix2 r k)) x5 x6 x7 1 h) * (1 - gate (hid (fun k => x1 (ix2 r k)) x5 x6 x7 1 h)) := by
  rw [val_main_v33_1_apply, val_main_call2_v7_apply, val_main_call2_v6_apply, val_main_call2_cst_1_apply, gate1_at]
  simp only [Ideal.mulf_def, Ideal.subf_def, Ideal.ofBits_def, Ideal.ofBits_one_f32]

/-- Head 1's cotangent at atom `r`: one where the species word is 1, zero elsewhere. -/
theorem c1_at (hr : InRange x3) (r : Fin 500000) :
    val_main_v115_0 (F := Ideal) x0 x3 (ix1 r) = if x0 (ix1 r) = 1#32 then 1 else 0 := by
  rw [val_main_v115_0_apply, val_main_v44_apply, val_main_v43_apply, val_main_c_0_apply, p2_at x0 x3 hr,
    val_main_call12_v0_apply, val_main_call12_cst_apply, select_cmpi_eq]
  simp only [Ideal.ofBits_def, Ideal.ofBits_zero_f32]
  exact (chain_cotangents (x0 (ix1 r)) 1).2.1

/-- What head 1 passes on: zero where the species word is 1, 2 or 3, one elsewhere. -/
theorem p1_at (hr : InRange x3) (r : Fin 500000) :
    val_main_v115_1 (F := Ideal) x0 x3 (ix1 r)
      = if x0 (ix1 r) = 1#32 then 0 else (if x0 (ix1 r) = 2#32 then 0 else (if x0 (ix1 r) = 3#32 then 0 else 1)) := by
  rw [val_main_v115_1_apply, val_main_v44_apply, val_main_v43_apply, val_main_c_0_apply, p2_at x0 x3 hr,
    val_main_call12_v0_apply, val_main_call12_cst_apply, select_cmpi_eq]
  simp only [Ideal.ofBits_def, Ideal.ofBits_zero_f32]

/-- The cotangent of head 1's hidden output at `(r, h)`. -/
theorem g1_at (r : Fin 500000) (h : Fin 83) :
    val_main_v117 (F := Ideal) x0 x3 x8 (ix2 r h) = val_main_v115_0 (F := Ideal) x0 x3 (ix1 r) * x8 (ix3 1 h 0) := by
  have el : lidx_main_v117 (ix2 r h) 0 = ix2 r 0 := funext fun a => Fin.ext (by
    match a with
    | ⟨0, _⟩ => rfl
    | ⟨1, _⟩ => rfl)
  have er : ridx_main_v117 (ix2 r h) 0 = ix2 h 0 := funext fun a => Fin.ext (by
    match a with
    | ⟨0, _⟩ => rfl
    | ⟨1, _⟩ => rfl)
  have ei : idx_main_v116 (ix2 r 0) = ix1 r := funext fun a => Fin.ext (by
    match a with
    | ⟨0, _⟩ => rfl)
  rw [val_main_v117_apply, Fin.sum_univ_one, el, er, val_main_v116_apply, ei, w2_1_at]

/-- Head 1's contribution to the derivative in descriptor entry `(r, j)`. -/
theorem head1_back (h1 : AllReal x1) (h5 : AllReal x5) (h6 : AllReal x6) (h7 : AllReal x7) (h8 : AllReal x8)
    (hr : InRange x3) (r : Fin 500000) (j : Fin 64) :
    val_main_v119 (F := Ideal) x0 x1 x3 x5 x6 x7 x8 (ix2 r j)
      = if x0 (ix1 r) = 1#32 then
          ∑ h : Fin 83, (dgate (hid (fun k => x1 (ix2 r k)) x5 x6 x7 1 h) * x8 (ix3 1 h 0)) * x6 (ix3 1 j h)
        else 0 := by
  have el : ∀ k : Fin 83, lidx_main_v119 (ix2 r j) k = ix2 r k := fun k => funext fun a => Fin.ext (by
    match a with
    | ⟨0, _⟩ => rfl
    | ⟨1, _⟩ => rfl)
  have er : ∀ k : Fin 83, ridx_main_v119 (ix2 r j) k = ix2 j k := fun k => funext fun a => Fin.ext (by
    match a with
    | ⟨0, _⟩ => rfl
    | ⟨1, _⟩ => rfl)
  rw [val_main_v119_apply]
  simp only [el, er, w1_1_at, val_main_v118_apply, val_main_call13_v1_apply, val_main_call13_v2_apply,
    val_main_call13_v0_apply, g1_at, hid1_at, gate1_at, dsig1_at, Ideal.addf_def, Ideal.mulf_def]
  exact head_back (x0 (ix1 r) = 1#32) _ (c1_at x0 x3 hr r) _ _ _
    (fun h => hid_real _ x5 x6 x7 (fun k => h1 (ix2 r k)) h5 h6 h7 1 h) (fun h => h8 (ix3 1 h 0))

/-! ## Head 0 -/

/-- Head 0's first-layer weights at `(j, h)`. -/
theorem w1_0_at (j : Fin 64) (h : Fin 83) : val_main_v5 (F := Ideal) x6 (ix2 j h) = x6 (ix3 0 j h) := by
  rw [val_main_v5_apply, val_main_v4_apply]
  refine congrArg x6 (funext fun a => Fin.ext ?_)
  have hj : j.val < 64 := j.isLt
  have hh : h.val < 83 := h.isLt
  match a with
  | ⟨0, _⟩ => rfl
  | ⟨1, _⟩ => show (j.val * 83 + h.val) / 83 % 64 = j.val; omega
  | ⟨2, _⟩ => show (j.val * 83 + h.val) % 83 = h.val; omega

/-- Head 0's bias at `(r, h)`. -/
theorem b1_0_at (r : Fin 500000) (h : Fin 83) : val_main_v10 (F := Ideal) x7 (ix2 r h) = x7 (ix2 0 h) := by
  rw [val_main_v10_apply, val_main_v9_apply, val_main_v8_apply, val_main_v7_apply]
  refine congrArg x7 (funext fun a => Fin.ext ?_)
  have hh : h.val < 83 := h.isLt
  match a with
  | ⟨0, _⟩ => rfl
  | ⟨1, _⟩ => show h.val % 83 = h.val; omega

/-- Head 0's second-layer weights at `(h, 0)`. -/
theorem w2_0_at (h : Fin 83) : val_main_v14 (F := Ideal) x8 (ix2 h 0) = x8 (ix3 0 h 0) := by
  rw [val_main_v14_apply, val_main_v13_apply]
  refine congrArg x8 (funext fun a => Fin.ext ?_)
  have hh : h.val < 83 := h.isLt
  match a with
  | ⟨0, _⟩ => rfl
  | ⟨1, _⟩ => show (h.val * 1 + 0) / 1 % 83 = h.val; omega
  | ⟨2, _⟩ => rfl

/-- Head 0's pre-activation at `(r, h)`. -/
theorem hid0_at (r : Fin 500000) (h : Fin 83) :
    val_main_v11 (F := Ideal) x1 x5 x6 x7 (ix2 r h) = hid (fun k => x1 (ix2 r k)) x5 x6 x7 0 h := by
  have el : ∀ k : Fin 64, lidx_main_v6 (ix2 r h) k = ix2 r k := fun k => funext fun a => Fin.ext (by
    match a with
    | ⟨0, _⟩ => rfl
    | ⟨1, _⟩ => rfl)
  have er : ∀ k : Fin 64, ridx_main_v6 (ix2 r h) k = ix2 k h := fun k => funext fun a => Fin.ext (by
    match a with
    | ⟨0, _⟩ => rfl
    | ⟨1, _⟩ => rfl)
  rw [val_main_v11_apply, val_main_v6_apply, b1_0_at]
  simp only [el, er, desc_at, w1_0_at, Ideal.addf_def]
  rfl

/-- The gate of head 0's pre-activation at `(r, h)`. -/
theorem gate0_at (r : Fin 500000) (h : Fin 83) :
    val_main_v12_2 (F := Ideal) x1 x5 x6 x7 (ix2 r h) = gate (hid (fun k => x1 (ix2 r k)) x5 x6 x7 0 h) := by
  rw [val_main_v12_2_apply, val_main_call0_v4_apply, val_main_call0_cst_0_apply, val_main_call0_v3_apply,
    val_main_call0_v2_apply, val_main_call0_cst_apply, val_main_call0_v1_apply, val_main_call0_v0_apply, hid0_at]
  simp only [Ideal.hostDivf_def, Ideal.addf_def, Ideal.hostUnary_exp_def, Ideal.ofBits_def, Ideal.ofBits_one_f32]
  rfl

/-- The gate's derivative factor of head 0 at `(r, h)`. -/
theorem dsig0_at (r : Fin 500000) (h : Fin 83) :
    val_main_v12_1 (F := Ideal) x1 x5 x6 x7 (ix2 r h)
      = gate (hid (fun k => x1 (ix2 r k)) x5 x6 x7 0 h) * (1 - gate (hid (fun k => x1 (ix2 r k)) x5 x6 x7 0 h)) := by
  rw [val_main_v12_1_apply, val_main_call0_v7_apply, val_main_call0_v6_apply, val_main_call0_cst_1_apply, gate0_at]
  simp only [Ideal.mulf_def, Ideal.subf_def, Ideal.ofBits_def, Ideal.ofBits_one_f32]

/-- Head 0's cotangent at atom `r`: one where the species word is 0, zero elsewhere. -/
theorem c0_at (hr : InRange x3) (r : Fin 500000) :
    val_main_v121 (F := Ideal) x0 x3 (ix1 r) = if x0 (ix1 r) = 0#32 then 1 else 0 := by
  rw [val_main_v121_apply, val_main_v23_apply, val_main_v22_apply, val_main_c_apply, p1_at x0 x3 hr,
    val_main_call14_v0_apply, val_main_call14_cst_apply, select_cmpi_eq]
  simp only [Ideal.ofBits_def, Ideal.ofBits_zero_f32]
  exact (chain_cotangents (x0 (ix1 r)) 1).2.2

/-- The cotangent of head 0's hidden output at `(r, h)`. -/
theorem g0_at (r : Fin 500000) (h : Fin 83) :
    val_main_v123 (F := Ideal) x0 x3 x8 (ix2 r h) = val_main_v121 (F := Ideal) x0 x3 (ix1 r) * x8 (ix3 0 h 0) := by
  have el : lidx_main_v123 (ix2 r h) 0 = ix2 r 0 := funext fun a => Fin.ext (by
    match a with
    | ⟨0, _⟩ => rfl
    | ⟨1, _⟩ => rfl)
  have er : ridx_main_v123 (ix2 r h) 0 = ix2 h 0 := funext fun a => Fin.ext (by
    match a with
    | ⟨0, _⟩ => rfl
    | ⟨1, _⟩ => rfl)
  have ei : idx_main_v122 (ix2 r 0) = ix1 r := funext fun a => Fin.ext (by
    match a with
    | ⟨0, _⟩ => rfl)
  rw [val_main_v123_apply, Fin.sum_univ_one, el, er, val_main_v122_apply, ei, w2_0_at]

/-- Head 0's contribution to the derivative in descriptor entry `(r, j)`. -/
theorem head0_back (h1 : AllReal x1) (h5 : AllReal x5) (h6 : AllReal x6) (h7 : AllReal x7) (h8 : AllReal x8)
    (hr : InRange x3) (r : Fin 500000) (j : Fin 64) :
    val_main_v125 (F := Ideal) x0 x1 x3 x5 x6 x7 x8 (ix2 r j)
      = if x0 (ix1 r) = 0#32 then
          ∑ h : Fin 83, (dgate (hid (fun k => x1 (ix2 r k)) x5 x6 x7 0 h) * x8 (ix3 0 h 0)) * x6 (ix3 0 j h)
        else 0 := by
  have el : ∀ k : Fin 83, lidx_main_v125 (ix2 r j) k = ix2 r k := fun k => funext fun a => Fin.ext (by
    match a with
    | ⟨0, _⟩ => rfl
    | ⟨1, _⟩ => rfl)
  have er : ∀ k : Fin 83, ridx_main_v125 (ix2 r j) k = ix2 j k := fun k => funext fun a => Fin.ext (by
    match a with
    | ⟨0, _⟩ => rfl
    | ⟨1, _⟩ => rfl)
  rw [val_main_v125_apply]
  simp only [el, er, w1_0_at, val_main_v124_apply, val_main_call15_v1_apply, val_main_call15_v2_apply,
    val_main_call15_v0_apply, g0_at, hid0_at, gate0_at, dsig0_at, Ideal.addf_def, Ideal.mulf_def]
  exact head_back (x0 (ix1 r) = 0#32) _ (c0_at x0 x3 hr r) _ _ _
    (fun h => hid_real _ x5 x6 x7 (fun k => h1 (ix2 r k)) h5 h6 h7 0 h) (fun h => h8 (ix3 0 h 0))

/-! ## The four heads together -/

/-- The derivative of the total energy in descriptor entry `(r, j)`. -/
theorem back_eq (h1 : AllReal x1) (h5 : AllReal x5) (h6 : AllReal x6) (h7 : AllReal x7) (h8 : AllReal x8) (hr : InRange x3)
    (r : Fin 500000) (j : Fin 64) :
    val_main_v126 (F := Ideal) x0 x1 x3 x5 x6 x7 x8 (ix2 r j)
      = back (x0 (ix1 r)) (fun k => x1 (ix2 r k)) x5 x6 x7 x8 j := by
  rw [val_main_v126_apply, val_main_v120_apply, val_main_v114_apply]
  simp only [Ideal.addf_def]
  exact back_of_heads (x0 (ix1 r)) (fun k => x1 (ix2 r k)) x5 x6 x7 x8 j _ _ _ _
    (head3_back x0 x1 x3 x5 x6 x7 x8 h1 h5 h6 h7 h8 hr r j) (head2_back x0 x1 x3 x5 x6 x7 x8 h1 h5 h6 h7 h8 hr r j)
    (head1_back x0 x1 x3 x5 x6 x7 x8 h1 h5 h6 h7 h8 hr r j) (head0_back x0 x1 x3 x5 x6 x7 x8 h1 h5 h6 h7 h8 hr r j)

end Cert.ReferenceIdeal.RefValue

end
-- ==== Proof.RefForce.lean ====
/-
  The reference's third result is every atom's force: the derivative of the total energy in the descriptor, times the
  cosine of the projection, contracted with the projection's weights.
-/
import proofs.«431511_j4320737100384_3_alg».proof.Proof.RefRead
import proofs.«431511_j4320737100384_3_alg».proof.Proof.AtomSpec
import proofs.«431511_j4320737100384_3_alg».proof.Proof.RefBack
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.AtomSpec

variable (x0 : (⟨S500000, .i32⟩ : BufTy).Contents (Elt Ideal)) (x1 : (⟨S500000x3, .f32⟩ : BufTy).Contents (Elt Ideal))
  (x3 : (⟨S500000, .i32⟩ : BufTy).Contents (Elt Ideal)) (x5 : (⟨S3x64, .f32⟩ : BufTy).Contents (Elt Ideal))
  (x6 : (⟨S4x64x83, .f32⟩ : BufTy).Contents (Elt Ideal)) (x7 : (⟨S4x83, .f32⟩ : BufTy).Contents (Elt Ideal))
  (x8 : (⟨S4x83x1, .f32⟩ : BufTy).Contents (Elt Ideal)) (x9 : (⟨S4x1, .f32⟩ : BufTy).Contents (Elt Ideal))

/-- The reference's first product, entry `(r, j)`, is the projection of atom `r`'s position. -/
theorem proj_entry (r : Fin 500000) (j : Fin 64) :
    val_main_v0 (F := Ideal) x1 x5 (ix2 r j) = proj (fun k => x1 (ix2 r k)) x5 j := by
  rw [val_main_v0_apply, Fin.sum_univ_three]
  have el (k : Fin 3) : lidx_main_v0 (ix2 r j) k = ix2 r k :=
    funext fun a => Fin.ext (by match a with | ⟨0, _⟩ => rfl | ⟨1, _⟩ => rfl)
  have er (k : Fin 3) : ridx_main_v0 (ix2 r j) k = ix2 k j :=
    funext fun a => Fin.ext (by match a with | ⟨0, _⟩ => rfl | ⟨1, _⟩ => rfl)
  rw [el, el, el, er, er, er]
  rfl

/-- The reference's forces are the atoms' forces. -/
theorem forces_eq (h1 : AllReal x1) (h5 : AllReal x5) (h6 : AllReal x6) (h7 : AllReal x7) (h8 : AllReal x8) (hr : InRange x3) :
    val_main_v128 (F := Ideal) x0 x1 x3 x5 x6 x7 x8 = forces x0 x1 x5 x6 x7 x8 := by
  funext i
  obtain ⟨r, k, rfl⟩ : ∃ (r : Fin 500000) (k : Fin 3), i = ix2 r k := ⟨i 0, i 1, eq_ix2 i⟩
  rw [val_main_v128_apply]
  show _ = atomF (x0 (ix1 r)) (fun k' => x1 (ix2 r k')) x5 x6 x7 x8 k
  unfold atomF
  refine Finset.sum_congr rfl fun j _ => ?_
  have el : lidx_main_v128 (ix2 r k) j = ix2 r j :=
    funext fun a => Fin.ext (by match a with | ⟨0, _⟩ => rfl | ⟨1, _⟩ => rfl)
  have er : ridx_main_v128 (ix2 r k) j = ix2 k j :=
    funext fun a => Fin.ext (by match a with | ⟨0, _⟩ => rfl | ⟨1, _⟩ => rfl)
  rw [el, er, val_main_v127_apply, back_eq x0 x1 x3 x5 x6 x7 x8 h1 h5 h6 h7 h8 hr r j, val_main_v2_apply, proj_entry]
  rfl

end Cert.ReferenceIdeal.RefValue

end
-- ==== Proof.lean ====
/-
  The certificate: the kernel program — one pass over blocks of 1000 atoms that evaluates the four species heads
  stacked and the forces in closed form — and the reference — the same energies and their reverse-mode derivative —
  compute, on the extended reals, the same atom energies, the same per-crystal sums and the same forces, for finite
  weights and positions and crystal indices in range.

  The atoms' energies and forces are the functions of Proof/AtomSpec.lean.  The kernel's run leaves them in its
  results (Proof/KernelRun.lean: the body row by row, the blocks tiling the arrays, the host operations around the
  region).  The reference's run leaves its composed terms, which are the same functions: the energies operation by
  operation (Proof/RefEnergy.lean); the forces because, with every crystal index in range, the total energy counts each
  atom once, and because on real numbers the reference's spelling of the derivative of z · gate z is the kernel's
  (Proof/RefBack.lean, Proof/RefForce.lean).  The per-crystal sums are one scatter-add of equal energies.
-/
import proofs.«431511_j4320737100384_3_alg».proof.Defs
import proofs.«431511_j4320737100384_3_alg».proof.Proof.Gen.Kernel
import proofs.«431511_j4320737100384_3_alg».proof.Proof.Gen.Kernel.Skeleton
import proofs.«431511_j4320737100384_3_alg».proof.Proof.Gen.Kernel.Launch
import proofs.«431511_j4320737100384_3_alg».proof.Proof.Gen.Kernel.Points
import proofs.«431511_j4320737100384_3_alg».proof.Proof.Gen.Kernel.Frame
import proofs.«431511_j4320737100384_3_alg».proof.Proof.Gen.KernelIdeal
import proofs.«431511_j4320737100384_3_alg».proof.Proof.Gen.KernelIdeal.Skeleton
import proofs.«431511_j4320737100384_3_alg».proof.Proof.Gen.KernelIdeal.Launch
import proofs.«431511_j4320737100384_3_alg».proof.Proof.Gen.KernelIdeal.Points
import proofs.«431511_j4320737100384_3_alg».proof.Proof.Gen.KernelIdeal.Frame
import proofs.«431511_j4320737100384_3_alg».proof.Proof.Gen.ReferenceIdeal
import proofs.«431511_j4320737100384_3_alg».proof.Proof.Gen.Pre_finite_inputs
import proofs.«431511_j4320737100384_3_alg».proof.Proof.RefRun
import proofs.«431511_j4320737100384_3_alg».proof.Proof.RefRead
import proofs.«431511_j4320737100384_3_alg».proof.Proof.AtomSpec
import proofs.«431511_j4320737100384_3_alg».proof.Proof.PreFacts
import proofs.«431511_j4320737100384_3_alg».proof.Proof.KernelRun
import proofs.«431511_j4320737100384_3_alg».proof.Proof.RefEnergy
import proofs.«431511_j4320737100384_3_alg».proof.Proof.RefForce
import Idealize.ShloMosaic.Adequacy
import Idealize.ShloMosaic.Init

noncomputable section

namespace Cert.Proof

open Idealize.ShloMosaic Idealize.SL.Sem Cert.AtomSpec

/-! ## The frames -/

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-! ## The two programs' results are equal -/

/-- The per-crystal sum is the same scatter-add in both programs. -/
theorem crystal_sum [Cert.KernelIdeal.Facts] [Cert.ReferenceIdeal.Facts]
    (x0 : IVec Cert.ReferenceIdeal.S500000 32) (x1 : FVec Ideal Cert.ReferenceIdeal.S500000x3 .f32)
    (x3 : IVec Cert.ReferenceIdeal.S500000 32) (x5 : FVec Ideal Cert.ReferenceIdeal.S3x64 .f32)
    (x6 : FVec Ideal Cert.ReferenceIdeal.S4x64x83 .f32) (x7 : FVec Ideal Cert.ReferenceIdeal.S4x83 .f32)
    (x8 : FVec Ideal Cert.ReferenceIdeal.S4x83x1 .f32) (x9 : FVec Ideal Cert.ReferenceIdeal.S4x1 .f32) :
    Cert.ReferenceIdeal.Read.val_main_v90 (F := Ideal) x0 x1 x3 x5 x6 x7 x8 x9
      = Host.scatterAdd Cert.KernelIdeal.scatter_S2500_S500000x1_S500000_n_0_0_1
          (broadcastInDim Cert.KernelIdeal.S2500 ![] Cert.KernelIdeal.Facts₀.bcast_S_S2500 (constant (F := Ideal) Cert.KernelIdeal.S_ .f32 0x00000000#32))
          (broadcastInDim Cert.KernelIdeal.S500000x1 ![0] Cert.KernelIdeal.Facts₀.bcast_S500000_S500000x1_0 x3)
          (energies x0 x1 x5 x6 x7 x8 x9) := by
  unfold Cert.ReferenceIdeal.Read.val_main_v90
  rw [Cert.ReferenceIdeal.RefValue.energies_eq]
  rfl

theorem algebraic [Cert.KernelIdeal.Facts] [Cert.ReferenceIdeal.Facts] [Cert.Pre_finite_inputs.Facts] :
    Cert.algebraic_KernelIdeal_ReferenceIdeal := by
  intro m ρ m' ρ' hpre hagree
  refine ⟨_, _, _, Cert.KernelIdeal.KRun.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v87_eq, Cert.ReferenceIdeal.RefValue.energies_eq,
      (hagree c).1, (hagree c).2.1, (hagree c).2.2.2.2.2.1, (hagree c).2.2.2.2.2.2.1, (hagree c).2.2.2.2.2.2.2.1,
      (hagree c).2.2.2.2.2.2.2.2.1, (hagree c).2.2.2.2.2.2.2.2.2]
  · rw [Cert.ReferenceIdeal.Read.val_main_v90_eq, crystal_sum,
      (hagree c).1, (hagree c).2.1, (hagree c).2.2.2.1, (hagree c).2.2.2.2.2.1, (hagree c).2.2.2.2.2.2.1, (hagree c).2.2.2.2.2.2.2.1,
      (hagree c).2.2.2.2.2.2.2.2.1, (hagree c).2.2.2.2.2.2.2.2.2]
  · obtain ⟨h1, h5, h6, h7, h8, hr⟩ := Cert.PreFacts.of_pre _ _ _ _ _ _ _ _ _ _ (hpre c)
    rw [Cert.ReferenceIdeal.Read.val_main_v128_eq,
      (hagree c).1, (hagree c).2.1, (hagree c).2.2.2.1, (hagree c).2.2.2.2.2.1, (hagree c).2.2.2.2.2.2.1, (hagree c).2.2.2.2.2.2.2.1,
      (hagree c).2.2.2.2.2.2.2.2.1]
    exact Cert.ReferenceIdeal.RefValue.forces_eq _ _ _ _ _ _ _ h1 h5 h6 h7 h8 hr

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
